-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S16x256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v441) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x8192 : Shape := ⟨3, ![2, 1024, 8192]⟩
abbrev S32x8192x256 : Shape := ⟨3, ![32, 8192, 256]⟩
abbrev S1 : Shape := ⟨1, ![1]⟩
abbrev S8192x256 : Shape := ⟨2, ![8192, 256]⟩
abbrev S8192 : Shape := ⟨1, ![8192]⟩
abbrev S_ : Shape := ⟨0, ![]⟩

class Facts : Prop where
  bcast_S_S2x1024x8192 : S_.BroadcastsInDim S2x1024x8192 (![] : Fin 0 → Fin S2x1024x8192.rank)
  reducesTo_S2x1024x8192_S_d0_1_2 : S2x1024x8192.ReducesTo [0, 1, 2] S_
  h_S_ : 0 < S_.numel
  bcast_S_S32x8192x256 : S_.BroadcastsInDim S32x8192x256 (![] : Fin 0 → Fin S32x8192x256.rank)
  reducesTo_S32x8192x256_S_d0_1_2 : S32x8192x256.ReducesTo [0, 1, 2] S_
  bcast_S_S1 : S_.BroadcastsInDim S1 (![] : Fin 0 → Fin S1.rank)
  reducesTo_S1_S_d0 : S1.ReducesTo [0] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg6 : IVec S8192 32) (main_v30 : IVec S_ 1) (main_v32 : IVec S8192 1) : IVec S_ 1 :=
  let main_c_13 : IVec S_ 1 := constantI S_ 1 1#1
  let main_v33 : IVec S_ 1 := (fun x v => Host.reduce IntOp.andi x v reducesTo_S8192_S_d0 h_S_) main_v32 main_c_13
  let main_v34 : IVec S_ 1 := andi main_v30 main_v33
  let main_c_14 : IVec S_ 32 := constantI S_ 32 4294959104#32
  let main_v35 : IVec S8192 32 := broadcastInDim S8192 ![] bcast_S_S8192 main_c_14
  let main_v36 : IVec S8192 1 := cmpi .sge main_arg6 main_v35
  let main_c_15 : IVec S_ 1 := constantI S_ 1 1#1
  let main_v37 : IVec S_ 1 := (fun x v => Host.reduce IntOp.andi x v reducesTo_S8192_S_d0 h_S_) main_v36 main_c_15
  let main_v38 : IVec S_ 1 := andi main_v34 main_v37
  let main_c_16 : IVec S_ 32 := constantI S_ 32 8192#32
  let main_v39 : IVec S8192 32 := broadcastInDim S8192 ![] bcast_S_S8192 main_c_16
  let main_v40 : IVec S8192 1 := cmpi .slt main_arg6 main_v39
  let main_c_17 : IVec S_ 1 := constantI S_ 1 1#1
  let main_v41 : IVec S_ 1 := (fun x v => Host.reduce IntOp.andi x v reducesTo_S8192_S_d0 h_S_) main_v40 main_c_17
  let main_v42 : IVec S_ 1 := andi main_v38 main_v41
  main_v42

def fn_part1 {F : FTy → Type} [FloatOps F] (main_arg4 : IVec S8192 32) (main_arg5 : IVec S8192 32) (main_arg6 : IVec S8192 32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_c_6 : IVec S_ 32 := constantI S_ 32 4294959104#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 8192#32
  let main_v23 : IVec S8192 32 := broadcastInDim S8192 ![] bcast_S_S8192 main_c_8
  let main_v24 : IVec S8192 1 := cmpi .slt main_arg4 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  let main_c_10 : IVec S_ 32 := constantI S_ 32 4294959104#32
  let main_v27 : IVec S8192 32 := broadcastInDim S8192 ![] bcast_S_S8192 main_c_10
  let main_v28 : IVec S8192 1 := cmpi .sge main_arg5 main_v27
  let main_c_11 : IVec S_ 1 := constantI S_ 1 1#1
  let main_v29 : IVec S_ 1 := (fun x v => Host.reduce IntOp.andi x v reducesTo_S8192_S_d0 h_S_) main_v28 main_c_11
  let main_v30 : IVec S_ 1 := andi main_v26 main_v29
  let main_c_12 : IVec S_ 32 := constantI S_ 32 8192#32
  let main_v31 : IVec S8192 32 := broadcastInDim S8192 ![] bcast_S_S8192 main_c_12
  let main_v32 : IVec S8192 1 := cmpi .slt main_arg5 main_v31
  fn_part2 (F := F) main_arg6 main_v30 main_v32

def fn {F : FTy → Type} [FloatOps F] (main_arg0 : FVec F S2x1024x8192 .f32) (main_arg1 : FVec F S32x8192x256 .f32) (main_arg2 : FVec F S1 .f32) (main_arg3 : FVec F S8192x256 .f32) (main_arg4 : IVec S8192 32) (main_arg5 : IVec S8192 32) (main_arg6 : IVec S8192 32) : IVec S_ 1 :=
  let main_v0 : FVec F S2x1024x8192 .f32 := Host.absf main_arg0
  let main_cst : FVec F S_ .f32 := constant S_ .f32 0x7F800000#32
  let main_v1 : FVec F S2x1024x8192 .f32 := broadcastInDim S2x1024x8192 ![] bcast_S_S2x1024x8192 main_cst
  let main_v2 : IVec S2x1024x8192 1 := cmpf .olt main_v0 main_v1
  let main_c : IVec S_ 1 := constantI S_ 1 1#1
  let main_v3 : IVec S_ 1 := (fun x v => Host.reduce IntOp.andi x v reducesTo_S2x1024x8192_S_d0_1_2 h_S_) main_v2 main_c
  let main_v4 : FVec F S32x8192x256 .f32 := Host.absf main_arg1
  let main_cst_0 : FVec F S_ .f32 := constant S_ .f32 0x7F800000#32
  let main_v5 : FVec F S32x8192x256 .f32 := broadcastInDim S32x8192x256 ![] bcast_S_S32x8192x256 main_cst_0
  let main_v6 : IVec S32x8192x256 1 := cmpf .olt main_v4 main_v5
  let main_c_1 : IVec S_ 1 := constantI S_ 1 1#1
  let main_v7 : IVec S_ 1 := (fun x v => Host.reduce IntOp.andi x v reducesTo_S32x8192x256_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_v13 main_v16
-- ==== Kernel.lean ====
abbrev S2x1024x8192 : Shape := ⟨3, ![2, 1024, 8192]⟩
abbrev S32x8192x256 : Shape := ⟨3, ![32, 8192, 256]⟩
abbrev S1 : Shape := ⟨1, ![1]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x1 : Shape := ⟨2, ![1, 1]⟩
abbrev S2x1024x256 : Shape := ⟨3, ![2, 1024, 256]⟩
abbrev S1x1024x256 : Shape := ⟨3, ![1, 1024, 256]⟩
abbrev S16x256x256 : Shape := ⟨3, ![16, 256, 256]⟩
abbrev S256x256 : Shape := ⟨2, ![256, 256]⟩
abbrev S1024x256 : Shape := ⟨2, ![1024, 256]⟩
abbrev S1x256x256 : Shape := ⟨3, ![1, 256, 256]⟩

abbrev nBuf : Space → Nat
  | .hbm => 83
  | .vmem => 16
  | .smem => 0
  | _ => 0

abbrev bufTy : (tb : Table) → Fin (tcTables nBuf tb) → BufTy
  | .hbm, ⟨0, _⟩ => ⟨S2x1024x8192, .f32⟩
  | .hbm, ⟨1, _⟩ => ⟨S32x8192x256, .f32⟩
  | .hbm, ⟨2, _⟩ => ⟨S1, .f32⟩
  | .hbm, ⟨3, _⟩ => ⟨S8192x256, .f32⟩
  | .hbm, ⟨4, _⟩ => ⟨S8192, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S1, .i32⟩
  | .hbm, ⟨16, _⟩ => ⟨S_, .i32⟩
  | .hbm, ⟨17, _⟩ => ⟨S8192x1, .i32⟩
  | .hbm, ⟨18, _⟩ => ⟨S8192x1, .i1⟩
  | .hbm, ⟨19, _⟩ => ⟨S1x1, .i32⟩
  | .hbm, ⟨20, _⟩ => ⟨S8192x1, .i32⟩
  | .hbm, ⟨21, _⟩ => ⟨S8192x1, .i1⟩
  | .hbm, ⟨22, _⟩ => ⟨S8192x1, .i1⟩
  | .hbm, ⟨23, _⟩ => ⟨S_, .i1⟩
  | .hbm, ⟨24, _⟩ => ⟨S8192, .i1⟩
  | .hbm, ⟨25, _⟩ => ⟨S2x1024x8192, .f32⟩
  | .hbm, ⟨26, _⟩ => ⟨S2x1024x8192, .i1⟩
  | .hbm, ⟨27, _⟩ => ⟨S_, .f32⟩
  | .hbm, ⟨28, _⟩ => ⟨S2x1024x8192, .f32⟩
  | .hbm, ⟨29, _⟩ => ⟨S2x1024x8192, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S2x1024x8192, .f32⟩
  | .hbm, ⟨49, _⟩ => ⟨S2x1024x8192, .i1⟩
  | .hbm, ⟨50, _⟩ => ⟨S_, .f32⟩
  | .hbm, ⟨51, _⟩ => ⟨S2x1024x8192, .f32⟩
  | .hbm, ⟨52, _⟩ => ⟨S2x1024x8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S1, .i32⟩
  | .hbm, ⟨62, _⟩ => ⟨S_, .i32⟩
  | .hbm, ⟨63, _⟩ => ⟨S8192x1, .i32⟩
  | .hbm, ⟨64, _⟩ => ⟨S8192x1, .i1⟩
  | .hbm, ⟨65, _⟩ => ⟨S1x1, .i32⟩
  | .hbm, ⟨66, _⟩ => ⟨S8192x1, .i32⟩
  | .hbm, ⟨67, _⟩ => ⟨S8192x1, .i1⟩
  | .hbm, ⟨68, _⟩ => ⟨S8192x1, .i1⟩
  | .hbm, ⟨69, _⟩ => ⟨S_, .i1⟩
  | .hbm, ⟨70, _⟩ => ⟨S8192, .i1⟩
  | .hbm, ⟨71, _⟩ => ⟨S2x1024x8192, .f32⟩
  | .hbm, ⟨72, _⟩ => ⟨S2x1024x8192, .i1⟩
  | .hbm, ⟨73, _⟩ => ⟨S_, .f32⟩
  | .hbm, ⟨74, _⟩ => ⟨S2x1024x8192, .f32⟩
  | .hbm, ⟨75, _⟩ => ⟨S2x1024x8192, .f32⟩
  | .hbm, ⟨76, _⟩ => ⟨S2x1024x8192, .bf16⟩
  | .hbm, ⟨77, _⟩ => ⟨S2x1024x8192, .bf16⟩
  | .hbm, ⟨78, _⟩ => ⟨S2x1024x8192, .bf16⟩
  | .hbm, ⟨79, _⟩ => ⟨S2x1024x8192, .bf16⟩
  | .hbm, ⟨80, _⟩ => ⟨S2x1024x256, .f32⟩
  | .hbm, ⟨81, _⟩ => ⟨S_, .f32⟩
  | .hbm, ⟨82, _⟩ => ⟨S1024x256, .f32⟩
  | .local _ .vmem, ⟨0, _⟩ => ⟨S1, .f32⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S16x256x256, .f32⟩
  | .local _ .vmem, ⟨10, _⟩ => ⟨S16x256x256, .f32⟩
  | .local _ .vmem, ⟨11, _⟩ => ⟨S256x256, .f32⟩
  | .local _ .vmem, ⟨12, _⟩ => ⟨S256x256, .f32⟩
  | .local _ .vmem, ⟨13, _⟩ => ⟨S1x1024x256, .f32⟩
  | .local _ .vmem, ⟨14, _⟩ => ⟨S1x1024x256, .f32⟩
  | .local _ .vmem, ⟨15, _⟩ => ⟨S1024x256, .f32⟩
  | _, _ => ⟨S2x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_v3 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v232 : BitVec 1 := Scalar.cmpi .eq arg1 c31_i32
  let v233 : BitVec 32 := Scalar.extui v232
  let c0_i32_110 : BitVec 32 := 0#32
  let v234 : BitVec 1 := Scalar.cmpi .ne v233 c0_i32_110
  v234

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S2x1024x8192_2 : S8192.BroadcastsInDim S2x1024x8192 (![2] : Fin 1 → Fin S2x1024x8192.rank)
  bcast_S_S2x1024x8192 : S_.BroadcastsInDim S2x1024x8192 (![] : Fin 0 → Fin S2x1024x8192.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1_S1_0 : ∀ a, (![0] : Fin 1 → Nat) a + S1.size a ≤ S1.size a
  h_S1 : 0 < S1.numel
  inpos_S1_p0 : ∀ a, (![0] : Fin 1 → Nat) a < S1.size a
  inb_S16x256x256_S16x256x256_0_0_0 : ∀ a, (![0, 0, 0] : Fin 3 → Nat) a + S16x256x256.size a ≤ S16x256x256.size a
  h_S16x256x256 : 0 < S16x256x256.numel
  inb_S256x256_S256x256_0_0 : ∀ a, (![0, 0] : Fin 2 → Nat) a + S256x256.size a ≤ S256x256.size a
  h_S256x256 : 0 < S256x256.numel
  shapeCasts_S256x256_S1x256x256 : S256x256.ShapeCasts S1x256x256
  broadcasts_S1x256x256_S16x256x256 : S1x256x256.Broadcasts S16x256x256
  slices_S16x256x256_o0_0_0_S1x256x256 : S16x256x256.Slices ![0, 0, 0] S1x256x256
  shapeCasts_S1x256x256_S256x256 : S1x256x256.ShapeCasts S256x256
  slices_S16x256x256_o1_0_0_S1x256x256 : S16x256x256.Slices ![1, 0, 0] S1x256x256
  slices_S16x256x256_o2_0_0_S1x256x256 : S16x256x256.Slices ![2, 0, 0] S1x256x256
  slices_S16x256x256_o3_0_0_S1x256x256 : S16x256x256.Slices ![3, 0, 0] S1x256x256
  slices_S16x256x256_o4_0_0_S1x256x256 : S16x256x256.Slices ![4, 0, 0] S1x256x256
  slices_S16x256x256_o5_0_0_S1x256x256 : S16x256x256.Slices ![5, 0, 0] S1x256x256
  slices_S16x256x256_o6_0_0_S1x256x256 : S16x256x256.Slices ![6, 0, 0] S1x256x256
  slices_S16x256x256_o7_0_0_S1x256x256 : S16x256x256.Slices ![7, 0, 0] S1x256x256
  slices_S16x256x256_o8_0_0_S1x256x256 : S16x256x256.Slices ![8, 0, 0] S1x256x256
  slices_S16x256x256_o9_0_0_S1x256x256 : S16x256x256.Slices ![9, 0, 0] S1x256x256
  slices_S16x256x256_o10_0_0_S1x256x256 : S16x256x256.Slices ![10, 0, 0] S1x256x256
  slices_S16x256x256_o11_0_0_S1x256x256 : S16x256x256.Slices ![11, 0, 0] S1x256x256
  slices_S16x256x256_o12_0_0_S1x256x256 : S16x256x256.Slices ![12, 0, 0] S1x256x256
  slices_S16x256x256_o13_0_0_S1x256x256 : S16x256x256.Slices ![13, 0, 0] S1x256x256
  slices_S16x256x256_o14_0_0_S1x256x256 : S16x256x256.Slices ![14, 0, 0] S1x256x256
  slices_S16x256x256_o15_0_0_S1x256x256 : S16x256x256.Slices ![15, 0, 0] S1x256x256
  shapeCasts_S1024x256_S1x1024x256 : S1024x256.ShapeCasts S1x1024x256
  reducesTo_S2x1024x256_S1024x256_d0 : S2x1024x256.ReducesTo [0] S1024x256
  gather_S2x1024x8192_S8192x1_S2x1024x8192_01_2_n_n_2_1_210241_wf : GatherDims.WF S2x1024x8192 S8192x1 S2x1024x8192 [0, 1] [2] [] [2] [] 1 ![2, 1024, 1]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S2x1024x8192.size a
  hwx0_1 : ∀ i : grid0.Coords, EltTy.bits .bf16 = 32 ∨ (Rect.block (s := S2x1024x8192) S1x1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x8192.size a
  hwx0_2 : ∀ i : grid0.Coords, EltTy.bits .bf16 = 32 ∨ (Rect.block (s := S2x1024x8192) S1x1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S2x1024x8192.size a
  hwx0_3 : ∀ i : grid0.Coords, EltTy.bits .bf16 = 32 ∨ (Rect.block (s := S2x1024x8192) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S2x1024x8192.size a
  hwx0_4 : ∀ i : grid0.Coords, EltTy.bits .bf16 = 32 ∨ (Rect.block (s := S2x1024x8192) S1x1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x256.size a ≤ S32x8192x256.size a
  hwx0_5 : ∀ i : grid0.Coords, EltTy.bits .f32 = 32 ∨ (Rect.block (s := S32x8192x256) S16x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x256.size a
  hwx0_6 : ∀ i : grid0.Coords, EltTy.bits .f32 = 32 ∨ (Rect.block (s := S8192x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S2x1024x256.size a
  hwx0_7 : ∀ i : grid0.Coords, EltTy.bits .f32 = 32 ∨ (Rect.block (s := S2x1024x256) S1x1024x256.size (cc0_transform_7 i) (hinb0_7 i)).WholeWords (EltTy.packing .f32)

variable [Facts₀]

def gather_S2x1024x8192_S8192x1_S2x1024x8192_01_2_n_n_2_1_210241 : GatherDims S2x1024x8192 S8192x1 S2x1024x8192 where
  offsetDims := [0, 1]
  collapsedSliceDims := [2]
  operandBatchingDims := []
  startIndicesBatchingDims := []
  startIndexMap := [2]
  indexVectorDim := 1
  sliceSizes := ![2, 1024, 1]
  wf := gather_S2x1024x8192_S8192x1_S2x1024x8192_01_2_n_n_2_1_210241_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg2) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S16x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x1024x8192 : Shape := ⟨3, ![2, 1024, 8192]⟩
abbrev S32x8192x256 : Shape := ⟨3, ![32, 8192, 256]⟩
abbrev S1 : Shape := ⟨1, ![1]⟩
abbrev S8192x256 : Shape := ⟨2, ![8192, 256]⟩
abbrev S8192 : Shape := ⟨1, ![8192]⟩
abbrev S_ : Shape := ⟨0, ![]⟩
abbrev S1x8192x256 : Shape := ⟨3, ![1, 8192, 256]⟩
abbrev S1024x256 : Shape := ⟨2, ![1024, 256]⟩
abbrev S1x1024x8192 : Shape := ⟨3, ![1, 1024, 8192]⟩
abbrev S1024x8192 : Shape := ⟨2, ![1024, 8192]⟩
abbrev S8192x1 : Shape := ⟨2, ![8192, 1]⟩

abbrev nBuf : Space → Nat
  | .hbm => 613
  | .vmem => 0
  | .smem => 0
  | _ => 0

abbrev hbmTy0_0 (i : Nat) : BufTy := match i % 128 with
  | 0 => ⟨S2x1024x8192, .f32⟩
  | 1 => ⟨S32x8192x256, .f32⟩
  | 2 => ⟨S1, .f32⟩
  | 3 => ⟨S8192x256, .f32⟩
  | 4 => ⟨S8192, .i32⟩
  | 5 => ⟨S8192, .i32⟩
  | 6 => ⟨S8192, .i32⟩
  | 7 => ⟨S_, .f32⟩
  | 8 => ⟨S_, .f32⟩
  | 9 => ⟨S_, .f32⟩
  | 10 => ⟨S_, .f32⟩
  | 11 => ⟨S_, .f32⟩
  | 12 => ⟨S32x8192x256, .f32⟩
  | 13 => ⟨S32x8192x256, .f32⟩
  | 14 => ⟨S_, .f32⟩
  | 15 => ⟨S32x8192x256, .f32⟩
  | 16 => ⟨S32x8192x256, .f32⟩
  | 17 => ⟨S32x8192x256, .f32⟩
  | 18 => ⟨S32x8192x256, .f32⟩
  | 19 => ⟨S32x8192x256, .f32⟩
  | 20 => ⟨S32x8192x256, .f32⟩
  | 21 => ⟨S32x8192x256, .f32⟩
  | 22 => ⟨S1x8192x256, .f32⟩
  | 23 => ⟨S32x8192x256, .f32⟩
  | 24 => ⟨S32x8192x256, .f32⟩
  | 25 => ⟨S_, .f32⟩
  | 26 => ⟨S1024x256, .f32⟩
  | 27 => ⟨S1x1024x8192, .f32⟩
  | 28 => ⟨S1024x8192, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S1024x8192, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S1024x8192, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S1024x8192, .f32⟩
  | 56 => ⟨S_, .f32⟩
  | 57 => ⟨S_, .f32⟩
  | 58 => ⟨S_, .f32⟩
  | 59 => ⟨S1024x8192, .f32⟩
  | 60 => ⟨S1024x8192, .f32⟩
  | 61 => ⟨S_, .f32⟩
  | 62 => ⟨S1024x8192, .f32⟩
  | 63 => ⟨S1024x8192, .f32⟩
  | 64 => ⟨S1024x8192, .f32⟩
  | 65 => ⟨S1024x8192, .f32⟩
  | 66 => ⟨S1024x8192, .f32⟩
  | 67 => ⟨S_, .f32⟩
  | 68 => ⟨S1024x8192, .f32⟩
  | 69 => ⟨S1024x8192, .f32⟩
  | 70 => ⟨S_, .f32⟩
  | 71 => ⟨S1024x8192, .f32⟩
  | 72 => ⟨S1024x8192, .f32⟩
  | 73 => ⟨S1024x8192, .f32⟩
  | 74 => ⟨S1024x8192, .f32⟩
  | 75 => ⟨S_, .f32⟩
  | 76 => ⟨S_, .f32⟩
  | 77 => ⟨S_, .f32⟩
  | 78 => ⟨S1024x8192, .f32⟩
  | 79 => ⟨S1024x8192, .f32⟩
  | 80 => ⟨S_, .f32⟩
  | 81 => ⟨S1024x8192, .f32⟩
  | 82 => ⟨S1024x8192, .f32⟩
  | 83 => ⟨S1024x8192, .f32⟩
  | 84 => ⟨S1024x8192, .f32⟩
  | 85 => ⟨S1024x8192, .f32⟩
  | 86 => ⟨S_, .f32⟩
  | 87 => ⟨S1024x8192, .f32⟩
  | 88 => ⟨S1024x8192, .f32⟩
  | 89 => ⟨S_, .f32⟩
  | 90 => ⟨S1024x8192, .f32⟩
  | 91 => ⟨S1024x8192, .f32⟩
  | 92 => ⟨S1024x8192, .f32⟩
  | 93 => ⟨S1024x8192, .f32⟩
  | 94 => ⟨S_, .f32⟩
  | 95 => ⟨S_, .f32⟩
  | 96 => ⟨S_, .f32⟩
  | 97 => ⟨S1024x8192, .f32⟩
  | 98 => ⟨S1024x8192, .f32⟩
  | 99 => ⟨S_, .f32⟩
  | 100 => ⟨S1024x8192, .f32⟩
  | 101 => ⟨S1024x8192, .f32⟩
  | 102 => ⟨S1024x8192, .f32⟩
  | 103 => ⟨S1024x8192, .f32⟩
  | 104 => ⟨S1024x8192, .f32⟩
  | 105 => ⟨S_, .f32⟩
  | 106 => ⟨S1024x8192, .f32⟩
  | 107 => ⟨S1024x8192, .f32⟩
  | 108 => ⟨S_, .f32⟩
  | 109 => ⟨S1024x8192, .f32⟩
  | 110 => ⟨S1024x8192, .f32⟩
  | 111 => ⟨S1024x8192, .f32⟩
  | 112 => ⟨S1024x8192, .f32⟩
  | 113 => ⟨S_, .f32⟩
  | 114 => ⟨S_, .f32⟩
  | 115 => ⟨S_, .f32⟩
  | 116 => ⟨S1024x8192, .f32⟩
  | 117 => ⟨S1024x8192, .f32⟩
  | 118 => ⟨S_, .f32⟩
  | 119 => ⟨S1024x8192, .f32⟩
  | 120 => ⟨S1024x8192, .f32⟩
  | 121 => ⟨S1024x8192, .f32⟩
  | 122 => ⟨S1024x8192, .f32⟩
  | 123 => ⟨S1024x8192, .f32⟩
  | 124 => ⟨S_, .f32⟩
  | 125 => ⟨S1024x8192, .f32⟩
  | 126 => ⟨S1024x8192, .f32⟩
  | 127 => ⟨S_, .f32⟩
  | _ => ⟨S2x1024x8192, .f32⟩

abbrev hbmTy0_1 (i : Nat) : BufTy := match i % 128 with
  | 0 => ⟨S1024x8192, .f32⟩
  | 1 => ⟨S1024x8192, .f32⟩
  | 2 => ⟨S1024x8192, .f32⟩
  | 3 => ⟨S1024x8192, .f32⟩
  | 4 => ⟨S_, .f32⟩
  | 5 => ⟨S_, .f32⟩
  | 6 => ⟨S_, .f32⟩
  | 7 => ⟨S1024x8192, .f32⟩
  | 8 => ⟨S1024x8192, .f32⟩
  | 9 => ⟨S_, .f32⟩
  | 10 => ⟨S1024x8192, .f32⟩
  | 11 => ⟨S1024x8192, .f32⟩
  | 12 => ⟨S1024x8192, .f32⟩
  | 13 => ⟨S1024x8192, .f32⟩
  | 14 => ⟨S1024x8192, .f32⟩
  | 15 => ⟨S_, .f32⟩
  | 16 => ⟨S1024x8192, .f32⟩
  | 17 => ⟨S1024x8192, .f32⟩
  | 18 => ⟨S_, .f32⟩
  | 19 => ⟨S1024x8192, .f32⟩
  | 20 => ⟨S1024x8192, .f32⟩
  | 21 => ⟨S1024x8192, .f32⟩
  | 22 => ⟨S1024x8192, .f32⟩
  | 23 => ⟨S_, .f32⟩
  | 24 => ⟨S_, .f32⟩
  | 25 => ⟨S_, .f32⟩
  | 26 => ⟨S1024x8192, .f32⟩
  | 27 => ⟨S1024x8192, .f32⟩
  | 28 => ⟨S_, .f32⟩
  | 29 => ⟨S1024x8192, .f32⟩
  | 30 => ⟨S1024x8192, .f32⟩
  | 31 => ⟨S1024x8192, .f32⟩
  | 32 => ⟨S1024x8192, .f32⟩
  | 33 => ⟨S1024x8192, .f32⟩
  | 34 => ⟨S_, .f32⟩
  | 35 => ⟨S1024x8192, .f32⟩
  | 36 => ⟨S1024x8192, .f32⟩
  | 37 => ⟨S_, .f32⟩
  | 38 => ⟨S1024x8192, .f32⟩
  | 39 => ⟨S1024x8192, .f32⟩
  | 40 => ⟨S1024x8192, .f32⟩
  | 41 => ⟨S1024x8192, .f32⟩
  | 42 => ⟨S_, .f32⟩
  | 43 => ⟨S_, .f32⟩
  | 44 => ⟨S_, .f32⟩
  | 45 => ⟨S1024x8192, .f32⟩
  | 46 => ⟨S1024x8192, .f32⟩
  | 47 => ⟨S_, .f32⟩
  | 48 => ⟨S1024x8192, .f32⟩
  | 49 => ⟨S1024x8192, .f32⟩
  | 50 => ⟨S1024x8192, .f32⟩
  | 51 => ⟨S1024x8192, .f32⟩
  | 52 => ⟨S1024x8192, .f32⟩
  | 53 => ⟨S_, .f32⟩
  | 54 => ⟨S1024x8192, .f32⟩
  | 55 => ⟨S1024x8192, .f32⟩
  | 56 => ⟨S_, .f32⟩
  | 57 => ⟨S1024x8192, .f32⟩
  | 58 => ⟨S1024x8192, .f32⟩
  | 59 => ⟨S1024x8192, .f32⟩
  | 60 => ⟨S1024x8192, .f32⟩
  | 61 => ⟨S_, .f32⟩
  | 62 => ⟨S_, .f32⟩
  | 63 => ⟨S_, .f32⟩
  | 64 => ⟨S1024x8192, .f32⟩
  | 65 => ⟨S1024x8192, .f32⟩
  | 66 => ⟨S_, .f32⟩
  | 67 => ⟨S1024x8192, .f32⟩
  | 68 => ⟨S1024x8192, .f32⟩
  | 69 => ⟨S1024x8192, .f32⟩
  | 70 => ⟨S1024x8192, .f32⟩
  | 71 => ⟨S1024x8192, .f32⟩
  | 72 => ⟨S_, .f32⟩
  | 73 => ⟨S1024x8192, .f32⟩
  | 74 => ⟨S1024x8192, .f32⟩
  | 75 => ⟨S_, .f32⟩
  | 76 => ⟨S1024x8192, .f32⟩
  | 77 => ⟨S1024x8192, .f32⟩
  | 78 => ⟨S1024x8192, .f32⟩
  | 79 => ⟨S1024x8192, .f32⟩
  | 80 => ⟨S1024x8192, .f32⟩
  | 81 => ⟨S1024x8192, .f32⟩
  | 82 => ⟨S1024x8192, .f32⟩
  | 83 => ⟨S1x8192x256, .f32⟩
  | 84 => ⟨S8192x256, .f32⟩
  | 85 => ⟨S1024x256, .f32⟩
  | 86 => ⟨S1024x256, .f32⟩
  | 87 => ⟨S1024x8192, .f32⟩
  | 88 => ⟨S1024x8192, .f32⟩
  | 89 => ⟨S1024x8192, .f32⟩
  | 90 => ⟨S1x8192x256, .f32⟩
  | 91 => ⟨S8192x256, .f32⟩
  | 92 => ⟨S1024x256, .f32⟩
  | 93 => ⟨S1024x256, .f32⟩
  | 94 => ⟨S1024x8192, .f32⟩
  | 95 => ⟨S1024x8192, .f32⟩
  | 96 => ⟨S1024x8192, .f32⟩
  | 97 => ⟨S1x8192x256, .f32⟩
  | 98 => ⟨S8192x256, .f32⟩
  | 99 => ⟨S1024x256, .f32⟩
  | 100 => ⟨S1024x256, .f32⟩
  | 101 => ⟨S1024x8192, .f32⟩
  | 102 => ⟨S1024x8192, .f32⟩
  | 103 => ⟨S1024x8192, .f32⟩
  | 104 => ⟨S1x8192x256, .f32⟩
  | 105 => ⟨S8192x256, .f32⟩
  | 106 => ⟨S1024x256, .f32⟩
  | 107 => ⟨S1024x256, .f32⟩
  | 108 => ⟨S1024x8192, .f32⟩
  | 109 => ⟨S1024x8192, .f32⟩
  | 110 => ⟨S1024x8192, .f32⟩
  | 111 => ⟨S1x8192x256, .f32⟩
  | 112 => ⟨S8192x256, .f32⟩
  | 113 => ⟨S1024x256, .f32⟩
  | 114 => ⟨S1024x256, .f32⟩
  | 115 => ⟨S1024x8192, .f32⟩
  | 116 => ⟨S1024x8192, .f32⟩
  | 117 => ⟨S1024x8192, .f32⟩
  | 118 => ⟨S1x8192x256, .f32⟩
  | 119 => ⟨S8192x256, .f32⟩
  | 120 => ⟨S1024x256, .f32⟩
  | 121 => ⟨S1024x256, .f32⟩
  | 122 => ⟨S1024x8192, .f32⟩
  | 123 => ⟨S1024x8192, .f32⟩
  | 124 => ⟨S1024x8192, .f32⟩
  | 125 => ⟨S1x8192x256, .f32⟩
  | 126 => ⟨S8192x256, .f32⟩
  | 127 => ⟨S1024x256, .f32⟩
  | _ => ⟨S2x1024x8192, .f32⟩

abbrev hbmTy0_2 (i : Nat) : BufTy := match i % 128 with
  | 0 => ⟨S1024x256, .f32⟩
  | 1 => ⟨S1024x8192, .f32⟩
  | 2 => ⟨S1024x8192, .f32⟩
  | 3 => ⟨S1024x8192, .f32⟩
  | 4 => ⟨S1x8192x256, .f32⟩
  | 5 => ⟨S8192x256, .f32⟩
  | 6 => ⟨S1024x256, .f32⟩
  | 7 => ⟨S1024x256, .f32⟩
  | 8 => ⟨S1024x8192, .f32⟩
  | 9 => ⟨S1024x8192, .f32⟩
  | 10 => ⟨S1024x8192, .f32⟩
  | 11 => ⟨S1x8192x256, .f32⟩
  | 12 => ⟨S8192x256, .f32⟩
  | 13 => ⟨S1024x256, .f32⟩
  | 14 => ⟨S1024x256, .f32⟩
  | 15 => ⟨S1024x8192, .f32⟩
  | 16 => ⟨S1024x8192, .f32⟩
  | 17 => ⟨S1024x8192, .f32⟩
  | 18 => ⟨S1x8192x256, .f32⟩
  | 19 => ⟨S8192x256, .f32⟩
  | 20 => ⟨S1024x256, .f32⟩
  | 21 => ⟨S1024x256, .f32⟩
  | 22 => ⟨S1024x8192, .f32⟩
  | 23 => ⟨S1024x8192, .f32⟩
  | 24 => ⟨S1024x8192, .f32⟩
  | 25 => ⟨S1x8192x256, .f32⟩
  | 26 => ⟨S8192x256, .f32⟩
  | 27 => ⟨S1024x256, .f32⟩
  | 28 => ⟨S1024x256, .f32⟩
  | 29 => ⟨S1024x8192, .f32⟩
  | 30 => ⟨S1024x8192, .f32⟩
  | 31 => ⟨S1024x8192, .f32⟩
  | 32 => ⟨S1x8192x256, .f32⟩
  | 33 => ⟨S8192x256, .f32⟩
  | 34 => ⟨S1024x256, .f32⟩
  | 35 => ⟨S1024x256, .f32⟩
  | 36 => ⟨S1024x8192, .f32⟩
  | 37 => ⟨S1024x8192, .f32⟩
  | 38 => ⟨S1024x8192, .f32⟩
  | 39 => ⟨S1x8192x256, .f32⟩
  | 40 => ⟨S8192x256, .f32⟩
  | 41 => ⟨S1024x256, .f32⟩
  | 42 => ⟨S1024x256, .f32⟩
  | 43 => ⟨S1024x8192, .f32⟩
  | 44 => ⟨S1024x8192, .f32⟩
  | 45 => ⟨S1024x8192, .f32⟩
  | 46 => ⟨S1x8192x256, .f32⟩
  | 47 => ⟨S8192x256, .f32⟩
  | 48 => ⟨S1024x256, .f32⟩
  | 49 => ⟨S1024x256, .f32⟩
  | 50 => ⟨S1024x8192, .f32⟩
  | 51 => ⟨S1024x8192, .f32⟩
  | 52 => ⟨S1024x8192, .f32⟩
  | 53 => ⟨S1x8192x256, .f32⟩
  | 54 => ⟨S8192x256, .f32⟩
  | 55 => ⟨S1024x256, .f32⟩
  | 56 => ⟨S1024x256, .f32⟩
  | 57 => ⟨S1024x8192, .f32⟩
  | 58 => ⟨S1024x8192, .f32⟩
  | 59 => ⟨S1024x8192, .f32⟩
  | 60 => ⟨S1x8192x256, .f32⟩
  | 61 => ⟨S8192x256, .f32⟩
  | 62 => ⟨S1024x256, .f32⟩
  | 63 => ⟨S1024x256, .f32⟩
  | 64 => ⟨S1x1024x8192, .f32⟩
  | 65 => ⟨S1024x8192, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S1024x8192, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S1024x8192, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S1024x8192, .f32⟩
  | 93 => ⟨S_, .f32⟩
  | 94 => ⟨S_, .f32⟩
  | 95 => ⟨S_, .f32⟩
  | 96 => ⟨S1024x8192, .f32⟩
  | 97 => ⟨S1024x8192, .f32⟩
  | 98 => ⟨S_, .f32⟩
  | 99 => ⟨S1024x8192, .f32⟩
  | 100 => ⟨S1024x8192, .f32⟩
  | 101 => ⟨S1024x8192, .f32⟩
  | 102 => ⟨S1024x8192, .f32⟩
  | 103 => ⟨S1024x8192, .f32⟩
  | 104 => ⟨S_, .f32⟩
  | 105 => ⟨S1024x8192, .f32⟩
  | 106 => ⟨S1024x8192, .f32⟩
  | 107 => ⟨S_, .f32⟩
  | 108 => ⟨S1024x8192, .f32⟩
  | 109 => ⟨S1024x8192, .f32⟩
  | 110 => ⟨S1024x8192, .f32⟩
  | 111 => ⟨S1024x8192, .f32⟩
  | 112 => ⟨S_, .f32⟩
  | 113 => ⟨S_, .f32⟩
  | 114 => ⟨S_, .f32⟩
  | 115 => ⟨S1024x8192, .f32⟩
  | 116 => ⟨S1024x8192, .f32⟩
  | 117 => ⟨S_, .f32⟩
  | 118 => ⟨S1024x8192, .f32⟩
  | 119 => ⟨S1024x8192, .f32⟩
  | 120 => ⟨S1024x8192, .f32⟩
  | 121 => ⟨S1024x8192, .f32⟩
  | 122 => ⟨S1024x8192, .f32⟩
  | 123 => ⟨S_, .f32⟩
  | 124 => ⟨S1024x8192, .f32⟩
  | 125 => ⟨S1024x8192, .f32⟩
  | 126 => ⟨S_, .f32⟩
  | 127 => ⟨S1024x8192, .f32⟩
  | _ => ⟨S2x1024x8192, .f32⟩

abbrev hbmTy0_3 (i : Nat) : BufTy := match i % 128 with
  | 0 => ⟨S1024x8192, .f32⟩
  | 1 => ⟨S1024x8192, .f32⟩
  | 2 => ⟨S1024x8192, .f32⟩
  | 3 => ⟨S_, .f32⟩
  | 4 => ⟨S_, .f32⟩
  | 5 => ⟨S_, .f32⟩
  | 6 => ⟨S1024x8192, .f32⟩
  | 7 => ⟨S1024x8192, .f32⟩
  | 8 => ⟨S_, .f32⟩
  | 9 => ⟨S1024x8192, .f32⟩
  | 10 => ⟨S1024x8192, .f32⟩
  | 11 => ⟨S1024x8192, .f32⟩
  | 12 => ⟨S1024x8192, .f32⟩
  | 13 => ⟨S1024x8192, .f32⟩
  | 14 => ⟨S_, .f32⟩
  | 15 => ⟨S1024x8192, .f32⟩
  | 16 => ⟨S1024x8192, .f32⟩
  | 17 => ⟨S_, .f32⟩
  | 18 => ⟨S1024x8192, .f32⟩
  | 19 => ⟨S1024x8192, .f32⟩
  | 20 => ⟨S1024x8192, .f32⟩
  | 21 => ⟨S1024x8192, .f32⟩
  | 22 => ⟨S_, .f32⟩
  | 23 => ⟨S_, .f32⟩
  | 24 => ⟨S_, .f32⟩
  | 25 => ⟨S1024x8192, .f32⟩
  | 26 => ⟨S1024x8192, .f32⟩
  | 27 => ⟨S_, .f32⟩
  | 28 => ⟨S1024x8192, .f32⟩
  | 29 => ⟨S1024x8192, .f32⟩
  | 30 => ⟨S1024x8192, .f32⟩
  | 31 => ⟨S1024x8192, .f32⟩
  | 32 => ⟨S1024x8192, .f32⟩
  | 33 => ⟨S_, .f32⟩
  | 34 => ⟨S1024x8192, .f32⟩
  | 35 => ⟨S1024x8192, .f32⟩
  | 36 => ⟨S_, .f32⟩
  | 37 => ⟨S1024x8192, .f32⟩
  | 38 => ⟨S1024x8192, .f32⟩
  | 39 => ⟨S1024x8192, .f32⟩
  | 40 => ⟨S1024x8192, .f32⟩
  | 41 => ⟨S_, .f32⟩
  | 42 => ⟨S_, .f32⟩
  | 43 => ⟨S_, .f32⟩
  | 44 => ⟨S1024x8192, .f32⟩
  | 45 => ⟨S1024x8192, .f32⟩
  | 46 => ⟨S_, .f32⟩
  | 47 => ⟨S1024x8192, .f32⟩
  | 48 => ⟨S1024x8192, .f32⟩
  | 49 => ⟨S1024x8192, .f32⟩
  | 50 => ⟨S1024x8192, .f32⟩
  | 51 => ⟨S1024x8192, .f32⟩
  | 52 => ⟨S_, .f32⟩
  | 53 => ⟨S1024x8192, .f32⟩
  | 54 => ⟨S1024x8192, .f32⟩
  | 55 => ⟨S_, .f32⟩
  | 56 => ⟨S1024x8192, .f32⟩
  | 57 => ⟨S1024x8192, .f32⟩
  | 58 => ⟨S1024x8192, .f32⟩
  | 59 => ⟨S1024x8192, .f32⟩
  | 60 => ⟨S_, .f32⟩
  | 61 => ⟨S_, .f32⟩
  | 62 => ⟨S_, .f32⟩
  | 63 => ⟨S1024x8192, .f32⟩
  | 64 => ⟨S1024x8192, .f32⟩
  | 65 => ⟨S_, .f32⟩
  | 66 => ⟨S1024x8192, .f32⟩
  | 67 => ⟨S1024x8192, .f32⟩
  | 68 => ⟨S1024x8192, .f32⟩
  | 69 => ⟨S1024x8192, .f32⟩
  | 70 => ⟨S1024x8192, .f32⟩
  | 71 => ⟨S_, .f32⟩
  | 72 => ⟨S1024x8192, .f32⟩
  | 73 => ⟨S1024x8192, .f32⟩
  | 74 => ⟨S_, .f32⟩
  | 75 => ⟨S1024x8192, .f32⟩
  | 76 => ⟨S1024x8192, .f32⟩
  | 77 => ⟨S1024x8192, .f32⟩
  | 78 => ⟨S1024x8192, .f32⟩
  | 79 => ⟨S_, .f32⟩
  | 80 => ⟨S_, .f32⟩
  | 81 => ⟨S_, .f32⟩
  | 82 => ⟨S1024x8192, .f32⟩
  | 83 => ⟨S1024x8192, .f32⟩
  | 84 => ⟨S_, .f32⟩
  | 85 => ⟨S1024x8192, .f32⟩
  | 86 => ⟨S1024x8192, .f32⟩
  | 87 => ⟨S1024x8192, .f32⟩
  | 88 => ⟨S1024x8192, .f32⟩
  | 89 => ⟨S1024x8192, .f32⟩
  | 90 => ⟨S_, .f32⟩
  | 91 => ⟨S1024x8192, .f32⟩
  | 92 => ⟨S1024x8192, .f32⟩
  | 93 => ⟨S_, .f32⟩
  | 94 => ⟨S1024x8192, .f32⟩
  | 95 => ⟨S1024x8192, .f32⟩
  | 96 => ⟨S1024x8192, .f32⟩
  | 97 => ⟨S1024x8192, .f32⟩
  | 98 => ⟨S_, .f32⟩
  | 99 => ⟨S_, .f32⟩
  | 100 => ⟨S_, .f32⟩
  | 101 => ⟨S1024x8192, .f32⟩
  | 102 => ⟨S1024x8192, .f32⟩
  | 103 => ⟨S_, .f32⟩
  | 104 => ⟨S1024x8192, .f32⟩
  | 105 => ⟨S1024x8192, .f32⟩
  | 106 => ⟨S1024x8192, .f32⟩
  | 107 => ⟨S1024x8192, .f32⟩
  | 108 => ⟨S1024x8192, .f32⟩
  | 109 => ⟨S_, .f32⟩
  | 110 => ⟨S1024x8192, .f32⟩
  | 111 => ⟨S1024x8192, .f32⟩
  | 112 => ⟨S_, .f32⟩
  | 113 => ⟨S1024x8192, .f32⟩
  | 114 => ⟨S1024x8192, .f32⟩
  | 115 => ⟨S1024x8192, .f32⟩
  | 116 => ⟨S1024x8192, .f32⟩
  | 117 => ⟨S1024x8192, .f32⟩
  | 118 => ⟨S1024x8192, .f32⟩
  | 119 => ⟨S1024x8192, .f32⟩
  | 120 => ⟨S1x8192x256, .f32⟩
  | 121 => ⟨S8192x256, .f32⟩
  | 122 => ⟨S1024x256, .f32⟩
  | 123 => ⟨S1024x256, .f32⟩
  | 124 => ⟨S1024x8192, .f32⟩
  | 125 => ⟨S1024x8192, .f32⟩
  | 126 => ⟨S1024x8192, .f32⟩
  | 127 => ⟨S1x8192x256, .f32⟩
  | _ => ⟨S2x1024x8192, .f32⟩

abbrev hbmTy0_4 (i : Nat) : BufTy := match i % 128 with
  | 0 => ⟨S8192x256, .f32⟩
  | 1 => ⟨S1024x256, .f32⟩
  | 2 => ⟨S1024x256, .f32⟩
  | 3 => ⟨S1024x8192, .f32⟩
  | 4 => ⟨S1024x8192, .f32⟩
  | 5 => ⟨S1024x8192, .f32⟩
  | 6 => ⟨S1x8192x256, .f32⟩
  | 7 => ⟨S8192x256, .f32⟩
  | 8 => ⟨S1024x256, .f32⟩
  | 9 => ⟨S1024x256, .f32⟩
  | 10 => ⟨S1024x8192, .f32⟩
  | 11 => ⟨S1024x8192, .f32⟩
  | 12 => ⟨S1024x8192, .f32⟩
  | 13 => ⟨S1x8192x256, .f32⟩
  | 14 => ⟨S8192x256, .f32⟩
  | 15 => ⟨S1024x256, .f32⟩
  | 16 => ⟨S1024x256, .f32⟩
  | 17 => ⟨S1024x8192, .f32⟩
  | 18 => ⟨S1024x8192, .f32⟩
  | 19 => ⟨S1024x8192, .f32⟩
  | 20 => ⟨S1x8192x256, .f32⟩
  | 21 => ⟨S8192x256, .f32⟩
  | 22 => ⟨S1024x256, .f32⟩
  | 23 => ⟨S1024x256, .f32⟩
  | 24 => ⟨S1024x8192, .f32⟩
  | 25 => ⟨S1024x8192, .f32⟩
  | 26 => ⟨S1024x8192, .f32⟩
  | 27 => ⟨S1x8192x256, .f32⟩
  | 28 => ⟨S8192x256, .f32⟩
  | 29 => ⟨S1024x256, .f32⟩
  | 30 => ⟨S1024x256, .f32⟩
  | 31 => ⟨S1024x8192, .f32⟩
  | 32 => ⟨S1024x8192, .f32⟩
  | 33 => ⟨S1024x8192, .f32⟩
  | 34 => ⟨S1x8192x256, .f32⟩
  | 35 => ⟨S8192x256, .f32⟩
  | 36 => ⟨S1024x256, .f32⟩
  | 37 => ⟨S1024x256, .f32⟩
  | 38 => ⟨S1024x8192, .f32⟩
  | 39 => ⟨S1024x8192, .f32⟩
  | 40 => ⟨S1024x8192, .f32⟩
  | 41 => ⟨S1x8192x256, .f32⟩
  | 42 => ⟨S8192x256, .f32⟩
  | 43 => ⟨S1024x256, .f32⟩
  | 44 => ⟨S1024x256, .f32⟩
  | 45 => ⟨S1024x8192, .f32⟩
  | 46 => ⟨S1024x8192, .f32⟩
  | 47 => ⟨S1024x8192, .f32⟩
  | 48 => ⟨S1x8192x256, .f32⟩
  | 49 => ⟨S8192x256, .f32⟩
  | 50 => ⟨S1024x256, .f32⟩
  | 51 => ⟨S1024x256, .f32⟩
  | 52 => ⟨S1024x8192, .f32⟩
  | 53 => ⟨S1024x8192, .f32⟩
  | 54 => ⟨S1024x8192, .f32⟩
  | 55 => ⟨S1x8192x256, .f32⟩
  | 56 => ⟨S8192x256, .f32⟩
  | 57 => ⟨S1024x256, .f32⟩
  | 58 => ⟨S1024x256, .f32⟩
  | 59 => ⟨S1024x8192, .f32⟩
  | 60 => ⟨S1024x8192, .f32⟩
  | 61 => ⟨S1024x8192, .f32⟩
  | 62 => ⟨S1x8192x256, .f32⟩
  | 63 => ⟨S8192x256, .f32⟩
  | 64 => ⟨S1024x256, .f32⟩
  | 65 => ⟨S1024x256, .f32⟩
  | 66 => ⟨S1024x8192, .f32⟩
  | 67 => ⟨S1024x8192, .f32⟩
  | 68 => ⟨S1024x8192, .f32⟩
  | 69 => ⟨S1x8192x256, .f32⟩
  | 70 => ⟨S8192x256, .f32⟩
  | 71 => ⟨S1024x256, .f32⟩
  | 72 => ⟨S1024x256, .f32⟩
  | 73 => ⟨S1024x8192, .f32⟩
  | 74 => ⟨S1024x8192, .f32⟩
  | 75 => ⟨S1024x8192, .f32⟩
  | 76 => ⟨S1x8192x256, .f32⟩
  | 77 => ⟨S8192x256, .f32⟩
  | 78 => ⟨S1024x256, .f32⟩
  | 79 => ⟨S1024x256, .f32⟩
  | 80 => ⟨S1024x8192, .f32⟩
  | 81 => ⟨S1024x8192, .f32⟩
  | 82 => ⟨S1024x8192, .f32⟩
  | 83 => ⟨S1x8192x256, .f32⟩
  | 84 => ⟨S8192x256, .f32⟩
  | 85 => ⟨S1024x256, .f32⟩
  | 86 => ⟨S1024x256, .f32⟩
  | 87 => ⟨S1024x8192, .f32⟩
  | 88 => ⟨S1024x8192, .f32⟩
  | 89 => ⟨S1024x8192, .f32⟩
  | 90 => ⟨S1x8192x256, .f32⟩
  | 91 => ⟨S8192x256, .f32⟩
  | 92 => ⟨S1024x256, .f32⟩
  | 93 => ⟨S1024x256, .f32⟩
  | 94 => ⟨S1024x8192, .f32⟩
  | 95 => ⟨S1024x8192, .f32⟩
  | 96 => ⟨S1024x8192, .f32⟩
  | 97 => ⟨S1x8192x256, .f32⟩
  | 98 => ⟨S8192x256, .f32⟩
  | 99 => ⟨S1024x256, .f32⟩
  | 100 => ⟨S1024x256, .f32⟩
  | _ => ⟨S2x1024x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1024x8192, .f32⟩

abbrev bufTy : (tb : Table) → Fin (tcTables nBuf tb) → BufTy
  | .hbm, ⟨i, _⟩ => hbmTy i
  | _, _ => ⟨S2x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_cst_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_cst_12 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_13 : Ref sig .tc := ⟨.hbm, 86, rfl⟩
abbrev main_v49 : Ref sig .tc := ⟨.hbm, 87, rfl⟩
abbrev main_v50 : Ref sig .tc := ⟨.hbm, 88, rfl⟩
abbrev main_cst_14 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_cst_16 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_17 : Ref sig .tc := ⟨.hbm, 105, rfl⟩
abbrev main_v59 : Ref sig .tc := ⟨.hbm, 106, rfl⟩
abbrev main_v60 : Ref sig .tc := ⟨.hbm, 107, rfl⟩
abbrev main_cst_18 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_19 : Ref sig .tc := ⟨.hbm, 113, rfl⟩
abbrev main_cst_20 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_21 : Ref sig .tc := ⟨.hbm, 124, rfl⟩
abbrev main_v69 : Ref sig .tc := ⟨.hbm, 125, rfl⟩
abbrev main_v70 : Ref sig .tc := ⟨.hbm, 126, rfl⟩
abbrev main_cst_22 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_23 : Ref sig .tc := ⟨.hbm, 132, rfl⟩
abbrev main_cst_24 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_25 : Ref sig .tc := ⟨.hbm, 143, rfl⟩
abbrev main_v79 : Ref sig .tc := ⟨.hbm, 144, rfl⟩
abbrev main_v80 : Ref sig .tc := ⟨.hbm, 145, rfl⟩
abbrev main_cst_26 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_27 : Ref sig .tc := ⟨.hbm, 151, rfl⟩
abbrev main_cst_28 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_29 : Ref sig .tc := ⟨.hbm, 162, rfl⟩
abbrev main_v89 : Ref sig .tc := ⟨.hbm, 163, rfl⟩
abbrev main_v90 : Ref sig .tc := ⟨.hbm, 164, rfl⟩
abbrev main_cst_30 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_31 : Ref sig .tc := ⟨.hbm, 170, rfl⟩
abbrev main_cst_32 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_33 : Ref sig .tc := ⟨.hbm, 181, rfl⟩
abbrev main_v99 : Ref sig .tc := ⟨.hbm, 182, rfl⟩
abbrev main_v100 : Ref sig .tc := ⟨.hbm, 183, rfl⟩
abbrev main_cst_34 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_cst_35 : Ref sig .tc := ⟨.hbm, 189, rfl⟩
abbrev main_cst_36 : Ref sig .tc := ⟨.hbm, 190, rfl⟩
abbrev main_call8_v0 : Ref sig .tc := ⟨.hbm, 191, rfl⟩
abbrev main_call8_v1 : Ref sig .tc := ⟨.hbm, 192, rfl⟩
abbrev main_call8_v2 : Ref sig .tc := ⟨.hbm, 193, rfl⟩
abbrev main_call8_v3 : Ref sig .tc := ⟨.hbm, 194, rfl⟩
abbrev main_call8_v4 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_37 : Ref sig .tc := ⟨.hbm, 200, rfl⟩
abbrev main_v109 : Ref sig .tc := ⟨.hbm, 201, rfl⟩
abbrev main_v110 : Ref sig .tc := ⟨.hbm, 202, rfl⟩
abbrev main_cst_38 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_c_39 : Ref sig .tc := ⟨.hbm, 322, rfl⟩
abbrev main_v229 : Ref sig .tc := ⟨.hbm, 323, rfl⟩
abbrev main_v230 : Ref sig .tc := ⟨.hbm, 324, rfl⟩
abbrev main_c_40 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_c_41 : Ref sig .tc := ⟨.hbm, 331, rfl⟩
abbrev main_v236 : Ref sig .tc := ⟨.hbm, 332, rfl⟩
abbrev main_v237 : Ref sig .tc := ⟨.hbm, 333, rfl⟩
abbrev main_c_42 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_c_43 : Ref sig .tc := ⟨.hbm, 340, rfl⟩
abbrev main_v243 : Ref sig .tc := ⟨.hbm, 341, rfl⟩
abbrev main_v244 : Ref sig .tc := ⟨.hbm, 342, rfl⟩
abbrev main_c_44 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_cst_45 : Ref sig .tc := ⟨.hbm, 349, rfl⟩
abbrev main_cst_46 : Ref sig .tc := ⟨.hbm, 350, rfl⟩
abbrev main_call9_v0 : Ref sig .tc := ⟨.hbm, 351, rfl⟩
abbrev main_call9_v1 : Ref sig .tc := ⟨.hbm, 352, rfl⟩
abbrev main_call9_v2 : Ref sig .tc := ⟨.hbm, 353, rfl⟩
abbrev main_call9_v3 : Ref sig .tc := ⟨.hbm, 354, rfl⟩
abbrev main_call9_v4 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_cst_47 : Ref sig .tc := ⟨.hbm, 360, rfl⟩
abbrev main_v254 : Ref sig .tc := ⟨.hbm, 361, rfl⟩
abbrev main_v255 : Ref sig .tc := ⟨.hbm, 362, rfl⟩
abbrev main_cst_48 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_cst_49 : Ref sig .tc := ⟨.hbm, 368, rfl⟩
abbrev main_cst_50 : Ref sig .tc := ⟨.hbm, 369, rfl⟩
abbrev main_call10_v0 : Ref sig .tc := ⟨.hbm, 370, rfl⟩
abbrev main_call10_v1 : Ref sig .tc := ⟨.hbm, 371, rfl⟩
abbrev main_call10_v2 : Ref sig .tc := ⟨.hbm, 372, rfl⟩
abbrev main_call10_v3 : Ref sig .tc := ⟨.hbm, 373, rfl⟩
abbrev main_call10_v4 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_cst_51 : Ref sig .tc := ⟨.hbm, 379, rfl⟩
abbrev main_v264 : Ref sig .tc := ⟨.hbm, 380, rfl⟩
abbrev main_v265 : Ref sig .tc := ⟨.hbm, 381, rfl⟩
abbrev main_cst_52 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_cst_53 : Ref sig .tc := ⟨.hbm, 387, rfl⟩
abbrev main_cst_54 : Ref sig .tc := ⟨.hbm, 388, rfl⟩
abbrev main_call11_v0 : Ref sig .tc := ⟨.hbm, 389, rfl⟩
abbrev main_call11_v1 : Ref sig .tc := ⟨.hbm, 390, rfl⟩
abbrev main_call11_v2 : Ref sig .tc := ⟨.hbm, 391, rfl⟩
abbrev main_call11_v3 : Ref sig .tc := ⟨.hbm, 392, rfl⟩
abbrev main_call11_v4 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_cst_55 : Ref sig .tc := ⟨.hbm, 398, rfl⟩
abbrev main_v274 : Ref sig .tc := ⟨.hbm, 399, rfl⟩
abbrev main_v275 : Ref sig .tc := ⟨.hbm, 400, rfl⟩
abbrev main_cst_56 : Ref sig .tc := ⟨.hbm, 401, rfl⟩
abbrev main_v276 : Ref sig .tc := ⟨.hbm, 402, rfl⟩
abbrev main_v277 : Ref sig .tc := ⟨.hbm, 403, rfl⟩
abbrev main_v278 : Ref sig .tc := ⟨.hbm, 404, rfl⟩
abbrev main_v279 : Ref sig .tc := ⟨.hbm, 405, rfl⟩
abbrev main_cst_57 : Ref sig .tc := ⟨.hbm, 406, rfl⟩
abbrev main_cst_58 : Ref sig .tc := ⟨.hbm, 407, rfl⟩
abbrev main_call12_v0 : Ref sig .tc := ⟨.hbm, 408, rfl⟩
abbrev main_call12_v1 : Ref sig .tc := ⟨.hbm, 409, rfl⟩
abbrev main_call12_v2 : Ref sig .tc := ⟨.hbm, 410, rfl⟩
abbrev main_call12_v3 : Ref sig .tc := ⟨.hbm, 411, rfl⟩
abbrev main_call12_v4 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_cst_59 : Ref sig .tc := ⟨.hbm, 417, rfl⟩
abbrev main_v284 : Ref sig .tc := ⟨.hbm, 418, rfl⟩
abbrev main_v285 : Ref sig .tc := ⟨.hbm, 419, rfl⟩
abbrev main_cst_60 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_cst_61 : Ref sig .tc := ⟨.hbm, 425, rfl⟩
abbrev main_cst_62 : Ref sig .tc := ⟨.hbm, 426, rfl⟩
abbrev main_call13_v0 : Ref sig .tc := ⟨.hbm, 427, rfl⟩
abbrev main_call13_v1 : Ref sig .tc := ⟨.hbm, 428, rfl⟩
abbrev main_call13_v2 : Ref sig .tc := ⟨.hbm, 429, rfl⟩
abbrev main_call13_v3 : Ref sig .tc := ⟨.hbm, 430, rfl⟩
abbrev main_call13_v4 : Ref sig .tc := ⟨.hbm, 431, rfl⟩
abbrev main_v290 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_cst_63 : Ref sig .tc := ⟨.hbm, 436, rfl⟩
abbrev main_v294 : Ref sig .tc := ⟨.hbm, 437, rfl⟩
abbrev main_v295 : Ref sig .tc := ⟨.hbm, 438, rfl⟩
abbrev main_cst_64 : Ref sig .tc := ⟨.hbm, 439, rfl⟩
abbrev main_v296 : Ref sig .tc := ⟨.hbm, 440, rfl⟩
abbrev main_v297 : Ref sig .tc := ⟨.hbm, 441, rfl⟩
abbrev main_v298 : Ref sig .tc := ⟨.hbm, 442, rfl⟩
abbrev main_v299 : Ref sig .tc := ⟨.hbm, 443, rfl⟩
abbrev main_cst_65 : Ref sig .tc := ⟨.hbm, 444, rfl⟩
abbrev main_cst_66 : Ref sig .tc := ⟨.hbm, 445, rfl⟩
abbrev main_call14_v0 : Ref sig .tc := ⟨.hbm, 446, rfl⟩
abbrev main_call14_v1 : Ref sig .tc := ⟨.hbm, 447, rfl⟩
abbrev main_call14_v2 : Ref sig .tc := ⟨.hbm, 448, rfl⟩
abbrev main_call14_v3 : Ref sig .tc := ⟨.hbm, 449, rfl⟩
abbrev main_call14_v4 : Ref sig .tc := ⟨.hbm, 450, rfl⟩
abbrev main_v300 : Ref sig .tc := ⟨.hbm, 451, rfl⟩
abbrev main_v301 : Ref sig .tc := ⟨.hbm, 452, rfl⟩
abbrev main_v302 : Ref sig .tc := ⟨.hbm, 453, rfl⟩
abbrev main_v303 : Ref sig .tc := ⟨.hbm, 454, rfl⟩
abbrev main_cst_67 : Ref sig .tc := ⟨.hbm, 455, rfl⟩
abbrev main_v304 : Ref sig .tc := ⟨.hbm, 456, rfl⟩
abbrev main_v305 : Ref sig .tc := ⟨.hbm, 457, rfl⟩
abbrev main_cst_68 : Ref sig .tc := ⟨.hbm, 458, rfl⟩
abbrev main_v306 : Ref sig .tc := ⟨.hbm, 459, rfl⟩
abbrev main_v307 : Ref sig .tc := ⟨.hbm, 460, rfl⟩
abbrev main_v308 : Ref sig .tc := ⟨.hbm, 461, rfl⟩
abbrev main_v309 : Ref sig .tc := ⟨.hbm, 462, rfl⟩
abbrev main_cst_69 : Ref sig .tc := ⟨.hbm, 463, rfl⟩
abbrev main_cst_70 : Ref sig .tc := ⟨.hbm, 464, rfl⟩
abbrev main_call15_v0 : Ref sig .tc := ⟨.hbm, 465, rfl⟩
abbrev main_call15_v1 : Ref sig .tc := ⟨.hbm, 466, rfl⟩
abbrev main_call15_v2 : Ref sig .tc := ⟨.hbm, 467, rfl⟩
abbrev main_call15_v3 : Ref sig .tc := ⟨.hbm, 468, rfl⟩
abbrev main_call15_v4 : Ref sig .tc := ⟨.hbm, 469, rfl⟩
abbrev main_v310 : Ref sig .tc := ⟨.hbm, 470, rfl⟩
abbrev main_v311 : Ref sig .tc := ⟨.hbm, 471, rfl⟩
abbrev main_v312 : Ref sig .tc := ⟨.hbm, 472, rfl⟩
abbrev main_v313 : Ref sig .tc := ⟨.hbm, 473, rfl⟩
abbrev main_cst_71 : Ref sig .tc := ⟨.hbm, 474, rfl⟩
abbrev main_v314 : Ref sig .tc := ⟨.hbm, 475, rfl⟩
abbrev main_v315 : Ref sig .tc := ⟨.hbm, 476, rfl⟩
abbrev main_cst_72 : Ref sig .tc := ⟨.hbm, 477, rfl⟩
abbrev main_v316 : Ref sig .tc := ⟨.hbm, 478, rfl⟩
abbrev main_v317 : Ref sig .tc := ⟨.hbm, 479, rfl⟩
abbrev main_v318 : Ref sig .tc := ⟨.hbm, 480, rfl⟩
abbrev main_v319 : Ref sig .tc := ⟨.hbm, 481, rfl⟩
abbrev main_cst_73 : Ref sig .tc := ⟨.hbm, 482, rfl⟩
abbrev main_cst_74 : Ref sig .tc := ⟨.hbm, 483, rfl⟩
abbrev main_call16_v0 : Ref sig .tc := ⟨.hbm, 484, rfl⟩
abbrev main_call16_v1 : Ref sig .tc := ⟨.hbm, 485, rfl⟩
abbrev main_call16_v2 : Ref sig .tc := ⟨.hbm, 486, rfl⟩
abbrev main_call16_v3 : Ref sig .tc := ⟨.hbm, 487, rfl⟩
abbrev main_call16_v4 : Ref sig .tc := ⟨.hbm, 488, rfl⟩
abbrev main_v320 : Ref sig .tc := ⟨.hbm, 489, rfl⟩
abbrev main_v321 : Ref sig .tc := ⟨.hbm, 490, rfl⟩
abbrev main_v322 : Ref sig .tc := ⟨.hbm, 491, rfl⟩
abbrev main_v323 : Ref sig .tc := ⟨.hbm, 492, rfl⟩
abbrev main_cst_75 : Ref sig .tc := ⟨.hbm, 493, rfl⟩
abbrev main_v324 : Ref sig .tc := ⟨.hbm, 494, rfl⟩
abbrev main_v325 : Ref sig .tc := ⟨.hbm, 495, rfl⟩
abbrev main_cst_76 : Ref sig .tc := ⟨.hbm, 496, rfl⟩
abbrev main_v326 : Ref sig .tc := ⟨.hbm, 497, rfl⟩
abbrev main_v327 : Ref sig .tc := ⟨.hbm, 498, rfl⟩
abbrev main_v328 : Ref sig .tc := ⟨.hbm, 499, rfl⟩
abbrev main_v329 : Ref sig .tc := ⟨.hbm, 500, rfl⟩
abbrev main_v330 : Ref sig .tc := ⟨.hbm, 501, rfl⟩
abbrev main_v331 : Ref sig .tc := ⟨.hbm, 502, rfl⟩
abbrev main_v332 : Ref sig .tc := ⟨.hbm, 503, rfl⟩
abbrev main_v333 : Ref sig .tc := ⟨.hbm, 504, rfl⟩
abbrev main_v334 : Ref sig .tc := ⟨.hbm, 505, rfl⟩
abbrev main_v335 : Ref sig .tc := ⟨.hbm, 506, rfl⟩
abbrev main_v336 : Ref sig .tc := ⟨.hbm, 507, rfl⟩
abbrev main_v337 : Ref sig .tc := ⟨.hbm, 508, rfl⟩
abbrev main_v338 : Ref sig .tc := ⟨.hbm, 509, rfl⟩
abbrev main_v339 : Ref sig .tc := ⟨.hbm, 510, rfl⟩
abbrev main_v340 : Ref sig .tc := ⟨.hbm, 511, rfl⟩
abbrev main_v341 : Ref sig .tc := ⟨.hbm, 512, rfl⟩
abbrev main_v342 : Ref sig .tc := ⟨.hbm, 513, rfl⟩
abbrev main_v343 : Ref sig .tc := ⟨.hbm, 514, rfl⟩
abbrev main_v344 : Ref sig .tc := ⟨.hbm, 515, rfl⟩
abbrev main_v345 : Ref sig .tc := ⟨.hbm, 516, rfl⟩
abbrev main_v346 : Ref sig .tc := ⟨.hbm, 517, rfl⟩
abbrev main_v347 : Ref sig .tc := ⟨.hbm, 518, rfl⟩
abbrev main_v348 : Ref sig .tc := ⟨.hbm, 519, rfl⟩
abbrev main_v349 : Ref sig .tc := ⟨.hbm, 520, rfl⟩
abbrev main_v350 : Ref sig .tc := ⟨.hbm, 521, rfl⟩
abbrev main_v351 : Ref sig .tc := ⟨.hbm, 522, rfl⟩
abbrev main_v352 : Ref sig .tc := ⟨.hbm, 523, rfl⟩
abbrev main_v353 : Ref sig .tc := ⟨.hbm, 524, rfl⟩
abbrev main_v354 : Ref sig .tc := ⟨.hbm, 525, rfl⟩
abbrev main_v355 : Ref sig .tc := ⟨.hbm, 526, rfl⟩
abbrev main_v356 : Ref sig .tc := ⟨.hbm, 527, rfl⟩
abbrev main_v357 : Ref sig .tc := ⟨.hbm, 528, rfl⟩
abbrev main_v358 : Ref sig .tc := ⟨.hbm, 529, rfl⟩
abbrev main_v359 : Ref sig .tc := ⟨.hbm, 530, rfl⟩
abbrev main_v360 : Ref sig .tc := ⟨.hbm, 531, rfl⟩
abbrev main_v361 : Ref sig .tc := ⟨.hbm, 532, rfl⟩
abbrev main_v362 : Ref sig .tc := ⟨.hbm, 533, rfl⟩
abbrev main_v363 : Ref sig .tc := ⟨.hbm, 534, rfl⟩
abbrev main_v364 : Ref sig .tc := ⟨.hbm, 535, rfl⟩
abbrev main_v365 : Ref sig .tc := ⟨.hbm, 536, rfl⟩
abbrev main_v366 : Ref sig .tc := ⟨.hbm, 537, rfl⟩
abbrev main_v367 : Ref sig .tc := ⟨.hbm, 538, rfl⟩
abbrev main_v368 : Ref sig .tc := ⟨.hbm, 539, rfl⟩
abbrev main_v369 : Ref sig .tc := ⟨.hbm, 540, rfl⟩
abbrev main_v370 : Ref sig .tc := ⟨.hbm, 541, rfl⟩
abbrev main_v371 : Ref sig .tc := ⟨.hbm, 542, rfl⟩
abbrev main_v372 : Ref sig .tc := ⟨.hbm, 543, rfl⟩
abbrev main_v373 : Ref sig .tc := ⟨.hbm, 544, rfl⟩
abbrev main_v374 : Ref sig .tc := ⟨.hbm, 545, rfl⟩
abbrev main_v375 : Ref sig .tc := ⟨.hbm, 546, rfl⟩
abbrev main_v376 : Ref sig .tc := ⟨.hbm, 547, rfl⟩
abbrev main_v377 : Ref sig .tc := ⟨.hbm, 548, rfl⟩
abbrev main_v378 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_v382 : Ref sig .tc := ⟨.hbm, 553, rfl⟩
abbrev main_v383 : Ref sig .tc := ⟨.hbm, 554, rfl⟩
abbrev main_v384 : Ref sig .tc := ⟨.hbm, 555, rfl⟩
abbrev main_v385 : Ref sig .tc := ⟨.hbm, 556, rfl⟩
abbrev main_v386 : Ref sig .tc := ⟨.hbm, 557, rfl⟩
abbrev main_v387 : Ref sig .tc := ⟨.hbm, 558, rfl⟩
abbrev main_v388 : Ref sig .tc := ⟨.hbm, 559, rfl⟩
abbrev main_v389 : Ref sig .tc := ⟨.hbm, 560, rfl⟩
abbrev main_v390 : Ref sig .tc := ⟨.hbm, 561, rfl⟩
abbrev main_v391 : Ref sig .tc := ⟨.hbm, 562, rfl⟩
abbrev main_v392 : Ref sig .tc := ⟨.hbm, 563, rfl⟩
abbrev main_v393 : Ref sig .tc := ⟨.hbm, 564, rfl⟩
abbrev main_v394 : Ref sig .tc := ⟨.hbm, 565, rfl⟩
abbrev main_v395 : Ref sig .tc := ⟨.hbm, 566, rfl⟩
abbrev main_v396 : Ref sig .tc := ⟨.hbm, 567, rfl⟩
abbrev main_v397 : Ref sig .tc := ⟨.hbm, 568, rfl⟩
abbrev main_v398 : Ref sig .tc := ⟨.hbm, 569, rfl⟩
abbrev main_v399 : Ref sig .tc := ⟨.hbm, 570, rfl⟩
abbrev main_v400 : Ref sig .tc := ⟨.hbm, 571, rfl⟩
abbrev main_v401 : Ref sig .tc := ⟨.hbm, 572, rfl⟩
abbrev main_v402 : Ref sig .tc := ⟨.hbm, 573, rfl⟩
abbrev main_v403 : Ref sig .tc := ⟨.hbm, 574, rfl⟩
abbrev main_v404 : Ref sig .tc := ⟨.hbm, 575, rfl⟩
abbrev main_v405 : Ref sig .tc := ⟨.hbm, 576, rfl⟩
abbrev main_v406 : Ref sig .tc := ⟨.hbm, 577, rfl⟩
abbrev main_v407 : Ref sig .tc := ⟨.hbm, 578, rfl⟩
abbrev main_v408 : Ref sig .tc := ⟨.hbm, 579, rfl⟩
abbrev main_v409 : Ref sig .tc := ⟨.hbm, 580, rfl⟩
abbrev main_v410 : Ref sig .tc := ⟨.hbm, 581, rfl⟩
abbrev main_v411 : Ref sig .tc := ⟨.hbm, 582, rfl⟩
abbrev main_v412 : Ref sig .tc := ⟨.hbm, 583, rfl⟩
abbrev main_v413 : Ref sig .tc := ⟨.hbm, 584, rfl⟩
abbrev main_v414 : Ref sig .tc := ⟨.hbm, 585, rfl⟩
abbrev main_v415 : Ref sig .tc := ⟨.hbm, 586, rfl⟩
abbrev main_v416 : Ref sig .tc := ⟨.hbm, 587, rfl⟩
abbrev main_v417 : Ref sig .tc := ⟨.hbm, 588, rfl⟩
abbrev main_v418 : Ref sig .tc := ⟨.hbm, 589, rfl⟩
abbrev main_v419 : Ref sig .tc := ⟨.hbm, 590, rfl⟩
abbrev main_v420 : Ref sig .tc := ⟨.hbm, 591, rfl⟩
abbrev main_v421 : Ref sig .tc := ⟨.hbm, 592, rfl⟩
abbrev main_v422 : Ref sig .tc := ⟨.hbm, 593, rfl⟩
abbrev main_v423 : Ref sig .tc := ⟨.hbm, 594, rfl⟩
abbrev main_v424 : Ref sig .tc := ⟨.hbm, 595, rfl⟩
abbrev main_v425 : Ref sig .tc := ⟨.hbm, 596, rfl⟩
abbrev main_v426 : Ref sig .tc := ⟨.hbm, 597, rfl⟩
abbrev main_v427 : Ref sig .tc := ⟨.hbm, 598, rfl⟩
abbrev main_v428 : Ref sig .tc := ⟨.hbm, 599, rfl⟩
abbrev main_v429 : Ref sig .tc := ⟨.hbm, 600, rfl⟩
abbrev main_v430 : Ref sig .tc := ⟨.hbm, 601, rfl⟩
abbrev main_v431 : Ref sig .tc := ⟨.hbm, 602, rfl⟩
abbrev main_v432 : Ref sig .tc := ⟨.hbm, 603, rfl⟩
abbrev main_v433 : Ref sig .tc := ⟨.hbm, 604, rfl⟩
abbrev main_v434 : Ref sig .tc := ⟨.hbm, 605, rfl⟩
abbrev main_v435 : Ref sig .tc := ⟨.hbm, 606, rfl⟩
abbrev main_v436 : Ref sig .tc := ⟨.hbm, 607, rfl⟩
abbrev main_v437 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_v441 : Ref sig .tc := ⟨.hbm, 612, rfl⟩

abbrev nD : Nat := 1
abbrev τ : Topo := Topo.v7x

variable {F : FTy → Type} [FloatOps F]

class Facts₀ : Prop where
  shapeCasts_S1_S_ : S1.ShapeCasts S_
  bcast_S_S32x8192x256 : S_.BroadcastsInDim S32x8192x256 (![] : Fin 0 → Fin S32x8192x256.rank)
  bcast_S8192x256_S1x8192x256_1_2 : S8192x256.BroadcastsInDim S1x8192x256 (![1, 2] : Fin 2 → Fin S1x8192x256.rank)
  bcast_S1x8192x256_S32x8192x256_0_1_2 : S1x8192x256.BroadcastsInDim S32x8192x256 (![0, 1, 2] : Fin 3 → Fin S32x8192x256.rank)
  bcast_S_S1024x256 : S_.BroadcastsInDim S1024x256 (![] : Fin 0 → Fin S1024x256.rank)
  slices_S2x1024x8192_S1x1024x8192_0_0_0 : S2x1024x8192.Slices ![0, 0, 0] S1x1024x8192
  shapeCasts_S1x1024x8192_S1024x8192 : S1x1024x8192.ShapeCasts S1024x8192
  bcast_S_S8192 : S_.BroadcastsInDim S8192 (![] : Fin 0 → Fin S8192.rank)
  bcast_S8192_S8192x1_0 : S8192.BroadcastsInDim S8192x1 (![0] : Fin 1 → Fin S8192x1.rank)
  bcast_S_S1024x8192 : S_.BroadcastsInDim S1024x8192 (![] : Fin 0 → Fin S1024x8192.rank)
  slices_S32x8192x256_S1x8192x256_0_0_0 : S32x8192x256.Slices ![0, 0, 0] S1x8192x256
  shapeCasts_S1x8192x256_S8192x256 : S1x8192x256.ShapeCasts S8192x256
  slices_S32x8192x256_S1x8192x256_1_0_0 : S32x8192x256.Slices ![1, 0, 0] S1x8192x256
  slices_S32x8192x256_S1x8192x256_2_0_0 : S32x8192x256.Slices ![2, 0, 0] S1x8192x256
  slices_S32x8192x256_S1x8192x256_3_0_0 : S32x8192x256.Slices ![3, 0, 0] S1x8192x256
  slices_S32x8192x256_S1x8192x256_4_0_0 : S32x8192x256.Slices ![4, 0, 0] S1x8192x256
  slices_S32x8192x256_S1x8192x256_5_0_0 : S32x8192x256.Slices ![5, 0, 0] S1x8192x256
  slices_S32x8192x256_S1x8192x256_6_0_0 : S32x8192x256.Slices ![6, 0, 0] S1x8192x256
  slices_S32x8192x256_S1x8192x256_7_0_0 : S32x8192x256.Slices ![7, 0, 0] S1x8192x256
  slices_S32x8192x256_S1x8192x256_8_0_0 : S32x8192x256.Slices ![8, 0, 0] S1x8192x256
  slices_S32x8192x256_S1x8192x256_9_0_0 : S32x8192x256.Slices ![9, 0, 0] S1x8192x256
  slices_S32x8192x256_S1x8192x256_10_0_0 : S32x8192x256.Slices ![10, 0, 0] S1x8192x256
  slices_S32x8192x256_S1x8192x256_11_0_0 : S32x8192x256.Slices ![11, 0, 0] S1x8192x256
  slices_S32x8192x256_S1x8192x256_12_0_0 : S32x8192x256.Slices ![12, 0, 0] S1x8192x256
  slices_S32x8192x256_S1x8192x256_13_0_0 : S32x8192x256.Slices ![13, 0, 0] S1x8192x256
  slices_S32x8192x256_S1x8192x256_14_0_0 : S32x8192x256.Slices ![14, 0, 0] S1x8192x256
  slices_S32x8192x256_S1x8192x256_15_0_0 : S32x8192x256.Slices ![15, 0, 0] S1x8192x256
  slices_S2x1024x8192_S1x1024x8192_1_0_0 : S2x1024x8192.Slices ![1, 0, 0] S1x1024x8192
  slices_S32x8192x256_S1x8192x256_16_0_0 : S32x8192x256.Slices ![16, 0, 0] S1x8192x256
  slices_S32x8192x256_S1x8192x256_17_0_0 : S32x8192x256.Slices ![17, 0, 0] S1x8192x256
  slices_S32x8192x256_S1x8192x256_18_0_0 : S32x8192x256.Slices ![18, 0, 0] S1x8192x256
  slices_S32x8192x256_S1x8192x256_19_0_0 : S32x8192x256.Slices ![19, 0, 0] S1x8192x256
  slices_S32x8192x256_S1x8192x256_20_0_0 : S32x8192x256.Slices ![20, 0, 0] S1x8192x256
  slices_S32x8192x256_S1x8192x256_21_0_0 : S32x8192x256.Slices ![21, 0, 0] S1x8192x256
  slices_S32x8192x256_S1x8192x256_22_0_0 : S32x8192x256.Slices ![22, 0, 0] S1x8192x256
  slices_S32x8192x256_S1x8192x256_23_0_0 : S32x8192x256.Slices ![23, 0, 0] S1x8192x256
  slices_S32x8192x256_S1x8192x256_24_0_0 : S32x8192x256.Slices ![24, 0, 0] S1x8192x256
  slices_S32x8192x256_S1x8192x256_25_0_0 : S32x8192x256.Slices ![25, 0, 0] S1x8192x256
  slices_S32x8192x256_S1x8192x256_26_0_0 : S32x8192x256.Slices ![26, 0, 0] S1x8192x256
  slices_S32x8192x256_S1x8192x256_27_0_0 : S32x8192x256.Slices ![27, 0, 0] S1x8192x256
  slices_S32x8192x256_S1x8192x256_28_0_0 : S32x8192x256.Slices ![28, 0, 0] S1x8192x256
  slices_S32x8192x256_S1x8192x256_29_0_0 : S32x8192x256.Slices ![29, 0, 0] S1x8192x256
  slices_S32x8192x256_S1x8192x256_30_0_0 : S32x8192x256.Slices ![30, 0, 0] S1x8192x256
  slices_S32x8192x256_S1x8192x256_31_0_0 : S32x8192x256.Slices ![31, 0, 0] S1x8192x256
  gather_S1024x8192_S8192x1_S1024x8192_0_1_n_n_1_1_10241_wf : GatherDims.WF S1024x8192 S8192x1 S1024x8192 [0] [1] [] [1] [] 1 ![1024, 1]
  dot_S1024x8192_S8192x256_S1024x256_1_0_0_1_n_n_wf : DotDims.WF S1024x8192 S8192x256 S1024x256 [1] [0] [0] [1] [] []

variable [Facts₀]

def gather_S1024x8192_S8192x1_S1024x8192_0_1_n_n_1_1_10241 : GatherDims S1024x8192 S8192x1 S1024x8192 where
  offsetDims := [0]
  collapsedSliceDims := [1]
  operandBatchingDims := []
  startIndicesBatchingDims := []
  startIndexMap := [1]
  indexVectorDim := 1
  sliceSizes := ![1024, 1]
  wf := gather_S1024x8192_S8192x1_S1024x8192_0_1_n_n_1_1_10241_wf
def dot_S1024x8192_S8192x256_S1024x256_1_0_0_1_n_n : DotDims S1024x8192 S8192x256 S1024x256 where
  lhsContracting := [1]
  rhsContracting := [0]
  lhsNonContracting := [0]
  rhsNonContracting := [1]
  lhsBatch := []
  rhsBatch := []
  wf := dot_S1024x8192_S8192x256_S1024x256_1_0_0_1_n_n_wf

class Facts : Prop extends Facts₀ where

variable [Facts]
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.Spec.lean ====
/-
  The mathematics of the binary dense layer with a 4-input truth table, stated once over the extended reals.

  For a level l, a batch row b and an input column j the layer looks at four streams of the input x: column j
  itself and the columns three index maps send j to. Each stream value s is split into its positive part
  max s 0 and its negative part max (−s) 0. Row c of the 16-row truth table picks, for each of the four streams,
  the positive part (bit 0) or the negative part (bit 1), the first stream on the most significant bit, and
  multiplies the four picks. The product is weighted by sign(w) · |γ| · mask, where w is weight matrix 16·l + c at
  (j, n), and the result at (b, n) is the sum of all these weighted products over the 2 levels, the 16 rows and
  the 8192 columns.
-/
import Idealize.ShloMosaic.PureOps.Ideal
import Idealize.ShloMosaic.Lib.ValueIdx
import proofs.«405175_j67516885893426_2_alg».proof.Proof.LibGather2

noncomputable section

namespace BinaryDense

open Idealize.ShloMosaic Idealize.ShloMosaic.ValueIdx IndexOpsLib

abbrev SX : Shape := ⟨3, ![2, 1024, 8192]⟩
abbrev SW : Shape := ⟨3, ![32, 8192, 256]⟩
abbrev SG : Shape := ⟨1, ![1]⟩
abbrev SM : Shape := ⟨2, ![8192, 256]⟩
abbrev SR : Shape := ⟨1, ![8192]⟩
abbrev SO : Shape := ⟨2, ![1024, 256]⟩

/-- The positive part of a stream value. -/
def plusPart (s : EReal) : EReal := max s 0
/-- The negative part of a stream value, as the positive part of 0 − s. -/
def minusPart (s : EReal) : EReal := max (0 - s) 0
/-- The absolute value on the extended reals. -/
def absE (s : EReal) : EReal := max s (-s)
/-- The sign of a weight: −1, 0 or 1 by the order. -/
def sgn (w : EReal) : EReal := Ideal.sign w

/-- Stream i's pick in truth-table row c: the negative part when bit 3 − i of c is set, else the positive part. -/
def part (c : Fin 16) (i : Fin 4) (s : EReal) : EReal :=
  if (c.val / 2 ^ (3 - i.val)) % 2 = 1 then minusPart s else plusPart s

/-- The product of the four streams' picks in row c, multiplied left to right. -/
def prod4 (c : Fin 16) (s0 s1 s2 s3 : EReal) : EReal := part c 0 s0 * part c 1 s1 * part c 2 s2 * part c 3 s3

/-- An index into an axis of 8192 entries read the numpy way: a negative id counts from the end. -/
def wrapId (v : BitVec 32) : BitVec 32 := if v.slt 0#32 then v + 8192#32 else v

/-- The column an index map sends column j to: the wrapped id, clamped into the axis as a gather clamps it. -/
def col (rm : SR.Idx → BitVec 32) (j : Fin 8192) : Fin 8192 := clampRow 8192 (by norm_num) (wrapId (rm (ix1 j)))

/-- The truth-table product of row c at level l, batch row b and column j. -/
def term (x : SX.Idx → EReal) (r0 r1 r2 : SR.Idx → BitVec 32) (l : Fin 2) (c : Fin 16) (b : Fin 1024) (j : Fin 8192) :
    EReal :=
  prod4 c (x (ix3 l b j)) (x (ix3 l b (col r0 j))) (x (ix3 l b (col r1 j))) (x (ix3 l b (col r2 j)))

/-- The weight matrix that level l and row c use. -/
def wrow (l : Fin 2) (c : Fin 16) : Fin 32 := ⟨16 * l.val + c.val, by omega⟩

/-- The masked, scaled binary weight at (j, n) for level l and row c. -/
def weight (w : SW.Idx → EReal) (γ : SG.Idx → EReal) (mk : SM.Idx → EReal) (l : Fin 2) (c : Fin 16) (j : Fin 8192)
    (n : Fin 256) : EReal :=
  sgn (w (ix3 (wrow l c) j n)) * absE (γ (ix1 0)) * mk (ix2 j n)

/-- The layer's result. -/
def G (x : SX.Idx → EReal) (w : SW.Idx → EReal) (γ : SG.Idx → EReal) (mk : SM.Idx → EReal)
    (r0 r1 r2 : SR.Idx → BitVec 32) : SO.Idx → EReal := fun i =>
  ∑ l : Fin 2, ∑ c : Fin 16, ∑ j : Fin 8192, term x r0 r1 r2 l c (i 0) j * weight w γ mk l c j (i 1)

/-- What one tile of 256 columns adds to the result at (b, n): the sum over the 16 rows and the tile's 256 columns of
    the truth-table product of the four stream blocks times the masked, scaled binary weight, all read off the tile's
    own blocks (streams [1, 1024, 256], weights [16, 256, 256], mask [256, 256], the scale a scalar). -/
def tileSum (s0 s1 s2 s3 : (⟨3, ![1, 1024, 256]⟩ : Shape).Idx → EReal) (wv : (⟨3, ![16, 256, 256]⟩ : Shape).Idx → EReal)
    (γ : EReal) (mk : (⟨2, ![256, 256]⟩ : Shape).Idx → EReal) (b : Fin 1024) (n : Fin 256) : EReal :=
  ∑ c : Fin 16, ∑ jj : Fin 256,
    prod4 c (s0 (ix3 0 b jj)) (s1 (ix3 0 b jj)) (s2 (ix3 0 b jj)) (s3 (ix3 0 b jj))
      * (sgn (wv (ix3 c jj n)) * absE γ * mk (ix2 jj n))

/-- Every entry of the input is a real number. -/
def FiniteArr (x : SX.Idx → EReal) : Prop := ∀ i, ∃ v : ℝ, x i = (v : EReal)

/-- Every id of an index map is a valid numpy index into an axis of 8192 entries: −8192 ≤ id < 8192. -/
def InRange (r : SR.Idx → BitVec 32) : Prop := ∀ j : Fin 8192, -8192 ≤ (r (ix1 j)).toInt ∧ (r (ix1 j)).toInt < 8192

/-- A valid id, wrapped, lies in 0 … 8191 as a signed word. -/
theorem wrapId_range (v : BitVec 32) (h : -8192 ≤ v.toInt ∧ v.toInt < 8192) :
    0 ≤ (wrapId v).toInt ∧ (wrapId v).toInt ≤ 8191 := by
  unfold wrapId
  by_cases hs : v.slt 0#32 = true
  · rw [if_pos hs]
    have hneg : v.toInt < 0 := by simpa [BitVec.slt] using hs
    have e : (v + 8192#32).toInt = v.toInt + 8192 := by
      rw [BitVec.toInt_add]
      have : (8192#32 : BitVec 32).toInt = 8192 := by decide
      rw [this]
      exact Int.bmod_eq_of_le (by norm_num; omega) (by norm_num; omega)
    rw [e]; omega
  · rw [if_neg hs]
    have hnn : 0 ≤ v.toInt := by
      have : ¬ v.toInt < 0 := by simpa [BitVec.slt] using hs
      omega
    omega

/-- Column 256·k + jj of the 8192, for tile k and offset jj. -/
def tileCol (k : Fin 32) (jj : Fin 256) : Fin 8192 := ⟨256 * k.val + jj.val, by omega⟩

/-- A sum over the 8192 columns is the sum over the 32 tiles of the sums over each tile's 256 columns. -/
theorem sum_tiles (g : Fin 8192 → EReal) : ∑ j : Fin 8192, g j = ∑ k : Fin 32, ∑ jj : Fin 256, g (tileCol k jj) := by
  rw [← Finset.sum_product']
  refine (Fintype.sum_equiv (finProdFinEquiv (m := 32) (n := 256)) (fun p => g (tileCol p.1 p.2)) g ?_).symm
  intro p
  congr 1
  apply Fin.ext
  simp only [tileCol, finProdFinEquiv_apply_val]
  omega

/-- Sixteen successive additions onto a start value add the sum of the sixteen. -/
theorem chain16 (a : EReal) (f : Fin 16 → EReal) :
    a + f 0 + f 1 + f 2 + f 3 + f 4 + f 5 + f 6 + f 7 + f 8 + f 9 + f 10 + f 11 + f 12 + f 13 + f 14 + f 15
      = a + ∑ c : Fin 16, f c := by
  simp only [Fin.sum_univ_succ, Fin.sum_univ_zero, add_assoc, add_zero]
  rfl

end BinaryDense

end
-- ==== Proof.PreFacts.lean ====
/-
  What the precondition says, decoded: every entry of the input x is a real number, and every id of the three index
  maps is a valid numpy index into an axis of 8192 entries (−8192 ≤ id < 8192).
-/
import proofs.«405175_j67516885893426_2_alg».proof.Pre_finite_inputs
import proofs.«405175_j67516885893426_2_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace BinaryDense

open Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value tests below +∞ is a real number. -/
theorem real_of_abs_lt (s : EReal)
    (h : Ideal.cmp .olt (max s (-s)) (Ideal.ofBits .f32 0x7F800000#32) = 1#1) : ∃ v : ℝ, s = (v : EReal) := by
  rw [inf_word] at h
  unfold Ideal.cmp at h
  rw [StableHlo.Predicate.ofBool_eq_one_iff, decide_eq_true_eq] at h
  induction s using EReal.rec with
  | bot => exact absurd h (by simp)
  | top => exact absurd h (by simp)
  | coe r => exact ⟨r, rfl⟩

/-- The two range tests of an id (not below the word of −8192, below the word of 8192, both signed), read back. -/
theorem range_of_tests (v : BitVec 32) (h1 : IntOp.cmpi .sge v 4294959104#32 = 1#1)
    (h2 : IntOp.cmpi .slt v 8192#32 = 1#1) : -8192 ≤ v.toInt ∧ v.toInt < 8192 := by
  rw [IntOp.cmpi_sge] at h1
  rw [IntOp.cmpi_slt] at h2
  have e1 : (4294959104#32 : BitVec 32).toInt = -8192 := by decide
  have e2 : (8192#32 : BitVec 32).toInt = 8192 := by decide
  rw [e1] at h1
  rw [e2] at h2
  exact ⟨h1, h2⟩

/-- The printed precondition, all ones, gives the finiteness of x and the three index ranges. -/
theorem pre_facts (x : FVec Ideal Cert.Pre_finite_inputs.S2x1024x8192 .f32)
    (w : FVec Ideal Cert.Pre_finite_inputs.S32x8192x256 .f32) (γ : FVec Ideal Cert.Pre_finite_inputs.S1 .f32)
    (mk : FVec Ideal Cert.Pre_finite_inputs.S8192x256 .f32) (r0 r1 r2 : IVec Cert.Pre_finite_inputs.S8192 32)
    (h : Cert.Pre_finite_inputs.fn (F := Ideal) x w γ mk r0 r1 r2 = fun _ => 1#1) :
    FiniteArr x ∧ InRange r0 ∧ InRange r1 ∧ InRange r2 := by
  have e := congrFun h ix0
  unfold Cert.Pre_finite_inputs.fn Cert.Pre_finite_inputs.fn_part1 Cert.Pre_finite_inputs.fn_part2 at e
  simp only [andi, IntOp.andi_eq_one] at e
  obtain ⟨⟨⟨⟨⟨⟨⟨⟨⟨hx, -⟩, -⟩, -⟩, h0a⟩, h0b⟩, h1a⟩, h1b⟩, h2a⟩, h2b⟩ := e
  refine ⟨fun i => ?_, fun j => ?_, fun j => ?_, fun j => ?_⟩
  · exact real_of_abs_lt (x i) (Host.reduce_andi_all _ _ _ _ _ hx i)
  · exact range_of_tests _ (Host.reduce_andi_all _ _ _ _ _ h0a (ix1 j)) (Host.reduce_andi_all _ _ _ _ _ h0b (ix1 j))
  · exact range_of_tests _ (Host.reduce_andi_all _ _ _ _ _ h1a (ix1 j)) (Host.reduce_andi_all _ _ _ _ _ h1b (ix1 j))
  · exact range_of_tests _ (Host.reduce_andi_all _ _ _ _ _ h2a (ix1 j)) (Host.reduce_andi_all _ _ _ _ _ h2b (ix1 j))

end BinaryDense

end
-- ==== Proof.LibGatherLast.lean ====
/-
  stablehlo.gather along the LAST axis, read at an index, for any extents.

  `gather_last2`: a rank-2 operand [B, N] taken at an [E, 1] column of start ids along axis 1 (what `x[:, ids]`
  lowers to): entry (b, e) of the result is the operand at row b and column clamp(ids e), the id read as a signed
  word and clamped into [0, N − 1].
  `gather_last3`: the same for a rank-3 operand [A, B, N] along axis 2 (what `take(x, ids, axis=2)` gathers):
  entry (a, b, e) of the result is the operand at (a, b, clamp(ids e)).
-/
import Idealize.ShloMosaic.PureOps.ShapeOps
import Idealize.ShloMosaic.PureOps.Dims
import Idealize.ShloMosaic.Lib.ValueIdx
import proofs.«405175_j67516885893426_2_alg».proof.Proof.LibGather2

namespace IndexOpsLib

open Idealize.ShloMosaic Idealize.ShloMosaic.ValueIdx

/-- In a list equal to another, the entry at the position where the other holds `a` is `a`. -/
theorem getElem_idxOf_of_eq {n : Nat} (L K : List (Fin n)) (hLK : L = K) (a : Fin n) (h : K.idxOf a < L.length) :
    L[K.idxOf a] = a := by
  subst hLK
  exact List.getElem_idxOf h

theorem gather_last2 {α : Type} {B N E w : Nat} (hN : 0 < N)
    (d : GatherDims ⟨2, ![B, N]⟩ ⟨2, ![E, 1]⟩ ⟨2, ![B, E]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![E, 1]⟩ w) (b : Fin B) (e : Fin E) :
    Host.gather d x idx (ix2 b e) = x (ix2 b (clampRow N hN (idx (ix2 e (0 : Fin 1))))) := by
  -- a batch axis of the result is not its offset axis 0, so it is axis 1, where the index holds e
  have hbatch : ∀ X : Fin 2, X ∈ d.batchDims → ((ix2 b e : (⟨2, ![B, E]⟩ : Shape).Idx) X).val = e.val := by
    intro X hX
    have hX' : X ∉ d.offsetDims := by
      have := (List.mem_filter.1 hX).2
      simpa using this
    rw [hoff] at hX'
    match X with
    | ⟨0, _⟩ => exact absurd (List.mem_singleton.mpr rfl) hX'
    | ⟨1, _⟩ => rfl
  -- the offset axis of the result is axis 0, where the index holds b
  have hoffs : ∀ X : Fin 2, X ∈ d.offsetDims → ((ix2 b e : (⟨2, ![B, E]⟩ : Shape).Idx) X).val = b.val := by
    intro X hX
    rw [hoff] at hX
    have hX0 : X = 0 := List.mem_singleton.mp hX
    subst hX0; rfl
  have hb : ∀ a : Fin 2, a ∉ d.operandBatchingDims := fun a => by rw [hob]; exact List.not_mem_nil
  -- operand axis 1: collapsed and start-indexed, the clamped id
  have h1 : (d.operandIdx (ix2 b e) idx (1 : Fin 2)).val = (clampRow N hN (idx (ix2 e (0 : Fin 1)))).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    simp only [GatherDims.operandIdx, GatherDims.batchCoord_eq_zero _ _ _ (hb 1), GatherDims.offCoord_eq_zero _ _ _ hk,
      Nat.add_zero, GatherDims.start, dif_pos hm]
    show min (idx _).toInt.toNat (N - d.sliceSizes 1) = min (idx (ix2 e 0)).toInt.toNat (N - 1)
    rw [hsl]
    congr 3
    congr 1
    funext b'
    match b' with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (1 : Fin 2) d.startIndexMap = 0
      rw [hsim]; simp
  -- operand axis 0: an offset axis with no start index, the result's row
  have h0 : (d.operandIdx (ix2 b e) idx (0 : Fin 2)).val = b.val := by
    have hk : (0 : Fin 2) ∈ d.sKept := by rw [GatherDims.mem_sKept, hcoll, hob]; simp
    have hm : (0 : Fin 2) ∉ d.startIndexMap := by rw [hsim]; simp
    simp only [GatherDims.operandIdx, GatherDims.batchCoord_eq_zero _ _ _ (hb 0), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_last3 {α : Type} {A B N E w : Nat} (hN : 0 < N)
    (d : GatherDims ⟨3, ![A, B, N]⟩ ⟨2, ![E, 1]⟩ ⟨3, ![A, B, E]⟩)
    (hoff : d.offsetDims = [0, 1]) (hcoll : d.collapsedSliceDims = [2]) (hob : d.operandBatchingDims = [])
    (hsim : d.startIndexMap = [2]) (hivd : d.indexVectorDim = 1)
    (x : (⟨3, ![A, B, N]⟩ : Shape).Idx → α) (idx : IVec ⟨2, ![E, 1]⟩ w) (a : Fin A) (b : Fin B) (e : Fin E) :
    Host.gather d x idx (ix3 a b e) = x (ix3 a b (clampRow N hN (idx (ix2 e (0 : Fin 1))))) := by
  -- a batch axis of the result is neither offset axis, so it is axis 2, where the index holds e
  have hbatch : ∀ X : Fin 3, X ∈ d.batchDims → ((ix3 a b e : (⟨3, ![A, B, E]⟩ : Shape).Idx) X).val = e.val := by
    intro X hX
    have hX' : X ∉ d.offsetDims := by
      have := (List.mem_filter.1 hX).2
      simpa using this
    rw [hoff] at hX'
    match X with
    | ⟨0, _⟩ => exact absurd List.mem_cons_self hX'
    | ⟨1, _⟩ => exact absurd (List.mem_cons_of_mem _ (List.mem_singleton.mpr rfl)) hX'
    | ⟨2, _⟩ => rfl
  have hb : ∀ c : Fin 3, c ∉ d.operandBatchingDims := fun c => by rw [hob]; exact List.not_mem_nil
  -- the operand's kept axes are its first two, the result's offset axes in the same order
  have hsk : d.offsetDims = d.sKept := by
    rw [hoff]
    show ([0, 1] : List (Fin 3)) = Shape.kept _ (d.collapsedSliceDims ++ d.operandBatchingDims)
    rw [hcoll, hob]
    rfl
  -- operand axis 2: collapsed and start-indexed, the clamped id
  have h2 : (d.operandIdx (ix3 a b e) idx (2 : Fin 3)).val = (clampRow N hN (idx (ix2 e (0 : Fin 1)))).val := by
    have hk : (2 : Fin 3) ∉ d.sKept := by rw [GatherDims.mem_sKept, hcoll]; simp
    have hm : (2 : Fin 3) ∈ d.startIndexMap := by rw [hsim]; exact List.mem_singleton.mpr rfl
    have hsl : d.sliceSizes 2 = 1 := d.slice_collapsed 2 (by rw [hcoll]; exact List.mem_singleton.mpr rfl)
    simp only [GatherDims.operandIdx, GatherDims.batchCoord_eq_zero _ _ _ (hb 2), GatherDims.offCoord_eq_zero _ _ _ hk,
      Nat.add_zero, GatherDims.start, dif_pos hm]
    show min (idx _).toInt.toNat (N - d.sliceSizes 2) = min (idx (ix2 e 0)).toInt.toNat (N - 1)
    rw [hsl]
    congr 3
    congr 1
    funext b'
    match b' with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (2 : Fin 3) d.startIndexMap = 0
      rw [hsim]; simp
  -- operand axes 0 and 1: offset axes with no start index, the result's own coordinates
  have hkeep : ∀ c : Fin 3, c ≠ 2 → (d.operandIdx (ix3 a b e) idx c).val
      = ((ix3 a b e : (⟨3, ![A, B, E]⟩ : Shape).Idx) c).val := by
    intro c hc
    have hk : c ∈ d.sKept := by
      rw [GatherDims.mem_sKept, hcoll, hob]
      exact ⟨fun h => hc (List.mem_singleton.mp h), List.not_mem_nil⟩
    have hm : c ∉ d.startIndexMap := by rw [hsim]; exact fun h => hc (List.mem_singleton.mp h)
    simp only [GatherDims.operandIdx, GatherDims.batchCoord_eq_zero _ _ _ (hb c), GatherDims.start, dif_neg hm,
      GatherDims.offCoord, dif_pos hk, Nat.add_zero, Nat.zero_add]
    rw [getElem_idxOf_of_eq d.offsetDims d.sKept hsk c]
  unfold Host.gather
  congr 1
  funext c
  match c with
  | ⟨0, _⟩ => exact Fin.ext (hkeep 0 (by decide))
  | ⟨1, _⟩ => exact Fin.ext (hkeep 1 (by decide))
  | ⟨2, _⟩ => exact Fin.ext h2

end IndexOpsLib
-- ==== Proof.KHost.lean ====
/-
  What the kernel's four stream arrays hold when the pallas region starts. Stream 0 is x itself (the change of float
  format is the identity over the extended reals). Streams 1 to 3 are x gathered along its last axis at the three
  index maps: where every id is a valid index the take's range test passes at every column, so the fill value is
  never selected and entry (l, b, j) is x at (l, b, col j).
-/
import proofs.«405175_j67516885893426_2_alg».proof.Proof.Gen.KernelIdeal.Frame
import proofs.«405175_j67516885893426_2_alg».proof.Proof.Spec
import proofs.«405175_j67516885893426_2_alg».proof.Proof.LibGatherLast
import Idealize.ShloMosaic.Lib.ValueIdx
import Idealize.ShloMosaic.Lib.ReduceAll
import Idealize.ShloMosaic.Lib.StableHlo.Run
import Idealize.ShloMosaic.Lib.StableHlo.Predicate
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.ValueIdx BinaryDense

open IndexOpsLib

/-- The ids with every negative one moved up by 8192, as the take computes them. -/
abbrev wrapVec (r : IVec S8192 32) : IVec S8192 32 :=
  select (cmpi .slt r (broadcastInDim S8192 ![] bcast_S_S8192 (constantI S_ 32 0#32)))
    (addi r (broadcastInDim S8192 ![] bcast_S_S8192 (constantI S_ 32 8192#32))) r

/-- The wrapped ids as a column of start indices. -/
abbrev wrapCol (r : IVec S8192 32) : IVec S8192x1 32 :=
  broadcastInDim S8192x1 ![0] bcast_S8192_S8192x1_0 (wrapVec r)

/-- The take's range test per column: 0 ≤ wrapped id ≤ 8191, and-reduced over the unit axis. -/
abbrev rangeTest (r : IVec S8192 32) : IVec S8192 1 :=
  Host.reduce IntOp.andi
    (andi (cmpi .sge (wrapCol r) (broadcastInDim S8192x1 ![] bcast_S_S8192x1 (constantI S_ 32 0#32)))
      (cmpi .sle (wrapCol r)
        (broadcastInDim S8192x1 ![0, 1] bcast_S1x1_S8192x1_0_1
          (broadcastInDim S1x1 ![1] bcast_S1_S1x1_1 (constantI S1 32 8191#32)))))
    (constantI S_ 1 1#1) reducesTo_S8192x1_S8192_d1 h_S_

/-- One take of x along its last axis at the index map r: the gathered value where the range test passes, the fill
    value elsewhere. -/
abbrev takeTerm (x : FVec Ideal S2x1024x8192 .f32) (r : IVec S8192 32) : FVec Ideal S2x1024x8192 .f32 :=
  select (broadcastInDim S2x1024x8192 ![2] bcast_S8192_S2x1024x8192_2 (rangeTest r))
    (Host.gather gather_S2x1024x8192_S8192x1_S2x1024x8192_01_2_n_n_2_1_210241 x (wrapCol r))
    (broadcastInDim S2x1024x8192 ![] bcast_S_S2x1024x8192 (constant (F := Ideal) S_ .f32 0x7FC00000#32))

/-- Entry j of the wrapped ids is id j wrapped: a negative id counts from the end of the axis. -/
theorem wrapVec_apply (r : IVec S8192 32) (j : Fin 8192) : wrapVec r (ix1 j) = wrapId (r (ix1 j)) := by
  show Scalar.select (IntOp.cmpi .slt (r (ix1 j)) 0#32) (IntOp.addi (r (ix1 j)) 8192#32) (r (ix1 j)) = _
  unfold Scalar.select IntOp.cmpi IntOp.addi wrapId
  cases hs : (r (ix1 j)).slt 0#32 <;> simp

/-- Row p of the start-index column is the wrap of id p. -/
theorem wrapCol_apply (r : IVec S8192 32) (i : S8192x1.Idx) : wrapCol r i = wrapId (r (ix1 (i 0))) :=
  (broadcastInDim_apply _ _ _ i (ix1 (i 0)) (fun a => match a with | ⟨0, _⟩ => rfl)).trans (wrapVec_apply r (i 0))

/-- An and-reduction of all ones from one is one. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize ((List.finRange s.numel).map s.rowMajor.symm).filter (fun i => h.drop i = j) = L
  induction L with
  | nil => rfl
  | cons a L ih => rw [List.foldl_cons, hx a]; exact ih

/-- Where every id is a valid index, the range test passes at every column. -/
theorem rangeTest_apply (r : IVec S8192 32) (h : InRange r) (j : S8192.Idx) : rangeTest r j = 1#1 := by
  refine reduce_andi_of_all_one _ _ _ _ (fun i => ?_) rfl j
  show IntOp.andi (IntOp.cmpi .sge (wrapCol r i) 0#32) (IntOp.cmpi .sle (wrapCol r i) 8191#32) = 1#1
  rw [wrapCol_apply]
  obtain ⟨h0, h1⟩ := wrapId_range _ (h (i 0))
  have z : (0#32 : BitVec 32).toInt = 0 := by decide
  have e : (8191#32 : BitVec 32).toInt = 8191 := by decide
  have a0 : IntOp.cmpi .sge (wrapId (r (ix1 (i 0)))) 0#32 = 1#1 := by
    simp only [IntOp.cmpi, BitVec.sle, z, StableHlo.Predicate.ofBool_eq_one_iff, decide_eq_true_eq]; exact h0
  have a1 : IntOp.cmpi .sle (wrapId (r (ix1 (i 0)))) 8191#32 = 1#1 := by
    simp only [IntOp.cmpi, BitVec.sle, e, StableHlo.Predicate.ofBool_eq_one_iff, decide_eq_true_eq]; exact h1
  rw [a0, a1]; rfl

/-- One take, read at an index: under valid ids the entry (l, b, j) is x at (l, b, col j). -/
theorem takeTerm_apply (x : FVec Ideal S2x1024x8192 .f32) (r : IVec S8192 32) (h : InRange r) (l : Fin 2) (b : Fin 1024)
    (j : Fin 8192) : takeTerm x r (ix3 l b j) = x (ix3 l b (col r j)) := by
  have hsel : broadcastInDim S2x1024x8192 ![2] bcast_S8192_S2x1024x8192_2 (rangeTest r) (ix3 l b j) = 1#1 :=
    (broadcastInDim_apply _ _ _ (ix3 l b j) (ix1 j) (fun a => match a with | ⟨0, _⟩ => rfl)).trans (rangeTest_apply r h _)
  show Scalar.select (broadcastInDim S2x1024x8192 ![2] bcast_S8192_S2x1024x8192_2 (rangeTest r) (ix3 l b j))
    (Host.gather gather_S2x1024x8192_S8192x1_S2x1024x8192_01_2_n_n_2_1_210241 x (wrapCol r) (ix3 l b j)) _ = _
  rw [hsel, select_one, gather_last3 (by norm_num) _ rfl rfl rfl rfl rfl x (wrapCol r) l b j, wrapCol_apply]
  rfl

variable (m : (ℓ : Loc nD τ sig) → Buf (Elt Ideal) ℓ)

/-- Stream 0's array: x, its float format changed. -/
theorem v3_eq (c : Dev nD) :
    @Eq (FVec Ideal S2x1024x8192 .bf16) (V m c main_v3)
      (truncf .bf16 (m ((c : Thread nD τ).loc main_arg0) : FVec Ideal S2x1024x8192 .f32) bitsLt_bf16_f32) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp

/-- Stream 1's array: the take of x at the first index map, its float format changed. -/
theorem v4_eq (c : Dev nD) :
    @Eq (FVec Ideal S2x1024x8192 .bf16) (V m c main_v4)
      (truncf .bf16 (takeTerm (m ((c : Thread nD τ).loc main_arg0)) (m ((c : Thread nD τ).loc main_arg4))) bitsLt_bf16_f32) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- Stream 2's array: the take of x at the second index map, its float format changed. -/
theorem v5_eq (c : Dev nD) :
    @Eq (FVec Ideal S2x1024x8192 .bf16) (V m c main_v5)
      (truncf .bf16 (takeTerm (m ((c : Thread nD τ).loc main_arg0)) (m ((c : Thread nD τ).loc main_arg5))) bitsLt_bf16_f32) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- Stream 3's array: the take of x at the third index map, its float format changed. -/
theorem v6_eq (c : Dev nD) :
    @Eq (FVec Ideal S2x1024x8192 .bf16) (V m c main_v6)
      (truncf .bf16 (takeTerm (m ((c : Thread nD τ).loc main_arg0)) (m ((c : Thread nD τ).loc main_arg6))) bitsLt_bf16_f32) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- Stream 0 is x. -/
theorem stream0 (c : Dev nD) (l : Fin 2) (b : Fin 1024) (j : Fin 8192) :
    V m c main_v3 (ix3 l b j) = m ((c : Thread nD τ).loc main_arg0) (ix3 l b j) := by
  exact congrFun (v3_eq m c) (ix3 l b j)

/-- Stream 1 is x gathered at the first index map. -/
theorem stream1 (c : Dev nD) (h : InRange (m ((c : Thread nD τ).loc main_arg4))) (l : Fin 2) (b : Fin 1024) (j : Fin 8192) :
    V m c main_v4 (ix3 l b j)
      = m ((c : Thread nD τ).loc main_arg0) (ix3 l b (col (m ((c : Thread nD τ).loc main_arg4)) j)) := by
  exact (congrFun (v4_eq m c) (ix3 l b j)).trans (takeTerm_apply _ _ h l b j)

/-- Stream 2 is x gathered at the second index map. -/
theorem stream2 (c : Dev nD) (h : InRange (m ((c : Thread nD τ).loc main_arg5))) (l : Fin 2) (b : Fin 1024) (j : Fin 8192) :
    V m c main_v5 (ix3 l b j)
      = m ((c : Thread nD τ).loc main_arg0) (ix3 l b (col (m ((c : Thread nD τ).loc main_arg5)) j)) := by
  exact (congrFun (v5_eq m c) (ix3 l b j)).trans (takeTerm_apply _ _ h l b j)

/-- Stream 3 is x gathered at the third index map. -/
theorem stream3 (c : Dev nD) (h : InRange (m ((c : Thread nD τ).loc main_arg6))) (l : Fin 2) (b : Fin 1024) (j : Fin 8192) :
    V m c main_v6 (ix3 l b j)
      = m ((c : Thread nD τ).loc main_arg0) (ix3 l b (col (m ((c : Thread nD τ).loc main_arg6)) j)) := by
  exact (congrFun (v6_eq m c) (ix3 l b j)).trans (takeTerm_apply _ _ h l b j)

end Cert.KernelIdeal.HostValue

end
-- ==== Proof.KBody.lean ====
/-
  What one run of the kernel body leaves behind, read at an index over the extended reals. The body computes the four
  streams' positive and negative parts once, the masked scaled binary weights once, and then, for the 16 truth-table
  rows in order, adds row c's product block times weight matrix c onto the scratch accumulator. So after the body the
  accumulator at (b, n) is what it held before (zero at a level's first tile) plus the tile's sum over the 16 rows
  and the 256 columns; at a level's last tile the output block receives the same value.

  The argument has two halves. For any float values, what the body leaves in the accumulator is the composition of
  its sixteen updates (`sixteen`) applied to what the accumulator held, each update reading back what the one before
  stored: every store writes the whole accumulator, so a later load reads the last stored value. Over the extended
  reals each update is read at (b, n): a product of a [1024, 256] block with a [256, 256] matrix into a zero block is
  the sum over the 256 columns, the four factor blocks are the positive or negative parts the row's bits name, and
  the weight matrix is sign(w) · |γ| · mask; sixteen successive additions add the sum of the sixteen rows.
-/
import proofs.«405175_j67516885893426_2_alg».proof.Proof.Gen.KernelIdeal.Frame
import proofs.«405175_j67516885893426_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.BodyValue

open Cert.KernelIdeal Cert.KernelIdeal.Gen Idealize.ShloMosaic Idealize.ShloMosaic.TcCoe Idealize.SL.Sem
open Idealize.ShloMosaic.ValueIdx BinaryDense

/-! ## The body's value as a composition of its sixteen updates, for any float values -/

section Generic
variable {F : FTy → Type} [FloatOps F]

/-- The zero offsets of a whole buffer of rank one, two and three. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after a list of stores whose last one wrote the whole buffer reads that store's value. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The accumulator after truth-table row 0's update of the accumulator `a`. -/
def upd0 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay18 (k0_pay8 x1) (k0_pay9 x2) (k0_pay10 x3) (k0_pay11 x4) x0 x5 x6 a

/-- The accumulator after truth-table row 1's update of the accumulator `a`. -/
def upd1 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay20 (k0_pay19 (k0_pay7 x4) (k0_pay8 x1) (k0_pay9 x2) (k0_pay10 x3) k0_pay15 x0 x5 x6 a)

/-- The accumulator after truth-table row 2's update of the accumulator `a`. -/
def upd2 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay21 (k0_pay8 x1) (k0_pay9 x2) (k0_pay11 x4) (k0_pay14 x3) (k0_pay17 x0 x5 x6) a

/-- The accumulator after truth-table row 3's update of the accumulator `a`. -/
def upd3 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay22 (k0_pay8 x1) (k0_pay9 x2) (k0_pay14 x3) (k0_pay16 (k0_pay7 x4) k0_pay15) (k0_pay17 x0 x5 x6) a

/-- The accumulator after truth-table row 4's update of the accumulator `a`. -/
def upd4 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay23 (k0_pay8 x1) (k0_pay10 x3) (k0_pay11 x4) (k0_pay13 x2) (k0_pay17 x0 x5 x6) a

/-- The accumulator after truth-table row 5's update of the accumulator `a`. -/
def upd5 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay25 (k0_pay17 x0 x5 x6) (k0_pay24 (k0_pay8 x1) (k0_pay10 x3) (k0_pay13 x2) (k0_pay16 (k0_pay7 x4) k0_pay15)) a

/-- The accumulator after truth-table row 6's update of the accumulator `a`. -/
def upd6 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay26 (k0_pay8 x1) (k0_pay11 x4) (k0_pay13 x2) (k0_pay14 x3) (k0_pay17 x0 x5 x6) a

/-- The accumulator after truth-table row 7's update of the accumulator `a`. -/
def upd7 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay27 (k0_pay8 x1) (k0_pay13 x2) (k0_pay14 x3) (k0_pay16 (k0_pay7 x4) k0_pay15) (k0_pay17 x0 x5 x6) a

/-- The accumulator after truth-table row 8's update of the accumulator `a`. -/
def upd8 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay29 (k0_pay28 (k0_pay9 x2) (k0_pay10 x3) (k0_pay11 x4) (k0_pay12 x1) (k0_pay17 x0 x5 x6) a)

/-- The accumulator after truth-table row 9's update of the accumulator `a`. -/
def upd9 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay30 (k0_pay9 x2) (k0_pay10 x3) (k0_pay12 x1) (k0_pay16 (k0_pay7 x4) k0_pay15) (k0_pay17 x0 x5 x6) a

/-- The accumulator after truth-table row 10's update of the accumulator `a`. -/
def upd10 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay31 (k0_pay9 x2) (k0_pay11 x4) (k0_pay12 x1) (k0_pay14 x3) (k0_pay17 x0 x5 x6) a

/-- The accumulator after truth-table row 11's update of the accumulator `a`. -/
def upd11 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay32 (k0_pay9 x2) (k0_pay12 x1) (k0_pay14 x3) (k0_pay16 (k0_pay7 x4) k0_pay15) (k0_pay17 x0 x5 x6) a

/-- The accumulator after truth-table row 12's update of the accumulator `a`. -/
def upd12 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay34 (k0_pay17 x0 x5 x6) (k0_pay33 (k0_pay10 x3) (k0_pay11 x4) (k0_pay12 x1) (k0_pay13 x2)) a

/-- The accumulator after truth-table row 13's update of the accumulator `a`. -/
def upd13 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay35 (k0_pay10 x3) (k0_pay12 x1) (k0_pay13 x2) (k0_pay16 (k0_pay7 x4) k0_pay15) (k0_pay17 x0 x5 x6) a

/-- The accumulator after truth-table row 14's update of the accumulator `a`. -/
def upd14 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay36 (k0_pay11 x4) (k0_pay12 x1) (k0_pay13 x2) (k0_pay14 x3) (k0_pay17 x0 x5 x6) a

/-- The accumulator after truth-table row 15's update of the accumulator `a`. -/
def upd15 (x0 : Vec F S1 .f32) (x1 x2 x3 x4 : Vec F S1x1024x256 .bf16) (x5 : Vec F S16x256x256 .f32) (x6 : Vec F S256x256 .f32) (a : Vec F S1024x256 .f32) : FVec F S1024x256 .f32 :=
  k0_pay37 (k0_pay12 x1) (k0_pay13 x2) (k0_pay14 x3) (k0_pay16 (k0_pay7 x4) k0_pay15) (k0_pay17 x0 x5 x6) a

/-- The accumulator after all sixteen updates, in truth-table order, of the accumulator `a`. -/
def sixteen (x0 : Vec F S1 .f32) (x1 x2 x3 x4 : Vec F S1x1024x256 .bf16) (x5 : Vec F S16x256x256 .f32) (x6 : Vec F S256x256 .f32) (a : Vec F S1024x256 .f32) : FVec F S1024x256 .f32 :=
  upd15 x0 x1 x2 x3 x4 x5 x6 (upd14 x0 x1 x2 x3 x4 x5 x6 (upd13 x0 x1 x2 x3 x4 x5 x6 (upd12 x0 x1 x2 x3 x4 x5 x6 (upd11 x0 x1 x2 x3 x4 x5 x6 (upd10 x0 x1 x2 x3 x4 x5 x6 (upd9 x0 x1 x2 x3 x4 x5 x6 (upd8 x0 x1 x2 x3 x4 x5 x6 (upd7 x0 x1 x2 x3 x4 x5 x6 (upd6 x0 x1 x2 x3 x4 x5 x6 (upd5 x0 x1 x2 x3 x4 x5 x6 (upd4 x0 x1 x2 x3 x4 x5 x6 (upd3 x0 x1 x2 x3 x4 x5 x6 (upd2 x0 x1 x2 x3 x4 x5 x6 (upd1 x0 x1 x2 x3 x4 x5 x6 (upd0 x0 x1 x2 x3 x4 x5 x6 a)))))))))))))))

/-! ### What the body's stores leave, read back

Every store of the body writes the whole accumulator, so the accumulator ends at the last stored value and each load
of it reads the value stored just before; the loads of the input blocks read the blocks. -/

/-- A level's first tile: the sixteen updates of the zero block the reset stored. -/
theorem pieces_A (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : cond0_0 i) (hc1 : ¬cond0_1 i)
    (x0 : Vec F S1 .f32) (x1 : Vec F S1x1024x256 .bf16) (x2 : Vec F S1x1024x256 .bf16) (x3 : Vec F S1x1024x256 .bf16) (x4 : Vec F S1x1024x256 .bf16) (x5 : Vec F S16x256x256 .f32) (x6 : Vec F S256x256 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (sixteen x0 x1 x2 x3 x4 x5 x6 k0_pay3) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x256) hz2]
  simp only [readCov_cons_unit_zero (S := S1024x256) _ hz2, View.readCov_unit_zero (S := S1024x256) _ hz2,
    View.readAt_eq_ld, harg2.read_unread, harg3.read_unread, harg4.read_unread, harg5.read_unread, harg6.read_unread,
    harg7.read_unread, harg8.read_unread, harg10.read_unread, View.ld_unit_zero (S := S1) hz1,
    View.ld_unit_zero (S := S1024x256) hz2, View.ld_unit_zero (S := S256x256) hz2,
    View.ld_unit_zero (S := S1x1024x256) hz3, View.ld_unit_zero (S := S16x256x256) hz3]
  rfl

/-- A middle tile: the sixteen updates of what the accumulator held. -/
theorem pieces_B (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : ¬cond0_1 i)
    (x0 : Vec F S1 .f32) (x1 : Vec F S1x1024x256 .bf16) (x2 : Vec F S1x1024x256 .bf16) (x3 : Vec F S1x1024x256 .bf16) (x4 : Vec F S1x1024x256 .bf16) (x5 : Vec F S16x256x256 .f32) (x6 : Vec F S256x256 .f32) (xs0 : Vec F S1024x256 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (sixteen x0 x1 x2 x3 x4 x5 x6 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_cons_unit_zero (S := S1024x256) hz2]
  simp only [readCov_cons_unit_zero (S := S1024x256) _ hz2, View.readCov_unit_zero (S := S1024x256) _ hz2,
    View.readAt_eq_ld, harg2.read_unread, harg3.read_unread, harg4.read_unread, harg5.read_unread, harg6.read_unread,
    harg7.read_unread, harg8.read_unread, harg10.read_unread, View.ld_unit_zero (S := S1) hz1,
    View.ld_unit_zero (S := S1024x256) hz2, View.ld_unit_zero (S := S256x256) hz2,
    View.ld_unit_zero (S := S1x1024x256) hz3, View.ld_unit_zero (S := S16x256x256) hz3]
  rfl

/-- A level's last tile: the same in the accumulator, -/
theorem pieces_C (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : cond0_1 i)
    (x0 : Vec F S1 .f32) (x1 : Vec F S1x1024x256 .bf16) (x2 : Vec F S1x1024x256 .bf16) (x3 : Vec F S1x1024x256 .bf16) (x4 : Vec F S1x1024x256 .bf16) (x5 : Vec F S16x256x256 .f32) (x6 : Vec F S256x256 .f32) (xs0 : Vec F S1024x256 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (sixteen x0 x1 x2 x3 x4 x5 x6 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_cons_unit_zero (S := S1024x256) hz2]
  simp only [readCov_cons_unit_zero (S := S1024x256) _ hz2, View.readCov_unit_zero (S := S1024x256) _ hz2,
    View.readAt_eq_ld, harg2.read_unread, harg3.read_unread, harg4.read_unread, harg5.read_unread, harg6.read_unread,
    harg7.read_unread, harg8.read_unread, harg10.read_unread, View.ld_unit_zero (S := S1) hz1,
    View.ld_unit_zero (S := S1024x256) hz2, View.ld_unit_zero (S := S256x256) hz2,
    View.ld_unit_zero (S := S1x1024x256) hz3, View.ld_unit_zero (S := S16x256x256) hz3]
  rfl

/-- and the output block is the accumulator read back, with a leading unit axis. -/
theorem pieces_out (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : cond0_1 i)
    (x0 : Vec F S1 .f32) (x1 : Vec F S1x1024x256 .bf16) (x2 : Vec F S1x1024x256 .bf16) (x3 : Vec F S1x1024x256 .bf16) (x4 : Vec F S1x1024x256 .bf16) (x5 : Vec F S16x256x256 .f32) (x6 : Vec F S256x256 .f32) (xs0 : Vec F S1024x256 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (k0_pay1 (sixteen x0 x1 x2 x3 x4 x5 x6 xs0)) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1024x256) hz3]
  simp only [readCov_cons_unit_zero (S := S1024x256) _ hz2, View.readCov_unit_zero (S := S1024x256) _ hz2,
    View.readAt_eq_ld, harg2.read_unread, harg3.read_unread, harg4.read_unread, harg5.read_unread, harg6.read_unread,
    harg7.read_unread, harg8.read_unread, harg10.read_unread, View.ld_unit_zero (S := S1) hz1,
    View.ld_unit_zero (S := S1024x256) hz2, View.ld_unit_zero (S := S256x256) hz2,
    View.ld_unit_zero (S := S1x1024x256) hz3, View.ld_unit_zero (S := S16x256x256) hz3]
  rfl

end Generic

/-! ## The blocks read at an index, over the extended reals -/

/-- A stream block viewed as a matrix reads its one plane. -/
theorem plane_apply {F : FTy → Type} (x : Vec F S1x1024x256 .bf16) (b : Fin 1024) (jj : Fin 256) :
    shapeCast S1024x256 x shapeCasts_S1x1024x256_S1024x256 (ix2 b jj) = x (ix3 0 b jj) :=
  shapeCast_1ab_ab_apply x shapeCasts_S1x1024x256_S1024x256 b jj

/-- The sixteen-bit zero word is the number zero. -/
theorem zero16 : Ideal.ofBits .bf16 0x0000#16 = 0 := IdealRules.sign_bit.ideal_zero .bf16

/-- The positive part of the first stream, -/
theorem plus0 (x : Vec Ideal S1x1024x256 .bf16) (b : Fin 1024) (jj : Fin 256) :
    k0_pay8 x (ix2 b jj) = plusPart (x (ix3 0 b jj)) := by
  show max (shapeCast S1024x256 x shapeCasts_S1x1024x256_S1024x256 (ix2 b jj)) (Ideal.ofBits .bf16 0x0000#16) = max (x (ix3 0 b jj)) 0
  rw [plane_apply, zero16]
/-- of the second, -/
theorem plus1 (x : Vec Ideal S1x1024x256 .bf16) (b : Fin 1024) (jj : Fin 256) :
    k0_pay9 x (ix2 b jj) = plusPart (x (ix3 0 b jj)) := plus0 x b jj
/-- of the third, -/
theorem plus2 (x : Vec Ideal S1x1024x256 .bf16) (b : Fin 1024) (jj : Fin 256) :
    k0_pay10 x (ix2 b jj) = plusPart (x (ix3 0 b jj)) := plus0 x b jj
/-- and of the fourth. -/
theorem plus3 (x : Vec Ideal S1x1024x256 .bf16) (b : Fin 1024) (jj : Fin 256) :
    k0_pay11 x (ix2 b jj) = plusPart (x (ix3 0 b jj)) := plus0 x b jj

/-- The negative part of the first stream, -/
theorem minus0 (x : Vec Ideal S1x1024x256 .bf16) (b : Fin 1024) (jj : Fin 256) :
    k0_pay12 x (ix2 b jj) = minusPart (x (ix3 0 b jj)) := by
  show max (Ideal.ofBits .bf16 0x0000#16 - shapeCast S1024x256 x shapeCasts_S1x1024x256_S1024x256 (ix2 b jj)) (Ideal.ofBits .bf16 0x0000#16) = max (0 - x (ix3 0 b jj)) 0
  rw [plane_apply, zero16]
/-- of the second, -/
theorem minus1 (x : Vec Ideal S1x1024x256 .bf16) (b : Fin 1024) (jj : Fin 256) :
    k0_pay13 x (ix2 b jj) = minusPart (x (ix3 0 b jj)) := minus0 x b jj
/-- of the third, -/
theorem minus2 (x : Vec Ideal S1x1024x256 .bf16) (b : Fin 1024) (jj : Fin 256) :
    k0_pay14 x (ix2 b jj) = minusPart (x (ix3 0 b jj)) := minus0 x b jj
/-- and of the fourth. -/
theorem minus3 (x : Vec Ideal S1x1024x256 .bf16) (b : Fin 1024) (jj : Fin 256) :
    k0_pay16 (k0_pay7 x) k0_pay15 (ix2 b jj) = minusPart (x (ix3 0 b jj)) := minus0 x b jj

/-- The scale's one entry. -/
theorem scale_idx : (fun a : Fin S1.rank => (⟨(![0] : Fin 1 → Nat) a, inpos_S1_p0 a⟩ : Fin (S1.size a))) = ix1 (0 : Fin 1) :=
  funext fun a => match a with | ⟨0, _⟩ => rfl

/-- The mask, given a leading unit axis and repeated over the sixteen rows, reads the mask. -/
theorem mask_apply (x6 : Vec Ideal S256x256 .f32) (c : Fin 16) (jj n : Fin 256) :
    broadcastTo S16x256x256 (shapeCast S1x256x256 x6 shapeCasts_S256x256_S1x256x256) broadcasts_S1x256x256_S16x256x256 (ix3 c jj n)
      = x6 (ix2 jj n) :=
  (broadcastTo_apply _ broadcasts_S1x256x256_S16x256x256 (ix3 c jj n) (ix3 (0 : Fin 1) jj n) (fun a => match a with
    | ⟨0, _⟩ => rfl
    | ⟨1, _⟩ => rfl
    | ⟨2, _⟩ => rfl)).trans (shapeCast_ab_1ab_apply x6 shapeCasts_S256x256_S1x256x256 0 jj n)

/-- The weights: the sign of the weight entry, times the absolute value of the scale, times the mask. -/
theorem weights_apply (x0 : FVec Ideal S1 .f32) (x5 : FVec Ideal S16x256x256 .f32) (x6 : FVec Ideal S256x256 .f32) (c : Fin 16) (jj n : Fin 256) :
    k0_pay17 (F := Ideal) x0 x5 x6 (ix3 c jj n) = sgn (x5 (ix3 c jj n)) * absE (x0 (ix1 0)) * x6 (ix2 jj n) := by
  show Scalar.select (FloatOps.cmpf .ogt (FloatOps.absf (x5 (ix3 c jj n))) (Scalar.ofBits .f32 0x00000000#32))
        (Scalar.select (FloatOps.cmpf .olt (x5 (ix3 c jj n)) (Scalar.ofBits .f32 0x00000000#32)) (Scalar.ofBits .f32 0xBF800000#32)
          (Scalar.ofBits .f32 0x3F800000#32)) (x5 (ix3 c jj n))
      * FloatOps.absf (x0 (fun a => ⟨(![0] : Fin 1 → Nat) a, inpos_S1_p0 a⟩))
      * broadcastTo S16x256x256 (shapeCast S1x256x256 x6 shapeCasts_S256x256_S1x256x256) broadcasts_S1x256x256_S16x256x256 (ix3 c jj n)
    = Ideal.sign (x5 (ix3 c jj n)) * max (x0 (ix1 0)) (-(x0 (ix1 0))) * x6 (ix2 jj n)
  rw [Ideal.jnp_sign_eq_sign_f32, mask_apply, scale_idx]
  rfl

/-! ## One matrix product read at an index -/

theorem lhs_axis0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_axis1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_axis0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_axis1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A product of a [1024, 256] block with a [256, 256] matrix into the zero block is, at (b, n), the sum over the 256
    columns jj of the block at (b, jj) times the matrix at (jj, n). -/
theorem product_apply (l : FVec Ideal S1024x256 .bf16) (r : FVec Ideal S256x256 .bf16) (b : Fin 1024) (n : Fin 256) :
    matmul dot_S1024x256_S256x256_S1024x256_1_0_0_1_n_n none l r (constant S1024x256 .f32 0x00000000#32) (ix2 b n)
      = ∑ jj : Fin 256, l (ix2 b jj) * r (ix2 jj n) := by
  show FloatOps.matmul dot_S1024x256_S256x256_S1024x256_1_0_0_1_n_n none l r (constant S1024x256 .f32 0x00000000#32) (ix2 b n) = _
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 b n) ((contrEquiv1 dot_S1024x256_S256x256_S1024x256_1_0_0_1_n_n 256 rfl rfl).symm k) = ix2 b k := funext fun a => Fin.ext (by
    match a with
    | ⟨0, _⟩ => exact lhs_axis0 _ _
    | ⟨1, _⟩ => exact (lhs_axis1 _ _).trans hk)
  have er : dot_S1024x256_S256x256_S1024x256_1_0_0_1_n_n.rhsIdx (ix2 b n) ((contrEquiv1 dot_S1024x256_S256x256_S1024x256_1_0_0_1_n_n 256 rfl rfl).symm k) = ix2 k n := funext fun a => Fin.ext (by
    match a with
    | ⟨0, _⟩ => exact (rhs_axis0 _ _).trans hk
    | ⟨1, _⟩ => exact rhs_axis1 _ _)
  rw [el, er]

/-- Weight matrix c of the sixteen, cut out and viewed as a matrix, reads the weights at (c, jj, n). -/
theorem matrix_apply (W : FVec Ideal S16x256x256 .bf16) (c : Fin 16) (h : S16x256x256.Slices ![c.val, 0, 0] S1x256x256)
    (jj n : Fin 256) :
    shapeCast S256x256 (extractStridedSlice S1x256x256 ![c.val, 0, 0] W h) shapeCasts_S1x256x256_S256x256 (ix2 jj n)
      = W (ix3 c jj n) :=
  (shapeCast_1ab_ab_apply _ shapeCasts_S1x256x256_S256x256 jj n).trans
    (extractStridedSlice_apply _ W h (ix3 (0 : Fin 1) jj n) (ix3 c jj n) (fun a => match a with
      | ⟨0, _⟩ => rfl
      | ⟨1, _⟩ => (Nat.zero_add _).symm
      | ⟨2, _⟩ => (Nat.zero_add _).symm))

/-- What truth-table row c adds at (b, n): the sum over the tile's 256 columns of the row's product of the four picks
    times the masked scaled binary weight. -/
def rowSum (x0 : FVec Ideal S1 .f32) (x1 x2 x3 x4 : FVec Ideal S1x1024x256 .bf16) (x5 : FVec Ideal S16x256x256 .f32)
    (x6 : FVec Ideal S256x256 .f32) (b : Fin 1024) (n : Fin 256) (c : Fin 16) : EReal :=
  ∑ jj : Fin 256, prod4 c (x1 (ix3 0 b jj)) (x2 (ix3 0 b jj)) (x3 (ix3 0 b jj)) (x4 (ix3 0 b jj))
    * (sgn (x5 (ix3 c jj n)) * absE (x0 (ix1 0)) * x6 (ix2 jj n))

/-- ONE UPDATE. Row c's update adds, at (b, n), the sum over the tile's 256 columns of the row's product of the four
    picks times the masked scaled binary weight: the four factor blocks are the picks the row's bits name. -/
theorem row_update (c : Fin 16) (h : S16x256x256.Slices ![c.val, 0, 0] S1x256x256)
    (q0 q1 q2 q3 : FVec Ideal S1024x256 .bf16) (x0 : FVec Ideal S1 .f32) (x1 x2 x3 x4 : FVec Ideal S1x1024x256 .bf16)
    (x5 : FVec Ideal S16x256x256 .f32) (x6 : FVec Ideal S256x256 .f32) (a : FVec Ideal S1024x256 .f32) (b : Fin 1024) (n : Fin 256)
    (h0 : ∀ jj, q0 (ix2 b jj) = part c 0 (x1 (ix3 0 b jj))) (h1 : ∀ jj, q1 (ix2 b jj) = part c 1 (x2 (ix3 0 b jj)))
    (h2 : ∀ jj, q2 (ix2 b jj) = part c 2 (x3 (ix3 0 b jj))) (h3 : ∀ jj, q3 (ix2 b jj) = part c 3 (x4 (ix3 0 b jj))) :
    addf a (matmul dot_S1024x256_S256x256_S1024x256_1_0_0_1_n_n none (mulf (mulf (mulf q0 q1) q2) q3)
        (shapeCast S256x256 (extractStridedSlice S1x256x256 ![c.val, 0, 0] (k0_pay17 x0 x5 x6) h) shapeCasts_S1x256x256_S256x256)
        (constant S1024x256 .f32 0x00000000#32)) (ix2 b n)
      = a (ix2 b n) + rowSum x0 x1 x2 x3 x4 x5 x6 b n c := by
  refine congrArg (a (ix2 b n) + ·) ?_
  refine (product_apply _ _ b n).trans (Finset.sum_congr rfl fun jj _ => ?_)
  rw [matrix_apply, weights_apply]
  show q0 (ix2 b jj) * q1 (ix2 b jj) * q2 (ix2 b jj) * q3 (ix2 b jj) * _ = _
  rw [h0, h1, h2, h3]
  rfl

/-! ## The sixteen updates, and their sum -/

section Rows
variable (x0 : FVec Ideal S1 .f32) (x1 x2 x3 x4 : FVec Ideal S1x1024x256 .bf16) (x5 : FVec Ideal S16x256x256 .f32)
  (x6 : FVec Ideal S256x256 .f32) (a : FVec Ideal S1024x256 .f32) (b : Fin 1024) (n : Fin 256)

theorem upd0_apply : upd0 x0 x1 x2 x3 x4 x5 x6 a (ix2 b n) = a (ix2 b n) + rowSum x0 x1 x2 x3 x4 x5 x6 b n 0 :=
  (congrFun (shapeCast_self _ shapeCasts_S1024x256_S1024x256) (ix2 b n)).trans
    (row_update 0 _ (k0_pay8 x1) (k0_pay9 x2) (k0_pay10 x3) (k0_pay11 x4) x0 x1 x2 x3 x4 x5 x6 a b n (plus0 x1 b) (plus1 x2 b) (plus2 x3 b) (plus3 x4 b))
theorem upd1_apply : upd1 x0 x1 x2 x3 x4 x5 x6 a (ix2 b n) = a (ix2 b n) + rowSum x0 x1 x2 x3 x4 x5 x6 b n 1 :=
  (congrFun (shapeCast_self _ shapeCasts_S1024x256_S1024x256) (ix2 b n)).trans
    (row_update 1 _ (k0_pay8 x1) (k0_pay9 x2) (k0_pay10 x3) (k0_pay16 (k0_pay7 x4) k0_pay15) x0 x1 x2 x3 x4 x5 x6 a b n (plus0 x1 b) (plus1 x2 b) (plus2 x3 b) (minus3 x4 b))
theorem upd2_apply : upd2 x0 x1 x2 x3 x4 x5 x6 a (ix2 b n) = a (ix2 b n) + rowSum x0 x1 x2 x3 x4 x5 x6 b n 2 :=
  (congrFun (shapeCast_self _ shapeCasts_S1024x256_S1024x256) (ix2 b n)).trans
    (row_update 2 _ (k0_pay8 x1) (k0_pay9 x2) (k0_pay14 x3) (k0_pay11 x4) x0 x1 x2 x3 x4 x5 x6 a b n (plus0 x1 b) (plus1 x2 b) (minus2 x3 b) (plus3 x4 b))
theorem upd3_apply : upd3 x0 x1 x2 x3 x4 x5 x6 a (ix2 b n) = a (ix2 b n) + rowSum x0 x1 x2 x3 x4 x5 x6 b n 3 :=
  (congrFun (shapeCast_self _ shapeCasts_S1024x256_S1024x256) (ix2 b n)).trans
    (row_update 3 _ (k0_pay8 x1) (k0_pay9 x2) (k0_pay14 x3) (k0_pay16 (k0_pay7 x4) k0_pay15) x0 x1 x2 x3 x4 x5 x6 a b n (plus0 x1 b) (plus1 x2 b) (minus2 x3 b) (minus3 x4 b))
theorem upd4_apply : upd4 x0 x1 x2 x3 x4 x5 x6 a (ix2 b n) = a (ix2 b n) + rowSum x0 x1 x2 x3 x4 x5 x6 b n 4 :=
  (congrFun (shapeCast_self _ shapeCasts_S1024x256_S1024x256) (ix2 b n)).trans
    (row_update 4 _ (k0_pay8 x1) (k0_pay13 x2) (k0_pay10 x3) (k0_pay11 x4) x0 x1 x2 x3 x4 x5 x6 a b n (plus0 x1 b) (minus1 x2 b) (plus2 x3 b) (plus3 x4 b))
theorem upd5_apply : upd5 x0 x1 x2 x3 x4 x5 x6 a (ix2 b n) = a (ix2 b n) + rowSum x0 x1 x2 x3 x4 x5 x6 b n 5 :=
  (congrFun (shapeCast_self _ shapeCasts_S1024x256_S1024x256) (ix2 b n)).trans
    (row_update 5 _ (k0_pay8 x1) (k0_pay13 x2) (k0_pay10 x3) (k0_pay16 (k0_pay7 x4) k0_pay15) x0 x1 x2 x3 x4 x5 x6 a b n (plus0 x1 b) (minus1 x2 b) (plus2 x3 b) (minus3 x4 b))
theorem upd6_apply : upd6 x0 x1 x2 x3 x4 x5 x6 a (ix2 b n) = a (ix2 b n) + rowSum x0 x1 x2 x3 x4 x5 x6 b n 6 :=
  (congrFun (shapeCast_self _ shapeCasts_S1024x256_S1024x256) (ix2 b n)).trans
    (row_update 6 _ (k0_pay8 x1) (k0_pay13 x2) (k0_pay14 x3) (k0_pay11 x4) x0 x1 x2 x3 x4 x5 x6 a b n (plus0 x1 b) (minus1 x2 b) (minus2 x3 b) (plus3 x4 b))
theorem upd7_apply : upd7 x0 x1 x2 x3 x4 x5 x6 a (ix2 b n) = a (ix2 b n) + rowSum x0 x1 x2 x3 x4 x5 x6 b n 7 :=
  (congrFun (shapeCast_self _ shapeCasts_S1024x256_S1024x256) (ix2 b n)).trans
    (row_update 7 _ (k0_pay8 x1) (k0_pay13 x2) (k0_pay14 x3) (k0_pay16 (k0_pay7 x4) k0_pay15) x0 x1 x2 x3 x4 x5 x6 a b n (plus0 x1 b) (minus1 x2 b) (minus2 x3 b) (minus3 x4 b))
theorem upd8_apply : upd8 x0 x1 x2 x3 x4 x5 x6 a (ix2 b n) = a (ix2 b n) + rowSum x0 x1 x2 x3 x4 x5 x6 b n 8 :=
  (congrFun (shapeCast_self _ shapeCasts_S1024x256_S1024x256) (ix2 b n)).trans
    (row_update 8 _ (k0_pay12 x1) (k0_pay9 x2) (k0_pay10 x3) (k0_pay11 x4) x0 x1 x2 x3 x4 x5 x6 a b n (minus0 x1 b) (plus1 x2 b) (plus2 x3 b) (plus3 x4 b))
theorem upd9_apply : upd9 x0 x1 x2 x3 x4 x5 x6 a (ix2 b n) = a (ix2 b n) + rowSum x0 x1 x2 x3 x4 x5 x6 b n 9 :=
  (congrFun (shapeCast_self _ shapeCasts_S1024x256_S1024x256) (ix2 b n)).trans
    (row_update 9 _ (k0_pay12 x1) (k0_pay9 x2) (k0_pay10 x3) (k0_pay16 (k0_pay7 x4) k0_pay15) x0 x1 x2 x3 x4 x5 x6 a b n (minus0 x1 b) (plus1 x2 b) (plus2 x3 b) (minus3 x4 b))
theorem upd10_apply : upd10 x0 x1 x2 x3 x4 x5 x6 a (ix2 b n) = a (ix2 b n) + rowSum x0 x1 x2 x3 x4 x5 x6 b n 10 :=
  (congrFun (shapeCast_self _ shapeCasts_S1024x256_S1024x256) (ix2 b n)).trans
    (row_update 10 _ (k0_pay12 x1) (k0_pay9 x2) (k0_pay14 x3) (k0_pay11 x4) x0 x1 x2 x3 x4 x5 x6 a b n (minus0 x1 b) (plus1 x2 b) (minus2 x3 b) (plus3 x4 b))
theorem upd11_apply : upd11 x0 x1 x2 x3 x4 x5 x6 a (ix2 b n) = a (ix2 b n) + rowSum x0 x1 x2 x3 x4 x5 x6 b n 11 :=
  (congrFun (shapeCast_self _ shapeCasts_S1024x256_S1024x256) (ix2 b n)).trans
    (row_update 11 _ (k0_pay12 x1) (k0_pay9 x2) (k0_pay14 x3) (k0_pay16 (k0_pay7 x4) k0_pay15) x0 x1 x2 x3 x4 x5 x6 a b n (minus0 x1 b) (plus1 x2 b) (minus2 x3 b) (minus3 x4 b))
theorem upd12_apply : upd12 x0 x1 x2 x3 x4 x5 x6 a (ix2 b n) = a (ix2 b n) + rowSum x0 x1 x2 x3 x4 x5 x6 b n 12 :=
  (congrFun (shapeCast_self _ shapeCasts_S1024x256_S1024x256) (ix2 b n)).trans
    (row_update 12 _ (k0_pay12 x1) (k0_pay13 x2) (k0_pay10 x3) (k0_pay11 x4) x0 x1 x2 x3 x4 x5 x6 a b n (minus0 x1 b) (minus1 x2 b) (plus2 x3 b) (plus3 x4 b))
theorem upd13_apply : upd13 x0 x1 x2 x3 x4 x5 x6 a (ix2 b n) = a (ix2 b n) + rowSum x0 x1 x2 x3 x4 x5 x6 b n 13 :=
  (congrFun (shapeCast_self _ shapeCasts_S1024x256_S1024x256) (ix2 b n)).trans
    (row_update 13 _ (k0_pay12 x1) (k0_pay13 x2) (k0_pay10 x3) (k0_pay16 (k0_pay7 x4) k0_pay15) x0 x1 x2 x3 x4 x5 x6 a b n (minus0 x1 b) (minus1 x2 b) (plus2 x3 b) (minus3 x4 b))
theorem upd14_apply : upd14 x0 x1 x2 x3 x4 x5 x6 a (ix2 b n) = a (ix2 b n) + rowSum x0 x1 x2 x3 x4 x5 x6 b n 14 :=
  (congrFun (shapeCast_self _ shapeCasts_S1024x256_S1024x256) (ix2 b n)).trans
    (row_update 14 _ (k0_pay12 x1) (k0_pay13 x2) (k0_pay14 x3) (k0_pay11 x4) x0 x1 x2 x3 x4 x5 x6 a b n (minus0 x1 b) (minus1 x2 b) (minus2 x3 b) (plus3 x4 b))
theorem upd15_apply : upd15 x0 x1 x2 x3 x4 x5 x6 a (ix2 b n) = a (ix2 b n) + rowSum x0 x1 x2 x3 x4 x5 x6 b n 15 :=
  row_update 15 _ (k0_pay12 x1) (k0_pay13 x2) (k0_pay14 x3) (k0_pay16 (k0_pay7 x4) k0_pay15) x0 x1 x2 x3 x4 x5 x6 a b n (minus0 x1 b) (minus1 x2 b) (minus2 x3 b) (minus3 x4 b)

/-- THE TILE. The sixteen updates, one after the other, add the tile's sum to the accumulator. -/
theorem sixteen_apply :
    sixteen x0 x1 x2 x3 x4 x5 x6 a (ix2 b n) = a (ix2 b n) + tileSum x1 x2 x3 x4 x5 (x0 (ix1 0)) x6 b n := by
  unfold sixteen
  rw [upd15_apply, upd14_apply, upd13_apply, upd12_apply, upd11_apply, upd10_apply, upd9_apply, upd8_apply, upd7_apply,
    upd6_apply, upd5_apply, upd4_apply, upd3_apply, upd2_apply, upd1_apply, upd0_apply]
  exact chain16 (a (ix2 b n)) (rowSum x0 x1 x2 x3 x4 x5 x6 b n)

/-- What the body stores back into the accumulator is the value itself. -/
theorem stored_apply : k0_pay1 a (ix2 b n) = a (ix2 b n) :=
  congrFun (shapeCast_self a shapeCasts_S1024x256_S1024x256) (ix2 b n)

/-- The block the reset stores is zero everywhere. -/
theorem reset_apply : k0_pay3 (F := Ideal) (ix2 b n) = 0 :=
  (congrFun (shapeCast_self (broadcast S1024x256 (Scalar.ofBits .f32 0x00000000#32 : Ideal .f32)) shapeCasts_S1024x256_S1024x256)
    (ix2 b n)).trans Ideal.ofBits_zero_f32

/-- The output block, the accumulator with a leading unit axis, reads the accumulator. -/
theorem out_apply : k0_pay2 a (ix3 0 b n) = a (ix2 b n) :=
  shapeCast_ab_1ab_apply a shapeCasts_S1024x256_S1x1024x256 0 b n

end Rows

/-! ## The four values -/

/-- A level's first tile: the accumulator, reset to zero, ends at the tile's sum. -/
theorem scratch_A (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : cond0_0 i) (hc1 : ¬cond0_1 i)
    (x0 : Vec Ideal S1 .f32) (x1 : Vec Ideal S1x1024x256 .bf16) (x2 : Vec Ideal S1x1024x256 .bf16) (x3 : Vec Ideal S1x1024x256 .bf16) (x4 : Vec Ideal S1x1024x256 .bf16) (x5 : Vec Ideal S16x256x256 .f32) (x6 : Vec Ideal S256x256 .f32) (b : Fin 1024) (n : Fin 256) :
    sout0_A_0 (F := Ideal) c i arg2 harg2 arg3 harg3 arg4 harg4 arg5 harg5 arg6 harg6 arg7 harg7 arg8 harg8 arg9 harg9 arg10 harg10 hc0 hc1 x0 x1 x2 x3 x4 x5 x6 (ix2 b n)
      = tileSum x1 x2 x3 x4 x5 (x0 (ix1 0)) x6 b n := by
  rw [pieces_A, stored_apply, sixteen_apply, reset_apply, zero_add]

/-- A middle tile: the accumulator ends at what it held plus the tile's sum. -/
theorem scratch_B (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : ¬cond0_1 i)
    (x0 : Vec Ideal S1 .f32) (x1 : Vec Ideal S1x1024x256 .bf16) (x2 : Vec Ideal S1x1024x256 .bf16) (x3 : Vec Ideal S1x1024x256 .bf16) (x4 : Vec Ideal S1x1024x256 .bf16) (x5 : Vec Ideal S16x256x256 .f32) (x6 : Vec Ideal S256x256 .f32) (xs0 : Vec Ideal S1024x256 .f32) (b : Fin 1024) (n : Fin 256) :
    sout0_B_0 (F := Ideal) c i arg2 harg2 arg3 harg3 arg4 harg4 arg5 harg5 arg6 harg6 arg7 harg7 arg8 harg8 arg9 harg9 arg10 harg10 hc0 hc1 x0 x1 x2 x3 x4 x5 x6 xs0 (ix2 b n)
      = xs0 (ix2 b n) + tileSum x1 x2 x3 x4 x5 (x0 (ix1 0)) x6 b n := by
  rw [pieces_B, stored_apply, sixteen_apply]

/-- A level's last tile: the accumulator ends at what it held plus the tile's sum, -/
theorem scratch_C (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : cond0_1 i)
    (x0 : Vec Ideal S1 .f32) (x1 : Vec Ideal S1x1024x256 .bf16) (x2 : Vec Ideal S1x1024x256 .bf16) (x3 : Vec Ideal S1x1024x256 .bf16) (x4 : Vec Ideal S1x1024x256 .bf16) (x5 : Vec Ideal S16x256x256 .f32) (x6 : Vec Ideal S256x256 .f32) (xs0 : Vec Ideal S1024x256 .f32) (b : Fin 1024) (n : Fin 256) :
    sout0_C_0 (F := Ideal) c i arg2 harg2 arg3 harg3 arg4 harg4 arg5 harg5 arg6 harg6 arg7 harg7 arg8 harg8 arg9 harg9 arg10 harg10 hc0 hc1 x0 x1 x2 x3 x4 x5 x6 xs0 (ix2 b n)
      = xs0 (ix2 b n) + tileSum x1 x2 x3 x4 x5 (x0 (ix1 0)) x6 b n := by
  rw [pieces_C, stored_apply, sixteen_apply]

/-- and the output block receives that same value. -/
theorem out_C (c : Dev nD) (i : grid0.Coords) (arg2 : Memref sig .tc .vmem S1 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S16x256x256 .f32) (harg7 : arg7.IsWhole) (arg8 : Memref sig .tc .vmem S256x256 .f32) (harg8 : arg8.IsWhole) (arg9 : Memref sig .tc .vmem S1x1024x256 .f32) (harg9 : arg9.IsWhole) (arg10 : Memref sig .tc .vmem S1024x256 .f32) (harg10 : arg10.IsWhole) (hc0 : ¬cond0_0 i) (hc1 : cond0_1 i)
    (x0 : Vec Ideal S1 .f32) (x1 : Vec Ideal S1x1024x256 .bf16) (x2 : Vec Ideal S1x1024x256 .bf16) (x3 : Vec Ideal S1x1024x256 .bf16) (x4 : Vec Ideal S1x1024x256 .bf16) (x5 : Vec Ideal S16x256x256 .f32) (x6 : Vec Ideal S256x256 .f32) (xs0 : Vec Ideal S1024x256 .f32) (b : Fin 1024) (n : Fin 256) :
    out0_C_7 (F := Ideal) c i arg2 harg2 arg3 harg3 arg4 harg4 arg5 harg5 arg6 harg6 arg7 harg7 arg8 harg8 arg9 harg9 arg10 harg10 hc0 hc1 x0 x1 x2 x3 x4 x5 x6 xs0 (ix3 0 b n)
      = xs0 (ix2 b n) + tileSum x1 x2 x3 x4 x5 (x0 (ix1 0)) x6 b n := by
  rw [pieces_out, out_apply, stored_apply, sixteen_apply]

end Cert.KernelIdeal.BodyValue

end
-- ==== Proof.KValue.lean ====
/-
  The idealized kernel's run, read as a value. Grid point t of the 64 is level t / 32 and tile t mod 32. The four
  stream blocks, the weight block, the mask block and the scale at a point are the corresponding pieces of the stream
  arrays (x and its three gathers), of w, of the mask and of γ, so the tile's sum read off the blocks is the sum, over the
  16 truth-table rows and the tile's 256 columns, of the truth-table product times the weight, both read off the
  argument arrays. The scratch accumulator after point t therefore holds the sum of these over the tiles 0 … t mod 32
  of its level (induction on the point: the first tile of a level starts from zero, every other tile adds onto what
  the tile before left). The output block is written at a level's last tile, with the sum over all 32 tiles; the two
  blocks cover the [2, 1024, 256] array; and the lines after the region add the two levels from zero. Regrouping the
  sum over tiles and columns as the sum over the 8192 columns gives the layer's result G.
-/
import proofs.«405175_j67516885893426_2_alg».proof.Proof.Gen.KernelIdeal.Frame
import proofs.«405175_j67516885893426_2_alg».proof.Proof.Spec
import proofs.«405175_j67516885893426_2_alg».proof.Proof.KHost
import proofs.«405175_j67516885893426_2_alg».proof.Proof.KBody
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx BinaryDense

variable (m : (ℓ : Loc nD τ sig) → Buf (Elt Ideal) ℓ) (ρ : Dev nD → PrngReg)

/-! ## The blocks at a grid point -/

/-- The level of a grid point: the first 32 points are level 0, the last 32 level 1. -/
def lvl (t : Fin cfg0.N) : Fin 2 := ⟨t.val / 32, by have := t.isLt; have hN : cfg0.N = 64 := N_0; omega⟩
/-- The tile of a grid point within its level. -/
def tile (t : Fin cfg0.N) : Fin 32 := ⟨t.val % 32, Nat.mod_lt _ (by norm_num)⟩

/-- The scale's block at a point. -/
abbrev blk0 (c : Dev nD) (t : Fin cfg0.N) : Vec Ideal S1 .f32 := iblk m c 0 t
/-- The four stream blocks at a point. -/
abbrev blk1 (c : Dev nD) (t : Fin cfg0.N) : Vec Ideal S1x1024x256 .bf16 := iblk m c 1 t
abbrev blk2 (c : Dev nD) (t : Fin cfg0.N) : Vec Ideal S1x1024x256 .bf16 := iblk m c 2 t
abbrev blk3 (c : Dev nD) (t : Fin cfg0.N) : Vec Ideal S1x1024x256 .bf16 := iblk m c 3 t
abbrev blk4 (c : Dev nD) (t : Fin cfg0.N) : Vec Ideal S1x1024x256 .bf16 := iblk m c 4 t
/-- The weight block at a point. -/
abbrev blk5 (c : Dev nD) (t : Fin cfg0.N) : Vec Ideal S16x256x256 .f32 := iblk m c 5 t
/-- The mask block at a point. -/
abbrev blk6 (c : Dev nD) (t : Fin cfg0.N) : Vec Ideal S256x256 .f32 := iblk m c 6 t

/-- The block indices of the eight windows at point t, decided once over the grid: the scale's block never moves; a
    stream block is (level, 0, tile); the weight block is (level, tile, 0); the mask block is (tile, 0); the output
    block is (level, 0, 0). -/
theorem idx0 : ∀ t : Fin cfg0.N, win0_0.index t (0 : Fin 1) = 0 :=
  (by decide +kernel : ∀ t : Fin grid0.N, _)
theorem idx1 : ∀ t : Fin cfg0.N, win0_1.index t (0 : Fin 3) = t.val / 32 ∧ win0_1.index t (1 : Fin 3) = 0 ∧ win0_1.index t (2 : Fin 3) = t.val % 32 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = t.val % 32 :=
  (by decide +kernel : ∀ t : Fin grid0.N, _)
theorem idx3 : ∀ t : Fin cfg0.N, win0_3.index t (0 : Fin 3) = t.val / 32 ∧ win0_3.index t (1 : Fin 3) = 0 ∧ win0_3.index t (2 : Fin 3) = t.val % 32 :=
  (by decide +kernel : ∀ t : Fin grid0.N, _)
theorem idx4 : ∀ t : Fin cfg0.N, win0_4.index t (0 : Fin 3) = t.val / 32 ∧ win0_4.index t (1 : Fin 3) = 0 ∧ win0_4.index t (2 : Fin 3) = t.val % 32 :=
  (by decide +kernel : ∀ t : Fin grid0.N, _)
theorem idx5 : ∀ t : Fin cfg0.N, win0_5.index t (0 : Fin 3) = t.val / 32 ∧ win0_5.index t (1 : Fin 3) = t.val % 32 ∧ win0_5.index t (2 : Fin 3) = 0 :=
  (by decide +kernel : ∀ t : Fin grid0.N, _)
theorem idx6 : ∀ t : Fin cfg0.N, win0_6.index t (0 : Fin 2) = t.val % 32 ∧ win0_6.index t (1 : Fin 2) = 0 :=
  (by decide +kernel : ∀ t : Fin grid0.N, _)
theorem idx7 : ∀ t : Fin cfg0.N, win0_7.index t (0 : Fin 3) = t.val / 32 ∧ win0_7.index t (1 : Fin 3) = 0 ∧ win0_7.index t (2 : Fin 3) = 0 :=
  (by decide +kernel : ∀ t : Fin grid0.N, _)

/-- The scale's block is γ. -/
theorem blk0_apply (c : Dev nD) (t : Fin cfg0.N) : blk0 m c t (ix1 0) = V m c main_arg2 (ix1 0) := by
  unfold blk0 iblk
  rw [View.read_apply]
  show V m c main_arg2 _ = V m c main_arg2 _
  congr 1
  funext a
  apply Fin.ext
  match a with
  | ⟨0, _⟩ => show win0_0.index t 0 * 1 + 1 * 0 = 0; rw [idx0 t]

/-- A stream block at (0, b, jj) is the stream array at (level, b, 256 · tile + jj). -/
theorem blk1_apply (c : Dev nD) (t : Fin cfg0.N) (b : Fin 1024) (jj : Fin 256) :
    blk1 m c t (ix3 0 b jj) = V m c main_v3 (ix3 (lvl t) b (tileCol (tile t) jj)) := by
  unfold blk1 iblk
  rw [View.read_apply]
  show V m c main_v3 _ = V m c main_v3 _
  congr 1
  funext a
  apply Fin.ext
  match a with
  | ⟨0, _⟩ => show win0_1.index t 0 * 1 + 1 * 0 = t.val / 32; rw [(idx1 t).1]; omega
  | ⟨1, _⟩ => show win0_1.index t 1 * 1024 + 1 * b.val = b.val; rw [(idx1 t).2.1]; omega
  | ⟨2, _⟩ => show win0_1.index t 2 * 256 + 1 * jj.val = 256 * (t.val % 32) + jj.val; rw [(idx1 t).2.2]; omega
theorem blk2_apply (c : Dev nD) (t : Fin cfg0.N) (b : Fin 1024) (jj : Fin 256) :
    blk2 m c t (ix3 0 b jj) = V m c main_v4 (ix3 (lvl t) b (tileCol (tile t) jj)) := by
  unfold blk2 iblk
  rw [View.read_apply]
  show V m c main_v4 _ = V m c main_v4 _
  congr 1
  funext a
  apply Fin.ext
  match a with
  | ⟨0, _⟩ => show win0_2.index t 0 * 1 + 1 * 0 = t.val / 32; rw [(idx2 t).1]; omega
  | ⟨1, _⟩ => show win0_2.index t 1 * 1024 + 1 * b.val = b.val; rw [(idx2 t).2.1]; omega
  | ⟨2, _⟩ => show win0_2.index t 2 * 256 + 1 * jj.val = 256 * (t.val % 32) + jj.val; rw [(idx2 t).2.2]; omega
theorem blk3_apply (c : Dev nD) (t : Fin cfg0.N) (b : Fin 1024) (jj : Fin 256) :
    blk3 m c t (ix3 0 b jj) = V m c main_v5 (ix3 (lvl t) b (tileCol (tile t) jj)) := by
  unfold blk3 iblk
  rw [View.read_apply]
  show V m c main_v5 _ = V m c main_v5 _
  congr 1
  funext a
  apply Fin.ext
  match a with
  | ⟨0, _⟩ => show win0_3.index t 0 * 1 + 1 * 0 = t.val / 32; rw [(idx3 t).1]; omega
  | ⟨1, _⟩ => show win0_3.index t 1 * 1024 + 1 * b.val = b.val; rw [(idx3 t).2.1]; omega
  | ⟨2, _⟩ => show win0_3.index t 2 * 256 + 1 * jj.val = 256 * (t.val % 32) + jj.val; rw [(idx3 t).2.2]; omega
theorem blk4_apply (c : Dev nD) (t : Fin cfg0.N) (b : Fin 1024) (jj : Fin 256) :
    blk4 m c t (ix3 0 b jj) = V m c main_v6 (ix3 (lvl t) b (tileCol (tile t) jj)) := by
  unfold blk4 iblk
  rw [View.read_apply]
  show V m c main_v6 _ = V m c main_v6 _
  congr 1
  funext a
  apply Fin.ext
  match a with
  | ⟨0, _⟩ => show win0_4.index t 0 * 1 + 1 * 0 = t.val / 32; rw [(idx4 t).1]; omega
  | ⟨1, _⟩ => show win0_4.index t 1 * 1024 + 1 * b.val = b.val; rw [(idx4 t).2.1]; omega
  | ⟨2, _⟩ => show win0_4.index t 2 * 256 + 1 * jj.val = 256 * (t.val % 32) + jj.val; rw [(idx4 t).2.2]; omega

/-- The weight block at (cc, jj, n) is w at (16 · level + cc, 256 · tile + jj, n). -/
theorem blk5_apply (c : Dev nD) (t : Fin cfg0.N) (cc : Fin 16) (jj : Fin 256) (n : Fin 256) :
    blk5 m c t (ix3 cc jj n) = V m c main_arg1 (ix3 (wrow (lvl t) cc) (tileCol (tile t) jj) n) := by
  unfold blk5 iblk
  rw [View.read_apply]
  show V m c main_arg1 _ = V m c main_arg1 _
  congr 1
  funext a
  apply Fin.ext
  match a with
  | ⟨0, _⟩ => show win0_5.index t 0 * 16 + 1 * cc.val = 16 * (t.val / 32) + cc.val; rw [(idx5 t).1]; omega
  | ⟨1, _⟩ => show win0_5.index t 1 * 256 + 1 * jj.val = 256 * (t.val % 32) + jj.val; rw [(idx5 t).2.1]; omega
  | ⟨2, _⟩ => show win0_5.index t 2 * 256 + 1 * n.val = n.val; rw [(idx5 t).2.2]; omega

/-- The mask block at (jj, n) is the mask at (256 · tile + jj, n). -/
theorem blk6_apply (c : Dev nD) (t : Fin cfg0.N) (jj : Fin 256) (n : Fin 256) :
    blk6 m c t (ix2 jj n) = V m c main_arg3 (ix2 (tileCol (tile t) jj) n) := by
  unfold blk6 iblk
  rw [View.read_apply]
  show V m c main_arg3 _ = V m c main_arg3 _
  congr 1
  funext a
  apply Fin.ext
  match a with
  | ⟨0, _⟩ => show win0_6.index t 0 * 256 + 1 * jj.val = 256 * (t.val % 32) + jj.val; rw [(idx6 t).1]; omega
  | ⟨1, _⟩ => show win0_6.index t 1 * 256 + 1 * n.val = n.val; rw [(idx6 t).2]; omega

/-! ## A tile's sum, read off the argument arrays -/

/-- What tile k of level l adds to the result at (b, n): the sum over the 16 truth-table rows and the tile's 256 columns
    of the truth-table product times the weight, read off the argument arrays. -/
def tileTerm (c : Dev nD) (l : Fin 2) (k : Fin 32) (b : Fin 1024) (n : Fin 256) : EReal :=
  ∑ cc : Fin 16, ∑ jj : Fin 256,
    term (m ((c.tc : Thread nD τ).loc main_arg0)) (m ((c.tc : Thread nD τ).loc main_arg4)) (m ((c.tc : Thread nD τ).loc main_arg5)) (m ((c.tc : Thread nD τ).loc main_arg6)) l cc b (tileCol k jj)
      * weight (m ((c.tc : Thread nD τ).loc main_arg1)) (m ((c.tc : Thread nD τ).loc main_arg2)) (m ((c.tc : Thread nD τ).loc main_arg3)) l cc (tileCol k jj) n

/-- The tile's sum over the blocks at point t is the tile's sum over the argument arrays, at the point's level and tile. -/
theorem tile_eq (c : Dev nD)
    (hr : InRange (m ((c.tc : Thread nD τ).loc main_arg4)) ∧ InRange (m ((c.tc : Thread nD τ).loc main_arg5)) ∧ InRange (m ((c.tc : Thread nD τ).loc main_arg6)))
    (t : Fin cfg0.N) (b : Fin 1024) (n : Fin 256) :
    tileSum (blk1 m c t) (blk2 m c t) (blk3 m c t) (blk4 m c t) (blk5 m c t) (blk0 m c t (ix1 0)) (blk6 m c t) b n
      = tileTerm m c (lvl t) (tile t) b n := by
  unfold tileSum tileTerm term weight
  refine Finset.sum_congr rfl fun cc _ => Finset.sum_congr rfl fun jj _ => ?_
  rw [blk0_apply, blk1_apply, blk2_apply, blk3_apply, blk4_apply, blk5_apply, blk6_apply,
    HostValue.stream0, HostValue.stream1 m c hr.1, HostValue.stream2 m c hr.2.1, HostValue.stream3 m c hr.2.2,
    V_main_arg1, V_main_arg2, V_main_arg3]

/-! ## The accumulator after each point -/

/-- A tile's sum with the tile a natural number: zero beyond the 32 tiles. -/
def tileTermN (c : Dev nD) (l : Fin 2) (k : ℕ) (b : Fin 1024) (n : Fin 256) : EReal :=
  if h : k < 32 then tileTerm m c l ⟨k, h⟩ b n else 0

/-- The sum of the tile sums of tiles 0 … k of level l. -/
def upTo (c : Dev nD) (l : Fin 2) (k : ℕ) (b : Fin 1024) (n : Fin 256) : EReal :=
  ∑ k' ∈ Finset.range (k + 1), tileTermN m c l k' b n

theorem tileTermN_tile (c : Dev nD) (t : Fin cfg0.N) (b : Fin 1024) (n : Fin 256) :
    tileTermN m c (lvl t) (t.val % 32) b n = tileTerm m c (lvl t) (tile t) b n := by
  unfold tileTermN tile
  rw [dif_pos (Nat.mod_lt _ (by norm_num))]

/-- A level's first tile starts the sum. -/
theorem upTo_zero (c : Dev nD) (l : Fin 2) (b : Fin 1024) (n : Fin 256) : upTo m c l 0 b n = tileTermN m c l 0 b n := by
  unfold upTo
  rw [zero_add, Finset.sum_range_one]

/-- Every other tile adds its sum onto the tiles before. -/
theorem upTo_succ (c : Dev nD) (l : Fin 2) (k : ℕ) (b : Fin 1024) (n : Fin 256) :
    upTo m c l (k + 1) b n = upTo m c l k b n + tileTermN m c l (k + 1) b n := by
  unfold upTo
  rw [Finset.sum_range_succ _ (k + 1)]

/-- THE INVARIANT: after point t the accumulator at (b, n) holds the sum of the tile sums of tiles 0 … t mod 32 of the
    point's level. By induction on the point: a level's first tile resets the accumulator and leaves its own sum, every
    other tile adds its sum onto what the tile before left (the tile before is in the same level). -/
theorem scratch_eq (c : Dev nD) (hr : InRange (m ((c.tc : Thread nD τ).loc main_arg4)) ∧ InRange (m ((c.tc : Thread nD τ).loc main_arg5)) ∧ InRange (m ((c.tc : Thread nD τ).loc main_arg6))) :
    ∀ (t : ℕ) (ht : t < cfg0.N) (b : Fin 1024) (n : Fin 256),
      (outsAt0 m c t ht).2 (ix2 b n) = upTo m c (lvl ⟨t, ht⟩) (t % 32) b n := by
  intro t
  induction t using Nat.strong_induction_on with
  | _ t ih =>
    intro ht b n
    have hN : cfg0.N = 64 := N_0
    by_cases h0 : t % 32 = 0
    · have h1 : ¬ t % 32 = 31 := by omega
      rw [outsAt0_A m c ⟨t, ht⟩ h0 h1]
      dsimp only
      refine (BodyValue.scratch_A c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) (ms0_3 ⟨t, ht⟩) (hs0_3 ⟨t, ht⟩) (ms0_4 ⟨t, ht⟩) (hs0_4 ⟨t, ht⟩) (ms0_5 ⟨t, ht⟩) (hs0_5 ⟨t, ht⟩) (ms0_6 ⟨t, ht⟩) (hs0_6 ⟨t, ht⟩) (ms0_7 ⟨t, ht⟩) (hs0_7 ⟨t, ht⟩) scM0_0 (Memref.isWhole_whole _) ((hcond0_0 ⟨t, ht⟩).mpr h0) (fun h => h1 ((hcond0_1 ⟨t, ht⟩).mp h)) (blk0 m c ⟨t, ht⟩) (blk1 m c ⟨t, ht⟩) (blk2 m c ⟨t, ht⟩) (blk3 m c ⟨t, ht⟩) (blk4 m c ⟨t, ht⟩) (blk5 m c ⟨t, ht⟩) (blk6 m c ⟨t, ht⟩) b n).trans ?_
      rw [tile_eq m c hr, ← tileTermN_tile]
      show tileTermN m c (lvl ⟨t, ht⟩) (t % 32) b n = upTo m c (lvl ⟨t, ht⟩) (t % 32) b n
      rw [h0, upTo_zero]
    · have ht' : t - 1 < cfg0.N := by omega
      have ihp := ih (t - 1) (by omega) ht'
      have hl : lvl ⟨t - 1, ht'⟩ = lvl ⟨t, ht⟩ := by
        unfold lvl; apply Fin.ext; show (t - 1) / 32 = t / 32; omega
      have hk : t % 32 = (t - 1) % 32 + 1 := by omega
      by_cases h1 : t % 32 = 31
      · rw [outsAt0_C m c ⟨t, ht⟩ h0 h1]
        dsimp only
        refine (BodyValue.scratch_C c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) (ms0_3 ⟨t, ht⟩) (hs0_3 ⟨t, ht⟩) (ms0_4 ⟨t, ht⟩) (hs0_4 ⟨t, ht⟩) (ms0_5 ⟨t, ht⟩) (hs0_5 ⟨t, ht⟩) (ms0_6 ⟨t, ht⟩) (hs0_6 ⟨t, ht⟩) (ms0_7 ⟨t, ht⟩) (hs0_7 ⟨t, ht⟩) scM0_0 (Memref.isWhole_whole _) (fun h => h0 ((hcond0_0 ⟨t, ht⟩).mp h)) ((hcond0_1 ⟨t, ht⟩).mpr h1) (blk0 m c ⟨t, ht⟩) (blk1 m c ⟨t, ht⟩) (blk2 m c ⟨t, ht⟩) (blk3 m c ⟨t, ht⟩) (blk4 m c ⟨t, ht⟩) (blk5 m c ⟨t, ht⟩) (blk6 m c ⟨t, ht⟩) (outsAt0 m c (t - 1) ht').2 b n).trans ?_
        rw [ihp b n, hl, tile_eq m c hr, ← tileTermN_tile]
        show upTo m c (lvl ⟨t, ht⟩) ((t - 1) % 32) b n + tileTermN m c (lvl ⟨t, ht⟩) (t % 32) b n = upTo m c (lvl ⟨t, ht⟩) (t % 32) b n
        rw [hk, upTo_succ]
      · rw [outsAt0_B m c ⟨t, ht⟩ h0 h1]
        dsimp only
        refine (BodyValue.scratch_B c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) (ms0_3 ⟨t, ht⟩) (hs0_3 ⟨t, ht⟩) (ms0_4 ⟨t, ht⟩) (hs0_4 ⟨t, ht⟩) (ms0_5 ⟨t, ht⟩) (hs0_5 ⟨t, ht⟩) (ms0_6 ⟨t, ht⟩) (hs0_6 ⟨t, ht⟩) (ms0_7 ⟨t, ht⟩) (hs0_7 ⟨t, ht⟩) scM0_0 (Memref.isWhole_whole _) (fun h => h0 ((hcond0_0 ⟨t, ht⟩).mp h)) (fun h => h1 ((hcond0_1 ⟨t, ht⟩).mp h)) (blk0 m c ⟨t, ht⟩) (blk1 m c ⟨t, ht⟩) (blk2 m c ⟨t, ht⟩) (blk3 m c ⟨t, ht⟩) (blk4 m c ⟨t, ht⟩) (blk5 m c ⟨t, ht⟩) (blk6 m c ⟨t, ht⟩) (outsAt0 m c (t - 1) ht').2 b n).trans ?_
        rw [ihp b n, hl, tile_eq m c hr, ← tileTermN_tile]
        show upTo m c (lvl ⟨t, ht⟩) ((t - 1) % 32) b n + tileTermN m c (lvl ⟨t, ht⟩) (t % 32) b n = upTo m c (lvl ⟨t, ht⟩) (t % 32) b n
        rw [hk, upTo_succ]

/-- At a level's last tile the output block receives the sum over all 32 tiles of the level. -/
theorem out_eq (c : Dev nD) (hr : InRange (m ((c.tc : Thread nD τ).loc main_arg4)) ∧ InRange (m ((c.tc : Thread nD τ).loc main_arg5)) ∧ InRange (m ((c.tc : Thread nD τ).loc main_arg6)))
    (t : ℕ) (ht : t < cfg0.N) (h1 : t % 32 = 31) (b : Fin 1024) (n : Fin 256) :
    (outsAt0 m c t ht).1 (ix3 0 b n) = upTo m c (lvl ⟨t, ht⟩) 31 b n := by
  have hN : cfg0.N = 64 := N_0
  have h0 : ¬ t % 32 = 0 := by omega
  have ht' : t - 1 < cfg0.N := by omega
  have hl : lvl ⟨t - 1, ht'⟩ = lvl ⟨t, ht⟩ := by
    unfold lvl; apply Fin.ext; show (t - 1) / 32 = t / 32; omega
  have hk : (t - 1) % 32 = 30 := by omega
  rw [outsAt0_C m c ⟨t, ht⟩ h0 h1]
  dsimp only
  refine (BodyValue.out_C c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) (ms0_3 ⟨t, ht⟩) (hs0_3 ⟨t, ht⟩) (ms0_4 ⟨t, ht⟩) (hs0_4 ⟨t, ht⟩) (ms0_5 ⟨t, ht⟩) (hs0_5 ⟨t, ht⟩) (ms0_6 ⟨t, ht⟩) (hs0_6 ⟨t, ht⟩) (ms0_7 ⟨t, ht⟩) (hs0_7 ⟨t, ht⟩) scM0_0 (Memref.isWhole_whole _) (fun h => h0 ((hcond0_0 ⟨t, ht⟩).mp h)) ((hcond0_1 ⟨t, ht⟩).mpr h1) (blk0 m c ⟨t, ht⟩) (blk1 m c ⟨t, ht⟩) (blk2 m c ⟨t, ht⟩) (blk3 m c ⟨t, ht⟩) (blk4 m c ⟨t, ht⟩) (blk5 m c ⟨t, ht⟩) (blk6 m c ⟨t, ht⟩) (outsAt0 m c (t - 1) ht').2 b n).trans ?_
  rw [scratch_eq m c hr (t - 1) ht' b n, hl, tile_eq m c hr, ← tileTermN_tile]
  show upTo m c (lvl ⟨t, ht⟩) ((t - 1) % 32) b n + tileTermN m c (lvl ⟨t, ht⟩) (t % 32) b n = upTo m c (lvl ⟨t, ht⟩) 31 b n
  rw [hk, h1]
  exact (upTo_succ m c _ 30 b n).symm

/-! ## The output array -/

/-- What the output array ends holding: entry (l, b, n) is the sum of the tile sums over all 32 tiles of level l. -/
def outFn (c : Dev nD) : S2x1024x256.Idx → EReal := fun i => upTo m c (i 0) 31 (i 1) (i 2)

abbrev outArr (c : Dev nD) : Buf (Elt Ideal) ((c.tc : Thread nD τ).loc main_v7) := outFn m c

/-- What a level's last tile writes back is the level's block of that array: the output block (0, b, n) of point t sits
    at (level, b, n). -/
theorem flushed_eq (c : Dev nD) (hr : InRange (m ((c.tc : Thread nD τ).loc main_arg4)) ∧ InRange (m ((c.tc : Thread nD τ).loc main_arg5)) ∧ InRange (m ((c.tc : Thread nD τ).loc main_arg6)))
    (t : Fin cfg0.N) (hf : (cfg0.win 7).flush t = true) :
    (dats m 0 c).flushed 7 t = ((cfg0.win 7).blk t).view.read (Elt Ideal) (outArr m c) := by
  have h31 : t.val % 32 = 31 := (flush0_7 t).mp hf
  show (cfg0.win 7).cut (grid0.coords t) ((dats m 0 c).after 7 t) = _
  rw [after0_7]
  funext j
  have hj0 : (j 0).val < 1 := (j 0).isLt
  have hj1 : (j 1).val < 1024 := (j 1).isLt
  have hj2 : (j 2).val < 256 := (j 2).isLt
  have eL : win0_7.xinj (grid0.coords t) j = ix3 (0 : Fin 1) (⟨(j 1).val, hj1⟩ : Fin 1024) (⟨(j 2).val, hj2⟩ : Fin 256) := by
    funext a
    apply Fin.ext
    match a with
    | ⟨0, _⟩ => show (j 0).val = 0; omega
    | ⟨1, _⟩ => rfl
    | ⟨2, _⟩ => rfl
  have eR : ((cfg0.win 7).blk t).view.emb j = ix3 (lvl t) (⟨(j 1).val, hj1⟩ : Fin 1024) (⟨(j 2).val, hj2⟩ : Fin 256) := by
    funext a
    apply Fin.ext
    match a with
    | ⟨0, _⟩ => show win0_7.index t 0 * 1 + 1 * (j 0).val = t.val / 32; rw [(idx7 t).1]; omega
    | ⟨1, _⟩ => show win0_7.index t 1 * 1024 + 1 * (j 1).val = (j 1).val; rw [(idx7 t).2.1]; omega
    | ⟨2, _⟩ => show win0_7.index t 2 * 256 + 1 * (j 2).val = (j 2).val; rw [(idx7 t).2.2]; omega
  rw [View.read_apply]
  show (outsAt0 m c t.val t.isLt).1 (win0_7.xinj (grid0.coords t) j) = outFn m c (((cfg0.win 7).blk t).view.emb j)
  rw [eL, eR, out_eq m c hr t.val t.isLt h31]
  rfl

/-- Row l of the output array lies in the block that point 32 · l + 31 writes back. -/
theorem cover_o (i : S2x1024x256.Idx) :
    ∃ t : Fin cfg0.N, (cfg0.win 7).flush t = true ∧ i ∈ ((cfg0.win 7).blk t).view.set := by
  have hN : cfg0.N = 64 := N_0
  have hi0 : (i 0).val < 2 := (i 0).isLt
  have hi1 : (i 1).val < 1024 := (i 1).isLt
  have hi2 : (i 2).val < 256 := (i 2).isLt
  have htt : 32 * (i 0).val + 31 < cfg0.N := by omega
  obtain ⟨tt, hv⟩ : ∃ tt : Fin cfg0.N, tt.val = 32 * (i 0).val + 31 := ⟨⟨32 * (i 0).val + 31, htt⟩, rfl⟩
  refine ⟨tt, (flush0_7 tt).mpr (by rw [hv]; omega), ?_⟩
  show i ∈ ((View.whole main_v7).slice (win0_7.rect tt)).set
  rw [View.set_slice_whole, Rect.mem_set_unit]
  intro a
  match a with
  | ⟨0, _⟩ =>
    show win0_7.index tt 0 * 1 ≤ (i 0).val ∧ (i 0).val < win0_7.index tt 0 * 1 + 1
    rw [(idx7 tt).1, hv]; omega
  | ⟨1, _⟩ =>
    show win0_7.index tt 1 * 1024 ≤ (i 1).val ∧ (i 1).val < win0_7.index tt 1 * 1024 + 1024
    rw [(idx7 tt).2.1]; omega
  | ⟨2, _⟩ =>
    show win0_7.index tt 2 * 256 ≤ (i 2).val ∧ (i 2).val < win0_7.index tt 2 * 256 + 256
    rw [(idx7 tt).2.2]; omega

/-- So the output array ends holding it. -/
theorem final_o (c : Dev nD) (hr : InRange (m ((c.tc : Thread nD τ).loc main_arg4)) ∧ InRange (m ((c.tc : Thread nD τ).loc main_arg5)) ∧ InRange (m ((c.tc : Thread nD τ).loc main_arg6))) :
    (dats m 0 c).arrAt 7 cfg0.N = outArr m c :=
  (dats m 0 c).arrAt_eq_of_cover 7 (outArr m c) (flushed_eq m c hr) cover_o

/-! ## The lines after the region, and the run -/

/-- The sum over all 32 tiles of a level is the level's sum over the 16 rows and the 8192 columns: the columns are the
    32 tiles of 256, and the sums over rows and tiles change places. -/
theorem upTo_all (c : Dev nD) (l : Fin 2) (b : Fin 1024) (n : Fin 256) :
    upTo m c l 31 b n = ∑ cc : Fin 16, ∑ j : Fin 8192, term (m ((c.tc : Thread nD τ).loc main_arg0)) (m ((c.tc : Thread nD τ).loc main_arg4)) (m ((c.tc : Thread nD τ).loc main_arg5)) (m ((c.tc : Thread nD τ).loc main_arg6)) l cc b j * weight (m ((c.tc : Thread nD τ).loc main_arg1)) (m ((c.tc : Thread nD τ).loc main_arg2)) (m ((c.tc : Thread nD τ).loc main_arg3)) l cc j n := by
  show ∑ k' ∈ Finset.range 32, tileTermN m c l k' b n = _
  rw [Finset.sum_range]
  have e : ∀ k : Fin 32, tileTermN m c l k.val b n = tileTerm m c l k b n := fun k => by
    unfold tileTermN; rw [dif_pos k.isLt]
  rw [Finset.sum_congr rfl fun k _ => e k]
  unfold tileTerm
  rw [Finset.sum_comm]
  refine Finset.sum_congr rfl fun cc _ => ?_
  exact (sum_tiles fun j => term (m ((c.tc : Thread nD τ).loc main_arg0)) (m ((c.tc : Thread nD τ).loc main_arg4)) (m ((c.tc : Thread nD τ).loc main_arg5)) (m ((c.tc : Thread nD τ).loc main_arg6)) l cc b j * weight (m ((c.tc : Thread nD τ).loc main_arg1)) (m ((c.tc : Thread nD τ).loc main_arg2)) (m ((c.tc : Thread nD τ).loc main_arg3)) l cc j n).symm

/-- The lines after the region add the two levels of the output array from zero: the layer's result. -/
theorem tail_eq (c : Dev nD) (hr : InRange (m ((c.tc : Thread nD τ).loc main_arg4)) ∧ InRange (m ((c.tc : Thread nD τ).loc main_arg5)) ∧ InRange (m ((c.tc : Thread nD τ).loc main_arg6))) :
    Pipeline.afterTail₀ cfgs (dats m) 0 (V0 m) [hostOps1] c main_v8 = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e7 : Pipeline.withArrays (cfgs 0).spec c (V0 m c) (fun w => (dats m 0 c).arrAt w (cfgs 0).N) (Proc.devRef .tc main_v7) = outArr m c :=
    (Pipeline.withArrays_arr spec0 launch0.win.arr_inj c _ _ 7).trans (final_o m c hr)
  unfold Pipeline.afterTail₀
  show StableHlo.after hostOps1 _ (Proc.devRef .tc main_v8) = _
  after_results
  rw [e7]
  funext i
  obtain ⟨b, n, rfl⟩ : ∃ (b : Fin 1024) (n : Fin 256), i = ix2 b n := ⟨i 0, i 1, eq_ix2 (n0 := 1024) (n1 := 256) i⟩
  show Ideal.hostReduceAdd reducesTo_S2x1024x256_S1024x256_d0 (outFn m c) (Ideal.ofBits .f32 0x00000000#32) (ix2 b n) = _
  rw [Ideal.hostReduceAdd_single reducesTo_S2x1024x256_S1024x256_d0 (by decide : S2x1024x256.Reduces [0] S1024x256),
    Ideal.ofBits_zero_f32, zero_add]
  show ∑ l : Fin 2, upTo m c l 31 b n = _
  unfold G
  exact Finset.sum_congr rfl fun l _ => upTo_all m c l b n

/-- Where every id of the three index maps is a valid index, every weakly fair execution of the idealized kernel's
    @main terminates with its result at the layer's result G of the argument arrays, and the arguments unchanged. -/
theorem run (hr : ∀ c : Dev nD, InRange (m ((c.tc : Thread nD τ).loc main_arg4)) ∧ InRange (m ((c.tc : Thread nD τ).loc main_arg5)) ∧ InRange (m ((c.tc : Thread nD τ).loc main_arg6))) :
    θ_run defs (onTc (τ := τ) (main (F := Ideal))) ⟨m, fun _ => 0, ρ⟩ fun r => ∀ c : Dev nD,
      r.2.mem ((c.tc : Thread nD τ).loc main_v8)
          = G (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v8 (Pipeline.mem_restRefs_of main_v8 (by decide) (by decide))).trans (tail_eq m c (hr c)),
      (((h c).2 main_arg0 (Pipeline.mem_restRefs_of main_arg0 (by decide) (by decide))).trans (W_main_arg0 m (dats m) c)),
      ((h c).1 5).trans (((dats m 0 c).arrAt_in 5 rfl _).trans ((A_eq m c 5).trans (V_main_arg1 m c))),
      ((h c).1 0).trans (((dats m 0 c).arrAt_in 0 rfl _).trans ((A_eq m c 0).trans (V_main_arg2 m c))),
      ((h c).1 6).trans (((dats m 0 c).arrAt_in 6 rfl _).trans ((A_eq m c 6).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.KValue

end
-- ==== Proof.RStages.lean ====
/-
  The reference's early stages read at an index over the extended reals.

  The weights: binarize(w) = c + (sign c − c) with c = clip(w, −1, 1) is sign(w) (c is a real number in [−1, 1], so
  the subtraction and addition cancel exactly), and the reference's |γ| · binarize(w) · mask is the weight
  sign(w) · |γ| · mask by commutativity.
  The stream parts: the four streams of a level are the level's slice of x and its three gathers along the last
  axis, whose entry (b, j) is x at (l, b, col j) (the gather clamps the wrapped id as `col` does). On a real number s
  the reference's (1 + binarize s) · ½ · |s| is max s 0 and (1 − binarize s) · ½ · |s| is max (0 − s) 0.
-/
import proofs.«405175_j67516885893426_2_alg».proof.Proof.RefRead
import proofs.«405175_j67516885893426_2_alg».proof.Proof.Spec
import proofs.«405175_j67516885893426_2_alg».proof.Proof.LibGatherLast
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

/-! ## The three float constants and the pointwise laws -/

/-- The word 0x3F800000 is the number 1. -/
theorem one_word : Ideal.ofBits .f32 0x3F800000#32 = (1 : EReal) := IdealRules.sign_bit.ideal_onePat .f32

/-- The word 0xBF800000 is the number −1. -/
theorem negOne_word : Ideal.ofBits .f32 0xBF800000#32 = (-1 : EReal) := IdealRules.sign_bit.ideal_negOnePat .f32

/-- The word 0x3F000000 is the number ½. -/
theorem half_word : Ideal.ofBits .f32 0x3F000000#32 = ((1 / 2 : ℝ) : EReal) := by
  simp [Ideal.ofBits, Ideal.ieee, -EReal.coe_mul]
  norm_num

/-- The embedding of the reals into the extended reals keeps maxima. -/
theorem coe_max_real (a b : ℝ) : ((max a b : ℝ) : EReal) = max (a : EReal) (b : EReal) :=
  EReal.coe_strictMono.monotone.map_max

/-- The embedding of the reals into the extended reals keeps minima. -/
theorem coe_min_real (a b : ℝ) : ((min a b : ℝ) : EReal) = min (a : EReal) (b : EReal) :=
  EReal.coe_strictMono.monotone.map_min

/-- Clipping a real number to [−1, 1] keeps its sign. -/
theorem sign_clip_real (r : ℝ) : SignType.sign (min 1 (max (-1) r)) = SignType.sign r := by
  rcases lt_trichotomy r 0 with h | h | h
  · have h1 : max (-1) r < 0 := max_lt (by norm_num) h
    have h2 : min 1 (max (-1) r) < 0 := lt_of_le_of_lt (min_le_right _ _) h1
    rw [sign_neg h2, sign_neg h]
  · subst h
    have h1 : max (-1 : ℝ) 0 = 0 := max_eq_right (by norm_num)
    rw [h1, min_eq_right (by norm_num : (0 : ℝ) ≤ 1)]
  · have h1 : 0 < max (-1) r := lt_max_of_lt_right h
    have h2 : 0 < min 1 (max (-1) r) := lt_min one_pos h1
    rw [sign_pos h2, sign_pos h]

/-- A real number plus (its sign minus itself) is its sign. -/
theorem add_sign_sub_real (c : ℝ) : (c : EReal) + (Ideal.sign c - c) = Ideal.sign c := by
  rw [Ideal.sign_coe, ← EReal.coe_sub, ← EReal.coe_add]
  congr 1
  ring

/-- The straight-through binarization: with c the clip of w to [−1, 1], c + (sign c − c) is the sign of w, for every
    extended real w (the clip of ±∞ is ±1, a real number, so the subtraction cancels exactly). -/
theorem binarize_eq (w : EReal) :
    min 1 (max (-1) w) + (Ideal.sign (min 1 (max (-1) w)) - min 1 (max (-1) w)) = Ideal.sign w := by
  induction w using EReal.rec with
  | bot =>
    have e : min (1 : EReal) (max (-1) ⊥) = ((-1 : ℝ) : EReal) := by
      rw [max_bot_right]
      exact min_eq_right (EReal.coe_le_coe_iff.mpr (by norm_num : (-1 : ℝ) ≤ 1))
    rw [e, add_sign_sub_real, Ideal.sign_coe, Ideal.sign_bot]
    norm_num
  | top =>
    have e : min (1 : EReal) (max (-1) ⊤) = ((1 : ℝ) : EReal) := by
      rw [max_top_right]
      exact min_top_right _
    rw [e, add_sign_sub_real, Ideal.sign_coe, Ideal.sign_top]
    norm_num
  | coe r =>
    have e : min (1 : EReal) (max (-1) (r : EReal)) = ((min 1 (max (-1) r) : ℝ) : EReal) := by
      rw [coe_min_real, coe_max_real]
      rfl
    rw [e, add_sign_sub_real, Ideal.sign_coe, Ideal.sign_coe, sign_clip_real]

/-- On a real number s, (1 + sign s) · ½ · |s| is the positive part max s 0. -/
theorem plus_real (s : ℝ) : (1 + Ideal.sign (s : EReal)) * ((1 / 2 : ℝ) : EReal) * max (s : EReal) (-(s : EReal))
    = plusPart (s : EReal) := by
  unfold plusPart
  rw [Ideal.sign_coe, ← EReal.coe_neg, ← coe_max_real, ← EReal.coe_one, ← EReal.coe_zero, ← EReal.coe_add,
    ← EReal.coe_mul, ← EReal.coe_mul, ← coe_max_real]
  congr 1
  rcases lt_trichotomy s 0 with h | h | h
  · rw [sign_neg h, SignType.coe_neg_one, max_eq_right h.le]; ring
  · subst h; simp
  · rw [sign_pos h, SignType.coe_one, max_eq_left (by linarith : -s ≤ s), max_eq_left h.le]; ring

/-- On a real number s, (1 − sign s) · ½ · |s| is the negative part max (0 − s) 0. -/
theorem minus_real (s : ℝ) : (1 - Ideal.sign (s : EReal)) * ((1 / 2 : ℝ) : EReal) * max (s : EReal) (-(s : EReal))
    = minusPart (s : EReal) := by
  unfold minusPart
  rw [Ideal.sign_coe, ← EReal.coe_neg, ← coe_max_real, ← EReal.coe_one, ← EReal.coe_zero, ← EReal.coe_sub,
    ← EReal.coe_mul, ← EReal.coe_mul, ← EReal.coe_sub, ← coe_max_real]
  congr 1
  rcases lt_trichotomy s 0 with h | h | h
  · rw [sign_neg h, SignType.coe_neg_one, max_eq_right (by linarith : s ≤ -s),
      max_eq_left (by linarith : (0 : ℝ) ≤ 0 - s)]
    ring
  · subst h; simp
  · rw [sign_pos h, SignType.coe_one, max_eq_right (by linarith : 0 - s ≤ 0)]; ring

/-- The positive part as the reference computes it: (1 + binarize s) · ½ · |s| with the three constants as their 32-bit
    float words, on a real number s. -/
theorem plus_law (s : EReal) (hs : ∃ v : ℝ, s = (v : EReal)) :
    (Ideal.ofBits .f32 0x3F800000#32
        + (min (Ideal.ofBits .f32 0x3F800000#32) (max (Ideal.ofBits .f32 0xBF800000#32) s)
          + (Ideal.sign (min (Ideal.ofBits .f32 0x3F800000#32) (max (Ideal.ofBits .f32 0xBF800000#32) s))
            - min (Ideal.ofBits .f32 0x3F800000#32) (max (Ideal.ofBits .f32 0xBF800000#32) s))))
      * Ideal.ofBits .f32 0x3F000000#32 * max s (-s) = plusPart s := by
  obtain ⟨v, rfl⟩ := hs
  rw [one_word, negOne_word, half_word, binarize_eq]
  exact plus_real v

/-- The negative part as the reference computes it: (1 − binarize s) · ½ · |s|, on a real number s. -/
theorem minus_law (s : EReal) (hs : ∃ v : ℝ, s = (v : EReal)) :
    (Ideal.ofBits .f32 0x3F800000#32
        - (min (Ideal.ofBits .f32 0x3F800000#32) (max (Ideal.ofBits .f32 0xBF800000#32) s)
          + (Ideal.sign (min (Ideal.ofBits .f32 0x3F800000#32) (max (Ideal.ofBits .f32 0xBF800000#32) s))
            - min (Ideal.ofBits .f32 0x3F800000#32) (max (Ideal.ofBits .f32 0xBF800000#32) s))))
      * Ideal.ofBits .f32 0x3F000000#32 * max s (-s) = minusPart s := by
  obtain ⟨v, rfl⟩ := hs
  rw [one_word, negOne_word, half_word, binarize_eq]
  exact minus_real v

/-- The reference's wrap of an id (add 8192 where the id is below zero, as a select on the signed comparison) is
    `wrapId`. -/
theorem select_wrap (v : BitVec 32) :
    Scalar.select (IntOp.cmpi .slt v 0#32) (IntOp.addi v 8192#32) v = wrapId v := by
  unfold wrapId Scalar.select IntOp.cmpi IntOp.addi
  cases h : v.slt 0#32 <;> simp

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

/-! ## The weights -/

/-- The scalar |γ|: γ's one entry viewed as a rank-0 array, then the absolute value. -/
theorem gamma_abs (k : S_.Idx) : val_main_v1 (F := Ideal) x2 k = absE (x2 (ix1 0)) := by
  rw [val_main_v1_apply]
  have e : val_main_v0 (F := Ideal) x2 k = x2 (ix1 0) := by
    unfold val_main_v0
    exact shapeCast_apply x2 shapeCasts_S1_S_ k (ix1 0) (by
      have h0 : (S_.rowMajor k).val = 0 := Shape.rowMajorPi_zero _ k
      rw [h0, Shape.rowMajor_val_one]
      rfl)
  rw [e]
  rfl

/-- The weights array at (q, j, n): sign(w) · |γ| · mask. -/
theorem weights_apply (q : Fin 32) (j : Fin 8192) (n : Fin 256) :
    val_main_v10 (F := Ideal) x1 x2 x3 (ix3 q j n) = sgn (x1 (ix3 q j n)) * absE (x2 (ix1 0)) * x3 (ix2 j n) := by
  have ei : idx_main_v8 (idx_main_v9 (ix3 q j n)) = ix2 j n := by
    funext a
    match a with
    | ⟨0, _⟩ => rfl
    | ⟨1, _⟩ => rfl
  rw [val_main_v10_apply, val_main_v7_apply, val_main_v9_apply, val_main_v8_apply, ei, val_main_v6_apply, gamma_abs,
    val_main_v5_apply, val_main_v4_apply, val_main_v3_apply, val_main_v2_apply, val_main_call0_v4_apply,
    val_main_call0_v3_apply, val_main_cst_0_apply, val_main_call0_v2_apply, val_main_call0_v1_apply,
    val_main_call0_v0_apply, val_main_cst_apply]
  simp only [Ideal.mulf_def, Ideal.addf_def, Ideal.subf_def, Ideal.minimumf_def, Ideal.maximumf_def,
    Ideal.hostUnary_sign_def, Ideal.ofBits_def]
  rw [one_word, negOne_word, binarize_eq, mul_comm (absE _) (Ideal.sign _)]
  rfl

/-! ## The streams -/

/-- Level 0's slice of x viewed as [1024, 8192]: entry (b, j) is x at (0, b, j). -/
theorem stream0_l0 (b : Fin 1024) (j : Fin 8192) : val_main_v13 (F := Ideal) x0 (ix2 b j) = x0 (ix3 0 b j) := by
  rw [val_main_v13_apply, val_main_v12_apply]
  congr 1
  funext a
  have hb := b.isLt
  have hj := j.isLt
  match a with
  | ⟨0, _⟩ => rfl
  | ⟨1, _⟩ => exact Fin.ext (by show (b.val * 8192 + j.val) / 8192 % 1024 = b.val; omega)
  | ⟨2, _⟩ => exact Fin.ext (by show (b.val * 8192 + j.val) % 8192 = j.val; omega)

/-- Level 1's slice of x viewed as [1024, 8192]: entry (b, j) is x at (1, b, j). -/
theorem stream0_l1 (b : Fin 1024) (j : Fin 8192) : val_main_v228 (F := Ideal) x0 (ix2 b j) = x0 (ix3 1 b j) := by
  rw [val_main_v228_apply, val_main_v227_apply]
  congr 1
  funext a
  have hb := b.isLt
  have hj := j.isLt
  match a with
  | ⟨0, _⟩ => rfl
  | ⟨1, _⟩ => exact Fin.ext (by show (b.val * 8192 + j.val) / 8192 % 1024 = b.val; omega)
  | ⟨2, _⟩ => exact Fin.ext (by show (b.val * 8192 + j.val) % 8192 = j.val; omega)

/-- The gathers' start ids: the [8192, 1] column of the wrapped ids. -/
theorem ids_apply (r : (⟨S8192, .i32⟩ : BufTy).Contents (Elt Ideal)) (j : Fin 8192) :
    val_main_v19 (F := Ideal) r (ix2 j (0 : Fin 1)) = wrapId (r (ix1 j)) := by
  have ei : idx_main_v19 (ix2 j (0 : Fin 1)) = ix1 j := by
    funext a
    match a with
    | ⟨0, _⟩ => rfl
  rw [val_main_v19_apply, ei, val_main_v18_apply, val_main_v15_apply, val_main_v17_apply, val_main_v14_apply,
    val_main_v16_apply, val_main_c_apply, val_main_c_2_apply]
  exact select_wrap _

/-- A gather along the last axis at the wrapped ids: entry (b, j) is the operand at (b, col j). -/
theorem gather_apply (y : (⟨S1024x8192, .f32⟩ : BufTy).Contents (Elt Ideal))
    (r : (⟨S8192, .i32⟩ : BufTy).Contents (Elt Ideal)) (b : Fin 1024) (j : Fin 8192) :
    Host.gather gather_S1024x8192_S8192x1_S1024x8192_0_1_n_n_1_1_10241 y (val_main_v19 (F := Ideal) r) (ix2 b j)
      = y (ix2 b (col r j)) := by
  rw [IndexOpsLib.gather_last2 (by norm_num : 0 < 8192) gather_S1024x8192_S8192x1_S1024x8192_0_1_n_n_1_1_10241
    rfl rfl rfl rfl rfl y (val_main_v19 (F := Ideal) r) b j, ids_apply]
  rfl

/-- Level 0, the stream gathered through the first index map: entry (b, j) is x at (0, b, col j). -/
theorem stream1_l0 (b : Fin 1024) (j : Fin 8192) :
    val_main_v20 (F := Ideal) x0 x4 (ix2 b j) = x0 (ix3 0 b (col x4 j)) := by
  show Host.gather gather_S1024x8192_S8192x1_S1024x8192_0_1_n_n_1_1_10241 (val_main_v13 (F := Ideal) x0)
    (val_main_v19 (F := Ideal) x4) (ix2 b j) = _
  rw [gather_apply, stream0_l0]

/-- Level 0, the stream gathered through the second index map (its id column is the same function of the map). -/
theorem stream2_l0 (b : Fin 1024) (j : Fin 8192) :
    val_main_v27 (F := Ideal) x0 x5 (ix2 b j) = x0 (ix3 0 b (col x5 j)) := by
  show Host.gather gather_S1024x8192_S8192x1_S1024x8192_0_1_n_n_1_1_10241 (val_main_v13 (F := Ideal) x0)
    (val_main_v19 (F := Ideal) x5) (ix2 b j) = _
  rw [gather_apply, stream0_l0]

/-- Level 0, the stream gathered through the third index map. -/
theorem stream3_l0 (b : Fin 1024) (j : Fin 8192) :
    val_main_v34 (F := Ideal) x0 x6 (ix2 b j) = x0 (ix3 0 b (col x6 j)) := by
  show Host.gather gather_S1024x8192_S8192x1_S1024x8192_0_1_n_n_1_1_10241 (val_main_v13 (F := Ideal) x0)
    (val_main_v19 (F := Ideal) x6) (ix2 b j) = _
  rw [gather_apply, stream0_l0]

/-- Level 1, the stream gathered through the first index map: entry (b, j) is x at (1, b, col j). -/
theorem stream1_l1 (b : Fin 1024) (j : Fin 8192) :
    val_main_v235 (F := Ideal) x0 x4 (ix2 b j) = x0 (ix3 1 b (col x4 j)) := by
  show Host.gather gather_S1024x8192_S8192x1_S1024x8192_0_1_n_n_1_1_10241 (val_main_v228 (F := Ideal) x0)
    (val_main_v19 (F := Ideal) x4) (ix2 b j) = _
  rw [gather_apply, stream0_l1]

/-- Level 1, the stream gathered through the second index map. -/
theorem stream2_l1 (b : Fin 1024) (j : Fin 8192) :
    val_main_v242 (F := Ideal) x0 x5 (ix2 b j) = x0 (ix3 1 b (col x5 j)) := by
  show Host.gather gather_S1024x8192_S8192x1_S1024x8192_0_1_n_n_1_1_10241 (val_main_v228 (F := Ideal) x0)
    (val_main_v19 (F := Ideal) x5) (ix2 b j) = _
  rw [gather_apply, stream0_l1]

/-- Level 1, the stream gathered through the third index map. -/
theorem stream3_l1 (b : Fin 1024) (j : Fin 8192) :
    val_main_v249 (F := Ideal) x0 x6 (ix2 b j) = x0 (ix3 1 b (col x6 j)) := by
  show Host.gather gather_S1024x8192_S8192x1_S1024x8192_0_1_n_n_1_1_10241 (val_main_v228 (F := Ideal) x0)
    (val_main_v19 (F := Ideal) x6) (ix2 b j) = _
  rw [gather_apply, stream0_l1]

/-! ## The sixteen parts

Each part is the same pointwise function of its stream: the clip to [−1, 1], its sign, the subtraction and the
addition (the binarization), 1 plus or minus that, times ½, times the stream's absolute value. Read at (b, j), with the
stream's entry a real number, it is the positive or the negative part of that entry by the two laws above. -/

/-- Level 0, stream 0: the positive part. -/
theorem pos0_l0 (hfin : FiniteArr x0) (b : Fin 1024) (j : Fin 8192) :
    val_main_v44 (F := Ideal) x0 (ix2 b j) = plusPart (x0 (ix3 0 b j)) := by
  rw [val_main_v44_apply, val_main_v42_apply, val_main_v43_apply, val_main_v40_apply, val_main_v41_apply,
    val_main_cst_10_apply, val_main_v39_apply, val_main_cst_9_apply, val_main_v38_apply, val_main_v37_apply,
    val_main_v36_apply, val_main_v35_apply, val_main_call1_v4_apply, val_main_call1_v3_apply, val_main_cst_8_apply,
    val_main_call1_v2_apply, val_main_call1_v1_apply, val_main_call1_v0_apply, val_main_cst_7_apply, stream0_l0]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 0, stream 1: the positive part. -/
theorem pos1_l0 (hfin : FiniteArr x0) (b : Fin 1024) (j : Fin 8192) :
    val_main_v54 (F := Ideal) x0 x4 (ix2 b j) = plusPart (x0 (ix3 0 b (col x4 j))) := by
  rw [val_main_v54_apply, val_main_v52_apply, val_main_v53_apply, val_main_v50_apply, val_main_v51_apply,
    val_main_cst_14_apply, val_main_v49_apply, val_main_cst_13_apply, val_main_v48_apply, val_main_v47_apply,
    val_main_v46_apply, val_main_v45_apply, val_main_call2_v4_apply, val_main_call2_v3_apply, val_main_cst_12_apply,
    val_main_call2_v2_apply, val_main_call2_v1_apply, val_main_call2_v0_apply, val_main_cst_11_apply, stream1_l0]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 0, stream 2: the positive part. -/
theorem pos2_l0 (hfin : FiniteArr x0) (b : Fin 1024) (j : Fin 8192) :
    val_main_v64 (F := Ideal) x0 x5 (ix2 b j) = plusPart (x0 (ix3 0 b (col x5 j))) := by
  rw [val_main_v64_apply, val_main_v62_apply, val_main_v63_apply, val_main_v60_apply, val_main_v61_apply,
    val_main_cst_18_apply, val_main_v59_apply, val_main_cst_17_apply, val_main_v58_apply, val_main_v57_apply,
    val_main_v56_apply, val_main_v55_apply, val_main_call3_v4_apply, val_main_call3_v3_apply, val_main_cst_16_apply,
    val_main_call3_v2_apply, val_main_call3_v1_apply, val_main_call3_v0_apply, val_main_cst_15_apply, stream2_l0]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 0, stream 3: the positive part. -/
theorem pos3_l0 (hfin : FiniteArr x0) (b : Fin 1024) (j : Fin 8192) :
    val_main_v74 (F := Ideal) x0 x6 (ix2 b j) = plusPart (x0 (ix3 0 b (col x6 j))) := by
  rw [val_main_v74_apply, val_main_v72_apply, val_main_v73_apply, val_main_v70_apply, val_main_v71_apply,
    val_main_cst_22_apply, val_main_v69_apply, val_main_cst_21_apply, val_main_v68_apply, val_main_v67_apply,
    val_main_v66_apply, val_main_v65_apply, val_main_call4_v4_apply, val_main_call4_v3_apply, val_main_cst_20_apply,
    val_main_call4_v2_apply, val_main_call4_v1_apply, val_main_call4_v0_apply, val_main_cst_19_apply, stream3_l0]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 0, stream 0: the negative part. -/
theorem neg0_l0 (hfin : FiniteArr x0) (b : Fin 1024) (j : Fin 8192) :
    val_main_v84 (F := Ideal) x0 (ix2 b j) = minusPart (x0 (ix3 0 b j)) := by
  rw [val_main_v84_apply, val_main_v82_apply, val_main_v83_apply, val_main_v80_apply, val_main_v81_apply,
    val_main_cst_26_apply, val_main_v79_apply, val_main_cst_25_apply, val_main_v78_apply, val_main_v77_apply,
    val_main_v76_apply, val_main_v75_apply, val_main_call5_v4_apply, val_main_call5_v3_apply, val_main_cst_24_apply,
    val_main_call5_v2_apply, val_main_call5_v1_apply, val_main_call5_v0_apply, val_main_cst_23_apply, stream0_l0]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 0, stream 1: the negative part. -/
theorem neg1_l0 (hfin : FiniteArr x0) (b : Fin 1024) (j : Fin 8192) :
    val_main_v94 (F := Ideal) x0 x4 (ix2 b j) = minusPart (x0 (ix3 0 b (col x4 j))) := by
  rw [val_main_v94_apply, val_main_v92_apply, val_main_v93_apply, val_main_v90_apply, val_main_v91_apply,
    val_main_cst_30_apply, val_main_v89_apply, val_main_cst_29_apply, val_main_v88_apply, val_main_v87_apply,
    val_main_v86_apply, val_main_v85_apply, val_main_call6_v4_apply, val_main_call6_v3_apply, val_main_cst_28_apply,
    val_main_call6_v2_apply, val_main_call6_v1_apply, val_main_call6_v0_apply, val_main_cst_27_apply, stream1_l0]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 0, stream 2: the negative part. -/
theorem neg2_l0 (hfin : FiniteArr x0) (b : Fin 1024) (j : Fin 8192) :
    val_main_v104 (F := Ideal) x0 x5 (ix2 b j) = minusPart (x0 (ix3 0 b (col x5 j))) := by
  rw [val_main_v104_apply, val_main_v102_apply, val_main_v103_apply, val_main_v100_apply, val_main_v101_apply,
    val_main_cst_34_apply, val_main_v99_apply, val_main_cst_33_apply, val_main_v98_apply, val_main_v97_apply,
    val_main_v96_apply, val_main_v95_apply, val_main_call7_v4_apply, val_main_call7_v3_apply, val_main_cst_32_apply,
    val_main_call7_v2_apply, val_main_call7_v1_apply, val_main_call7_v0_apply, val_main_cst_31_apply, stream2_l0]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 0, stream 3: the negative part. -/
theorem neg3_l0 (hfin : FiniteArr x0) (b : Fin 1024) (j : Fin 8192) :
    val_main_v114 (F := Ideal) x0 x6 (ix2 b j) = minusPart (x0 (ix3 0 b (col x6 j))) := by
  rw [val_main_v114_apply, val_main_v112_apply, val_main_v113_apply, val_main_v110_apply, val_main_v111_apply,
    val_main_cst_38_apply, val_main_v109_apply, val_main_cst_37_apply, val_main_v108_apply, val_main_v107_apply,
    val_main_v106_apply, val_main_v105_apply, val_main_call8_v4_apply, val_main_call8_v3_apply, val_main_cst_36_apply,
    val_main_call8_v2_apply, val_main_call8_v1_apply, val_main_call8_v0_apply, val_main_cst_35_apply, stream3_l0]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 1, stream 0: the positive part. -/
theorem pos0_l1 (hfin : FiniteArr x0) (b : Fin 1024) (j : Fin 8192) :
    val_main_v259 (F := Ideal) x0 (ix2 b j) = plusPart (x0 (ix3 1 b j)) := by
  rw [val_main_v259_apply, val_main_v257_apply, val_main_v258_apply, val_main_v255_apply, val_main_v256_apply,
    val_main_cst_48_apply, val_main_v254_apply, val_main_cst_47_apply, val_main_v253_apply, val_main_v252_apply,
    val_main_v251_apply, val_main_v250_apply, val_main_call9_v4_apply, val_main_call9_v3_apply, val_main_cst_46_apply,
    val_main_call9_v2_apply, val_main_call9_v1_apply, val_main_call9_v0_apply, val_main_cst_45_apply, stream0_l1]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 1, stream 1: the positive part. -/
theorem pos1_l1 (hfin : FiniteArr x0) (b : Fin 1024) (j : Fin 8192) :
    val_main_v269 (F := Ideal) x0 x4 (ix2 b j) = plusPart (x0 (ix3 1 b (col x4 j))) := by
  rw [val_main_v269_apply, val_main_v267_apply, val_main_v268_apply, val_main_v265_apply, val_main_v266_apply,
    val_main_cst_52_apply, val_main_v264_apply, val_main_cst_51_apply, val_main_v263_apply, val_main_v262_apply,
    val_main_v261_apply, val_main_v260_apply, val_main_call10_v4_apply, val_main_call10_v3_apply, val_main_cst_50_apply,
    val_main_call10_v2_apply, val_main_call10_v1_apply, val_main_call10_v0_apply, val_main_cst_49_apply, stream1_l1]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 1, stream 2: the positive part. -/
theorem pos2_l1 (hfin : FiniteArr x0) (b : Fin 1024) (j : Fin 8192) :
    val_main_v279 (F := Ideal) x0 x5 (ix2 b j) = plusPart (x0 (ix3 1 b (col x5 j))) := by
  rw [val_main_v279_apply, val_main_v277_apply, val_main_v278_apply, val_main_v275_apply, val_main_v276_apply,
    val_main_cst_56_apply, val_main_v274_apply, val_main_cst_55_apply, val_main_v273_apply, val_main_v272_apply,
    val_main_v271_apply, val_main_v270_apply, val_main_call11_v4_apply, val_main_call11_v3_apply, val_main_cst_54_apply,
    val_main_call11_v2_apply, val_main_call11_v1_apply, val_main_call11_v0_apply, val_main_cst_53_apply, stream2_l1]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 1, stream 3: the positive part. -/
theorem pos3_l1 (hfin : FiniteArr x0) (b : Fin 1024) (j : Fin 8192) :
    val_main_v289 (F := Ideal) x0 x6 (ix2 b j) = plusPart (x0 (ix3 1 b (col x6 j))) := by
  rw [val_main_v289_apply, val_main_v287_apply, val_main_v288_apply, val_main_v285_apply, val_main_v286_apply,
    val_main_cst_60_apply, val_main_v284_apply, val_main_cst_59_apply, val_main_v283_apply, val_main_v282_apply,
    val_main_v281_apply, val_main_v280_apply, val_main_call12_v4_apply, val_main_call12_v3_apply, val_main_cst_58_apply,
    val_main_call12_v2_apply, val_main_call12_v1_apply, val_main_call12_v0_apply, val_main_cst_57_apply, stream3_l1]
  simp only [Ideal.mulf_def, Ideal.addf_def, Ideal.subf_def, Ideal.minimumf_def, Ideal.maximumf_def,
    Ideal.hostUnary_sign_def, Ideal.ofBits_def, Ideal.hostAbsf_def, Ideal.absf_def]
  exact plus_law _ (hfin _)

/-- Level 1, stream 0: the negative part. -/
theorem neg0_l1 (hfin : FiniteArr x0) (b : Fin 1024) (j : Fin 8192) :
    val_main_v299 (F := Ideal) x0 (ix2 b j) = minusPart (x0 (ix3 1 b j)) := by
  rw [val_main_v299_apply, val_main_v297_apply, val_main_v298_apply, val_main_v295_apply, val_main_v296_apply,
    val_main_cst_64_apply, val_main_v294_apply, val_main_cst_63_apply, val_main_v293_apply, val_main_v292_apply,
    val_main_v291_apply, val_main_v290_apply, val_main_call13_v4_apply, val_main_call13_v3_apply, val_main_cst_62_apply,
    val_main_call13_v2_apply, val_main_call13_v1_apply, val_main_call13_v0_apply, val_main_cst_61_apply, stream0_l1]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 1, stream 1: the negative part. -/
theorem neg1_l1 (hfin : FiniteArr x0) (b : Fin 1024) (j : Fin 8192) :
    val_main_v309 (F := Ideal) x0 x4 (ix2 b j) = minusPart (x0 (ix3 1 b (col x4 j))) := by
  rw [val_main_v309_apply, val_main_v307_apply, val_main_v308_apply, val_main_v305_apply, val_main_v306_apply,
    val_main_cst_68_apply, val_main_v304_apply, val_main_cst_67_apply, val_main_v303_apply, val_main_v302_apply,
    val_main_v301_apply, val_main_v300_apply, val_main_call14_v4_apply, val_main_call14_v3_apply, val_main_cst_66_apply,
    val_main_call14_v2_apply, val_main_call14_v1_apply, val_main_call14_v0_apply, val_main_cst_65_apply, stream1_l1]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 1, stream 2: the negative part. -/
theorem neg2_l1 (hfin : FiniteArr x0) (b : Fin 1024) (j : Fin 8192) :
    val_main_v319 (F := Ideal) x0 x5 (ix2 b j) = minusPart (x0 (ix3 1 b (col x5 j))) := by
  rw [val_main_v319_apply, val_main_v317_apply, val_main_v318_apply, val_main_v315_apply, val_main_v316_apply,
    val_main_cst_72_apply, val_main_v314_apply, val_main_cst_71_apply, val_main_v313_apply, val_main_v312_apply,
    val_main_v311_apply, val_main_v310_apply, val_main_call15_v4_apply, val_main_call15_v3_apply, val_main_cst_70_apply,
    val_main_call15_v2_apply, val_main_call15_v1_apply, val_main_call15_v0_apply, val_main_cst_69_apply, stream2_l1]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

/-- Level 1, stream 3: the negative part. -/
theorem neg3_l1 (hfin : FiniteArr x0) (b : Fin 1024) (j : Fin 8192) :
    val_main_v329 (F := Ideal) x0 x6 (ix2 b j) = minusPart (x0 (ix3 1 b (col x6 j))) := by
  rw [val_main_v329_apply, val_main_v327_apply, val_main_v328_apply, val_main_v325_apply, val_main_v326_apply,
    val_main_cst_76_apply, val_main_v324_apply, val_main_cst_75_apply, val_main_v323_apply, val_main_v322_apply,
    val_main_v321_apply, val_main_v320_apply, val_main_call16_v4_apply, val_main_call16_v3_apply, val_main_cst_74_apply,
    val_main_call16_v2_apply, val_main_call16_v1_apply, val_main_call16_v0_apply, val_main_cst_73_apply, stream3_l1]
  simp only [Ideal.mulf_def, Ideal.addf_def, Ideal.subf_def, Ideal.minimumf_def, Ideal.maximumf_def,
    Ideal.hostUnary_sign_def, Ideal.ofBits_def, Ideal.hostAbsf_def, Ideal.absf_def]
  exact minus_law _ (hfin _)

end Cert.ReferenceIdeal.RefValue

end
-- ==== Proof.RLevel0Rows.lean ====
/- Level 0 of the reference, rows 1 to 15 of the truth table, each read at an index: row c's contraction at (b, n) is
  the sum over the 8192 columns j of the row's product of the four picked stream parts times weight matrix c at (j, n).
  Stream i is on its negative part exactly when bit 3 - i of c is set.
-/
import proofs.«405175_j67516885893426_2_alg».proof.Proof.RefRead
import proofs.«405175_j67516885893426_2_alg».proof.Proof.Spec
import proofs.«405175_j67516885893426_2_alg».proof.Proof.RStages
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

/-- Row 1 of level 0: stream 3 on its negative part, the others on their positive parts, weight matrix 1. -/
theorem row1_l0 (hfin : FiniteArr x0) (b : Fin 1024) (n : Fin 256) :
    val_main_v127 (F := Ideal) x0 x1 x2 x3 x4 x5 x6 (ix2 b n)
      = ∑ j : Fin 8192, term x0 x4 x5 x6 0 1 b j * weight x1 x2 x3 0 1 j n := by
  rw [val_main_v127_apply]
  refine Finset.sum_congr rfl fun k _ => ?_
  have el : lidx_main_v127 (ix2 b n) k = ix2 b k :=
    funext fun a => Fin.ext (by match a with | ⟨0, _⟩ => rfl | ⟨1, _⟩ => rfl)
  have er : ridx_main_v127 (ix2 b n) k = ix2 k n :=
    funext fun a => Fin.ext (by match a with | ⟨0, _⟩ => rfl | ⟨1, _⟩ => rfl)
  have ew : idx_main_v125 (idx_main_v126 (ix2 k n)) = ix3 (wrow 0 1) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v124_apply, val_main_v123_apply, val_main_v122_apply, val_main_v126_apply,
    val_main_v125_apply, ew, pos0_l0 x0 hfin, pos1_l0 x0 x4 hfin, pos2_l0 x0 x5 hfin,
    neg3_l0 x0 x6 hfin, weights_apply]
  rfl

/-- Row 2 of level 0: stream 2 on its negative part, the others on their positive parts, weight matrix 2. -/
theorem row2_l0 (hfin : FiniteArr x0) (b : Fin 1024) (n : Fin 256) :
    val_main_v134 (F := Ideal) x0 x1 x2 x3 x4 x5 x6 (ix2 b n)
      = ∑ j : Fin 8192, term x0 x4 x5 x6 0 2 b j * weight x1 x2 x3 0 2 j n := by
  rw [val_main_v134_apply]
  refine Finset.sum_congr rfl fun k _ => ?_
  have el : lidx_main_v134 (ix2 b n) k = ix2 b k :=
    funext fun a => Fin.ext (by match a with | ⟨0, _⟩ => rfl | ⟨1, _⟩ => rfl)
  have er : ridx_main_v134 (ix2 b n) k = ix2 k n :=
    funext fun a => Fin.ext (by match a with | ⟨0, _⟩ => rfl | ⟨1, _⟩ => rfl)
  have ew : idx_main_v132 (idx_main_v133 (ix2 k n)) = ix3 (wrow 0 2) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v131_apply, val_main_v130_apply, val_main_v129_apply, val_main_v133_apply,
    val_main_v132_apply, ew, pos0_l0 x0 hfin, pos1_l0 x0 x4 hfin, neg2_l0 x0 x5 hfin,
    pos3_l0 x0 x6 hfin, weights_apply]
  rfl

/-- Row 3 of level 0: streams 2 and 3 on their negative parts, the others on their positive parts, weight matrix 3. -/
theorem row3_l0 (hfin : FiniteArr x0) (b : Fin 1024) (n : Fin 256) :
    val_main_v141 (F := Ideal) x0 x1 x2 x3 x4 x5 x6 (ix2 b n)
      = ∑ j : Fin 8192, term x0 x4 x5 x6 0 3 b j * weight x1 x2 x3 0 3 j n := by
  rw [val_main_v141_apply]
  refine Finset.sum_congr rfl fun k _ => ?_
  have el : lidx_main_v141 (ix2 b n) k = ix2 b k :=
    funext fun a => Fin.ext (by match a with | ⟨0, _⟩ => rfl | ⟨1, _⟩ => rfl)
  have er : ridx_main_v141 (ix2 b n) k = ix2 k n :=
    funext fun a => Fin.ext (by match a with | ⟨0, _⟩ => rfl | ⟨1, _⟩ => rfl)
  have ew : idx_main_v139 (idx_main_v140 (ix2 k n)) = ix3 (wrow 0 3) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v138_apply, val_main_v137_apply, val_main_v136_apply, val_main_v140_apply,
    val_main_v139_apply, ew, pos0_l0 x0 hfin, pos1_l0 x0 x4 hfin, neg2_l0 x0 x5 hfin,
    neg3_l0 x0 x6 hfin, weights_apply]
  rfl

/-- Row 4 of level 0: stream 1 on its negative part, the others on their positive parts, weight matrix 4. -/
theorem row4_l0 (hfin : FiniteArr x0) (b : Fin 1024) (n : Fin 256) :
    val_main_v148 (F := Ideal) x0 x1 x2 x3 x4 x5 x6 (ix2 b n)
      = ∑ j : Fin 8192, term x0 x4 x5 x6 0 4 b j * weight x1 x2 x3 0 4 j n := by
  rw [val_main_v148_apply]
  refine Finset.sum_congr rfl fun k _ => ?_
  have el : lidx_main_v148 (ix2 b n) k = ix2 b k :=
    funext fun a => Fin.ext (by match a with | ⟨0, _⟩ => rfl | ⟨1, _⟩ => rfl)
  have er : ridx_main_v148 (ix2 b n) k = ix2 k n :=
    funext fun a => Fin.ext (by match a with | ⟨0, _⟩ => rfl | ⟨1, _⟩ => rfl)
  have ew : idx_main_v146 (idx_main_v147 (ix2 k n)) = ix3 (wrow 0 4) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v145_apply, val_main_v144_apply, val_main_v143_apply, val_main_v147_apply,
    val_main_v146_apply, ew, pos0_l0 x0 hfin, neg1_l0 x0 x4 hfin, pos2_l0 x0 x5 hfin,
    pos3_l0 x0 x6 hfin, weights_apply]
  rfl

/-- Row 5 of level 0: streams 1 and 3 on their negative parts, the others on their positive parts, weight matrix 5. -/
theorem row5_l0 (hfin : FiniteArr x0) (b : Fin 1024) (n : Fin 256) :
    val_main_v155 (F := Ideal) x0 x1 x2 x3 x4 x5 x6 (ix2 b n)
      = ∑ j : Fin 8192, term x0 x4 x5 x6 0 5 b j * weight x1 x2 x3 0 5 j n := by
  rw [val_main_v155_apply]
  refine Finset.sum_congr rfl fun k _ => ?_
  have el : lidx_main_v155 (ix2 b n) k = ix2 b k :=
    funext fun a => Fin.ext (by match a with | ⟨0, _⟩ => rfl | ⟨1, _⟩ => rfl)
  have er : ridx_main_v155 (ix2 b n) k = ix2 k n :=
    funext fun a => Fin.ext (by match a with | ⟨0, _⟩ => rfl | ⟨1, _⟩ => rfl)
  have ew : idx_main_v153 (idx_main_v154 (ix2 k n)) = ix3 (wrow 0 5) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v152_apply, val_main_v151_apply, val_main_v150_apply, val_main_v154_apply,
    val_main_v153_apply, ew, pos0_l0 x0 hfin, neg1_l0 x0 x4 hfin, pos2_l0 x0 x5 hfin,
    neg3_l0 x0 x6 hfin, weights_apply]
  rfl

/-- Row 6 of level 0: streams 1 and 2 on their negative parts, the others on their positive parts, weight matrix 6. -/
theorem row6_l0 (hfin : FiniteArr x0) (b : Fin 1024) (n : Fin 256) :
    val_main_v162 (F := Ideal) x0 x1 x2 x3 x4 x5 x6 (ix2 b n)
      = ∑ j : Fin 8192, term x0 x4 x5 x6 0 6 b j * weight x1 x2 x3 0 6 j n := by
  rw [val_main_v162_apply]
  refine Finset.sum_congr rfl fun k _ => ?_
  have el : lidx_main_v162 (ix2 b n) k = ix2 b k :=
    funext fun a => Fin.ext (by match a with | ⟨0, _⟩ => rfl | ⟨1, _⟩ => rfl)
  have er : ridx_main_v162 (ix2 b n) k = ix2 k n :=
    funext fun a => Fin.ext (by match a with | ⟨0, _⟩ => rfl | ⟨1, _⟩ => rfl)
  have ew : idx_main_v160 (idx_main_v161 (ix2 k n)) = ix3 (wrow 0 6) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v159_apply, val_main_v158_apply, val_main_v157_apply, val_main_v161_apply,
    val_main_v160_apply, ew, pos0_l0 x0 hfin, neg1_l0 x0 x4 hfin, neg2_l0 x0 x5 hfin,
    pos3_l0 x0 x6 hfin, weights_apply]
  rfl

/-- Row 7 of level 0: streams 1, 2 and 3 on their negative parts, the others on their positive parts, weight matrix 7. -/
theorem row7_l0 (hfin : FiniteArr x0) (b : Fin 1024) (n : Fin 256) :
    val_main_v169 (F := Ideal) x0 x1 x2 x3 x4 x5 x6 (ix2 b n)
      = ∑ j : Fin 8192, term x0 x4 x5 x6 0 7 b j * weight x1 x2 x3 0 7 j n := by
  rw [val_main_v169_apply]
  refine Finset.sum_congr rfl fun k _ => ?_
  have el : lidx_main_v169 (ix2 b n) k = ix2 b k :=
    funext fun a => Fin.ext (by match a with | ⟨0, _⟩ => rfl | ⟨1, _⟩ => rfl)
  have er : ridx_main_v169 (ix2 b n) k = ix2 k n :=
    funext fun a => Fin.ext (by match a with | ⟨0, _⟩ => rfl | ⟨1, _⟩ => rfl)
  have ew : idx_main_v167 (idx_main_v168 (ix2 k n)) = ix3 (wrow 0 7) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v166_apply, val_main_v165_apply, val_main_v164_apply, val_main_v168_apply,
    val_main_v167_apply, ew, pos0_l0 x0 hfin, neg1_l0 x0 x4 hfin, neg2_l0 x0 x5 hfin,
    neg3_l0 x0 x6 hfin, weights_apply]
  rfl

/-- Row 8 of level 0: stream 0 on its negative part, the others on their positive parts, weight matrix 8. -/
theorem row8_l0 (hfin : FiniteArr x0) (b : Fin 1024) (n : Fin 256) :
    val_main_v176 (F := Ideal) x0 x1 x2 x3 x4 x5 x6 (ix2 b n)
      = ∑ j : Fin 8192, term x0 x4 x5 x6 0 8 b j * weight x1 x2 x3 0 8 j n := by
  rw [val_main_v176_apply]
  refine Finset.sum_congr rfl fun k _ => ?_
  have el : lidx_main_v176 (ix2 b n) k = ix2 b k :=
    funext fun a => Fin.ext (by match a with | ⟨0, _⟩ => rfl | ⟨1, _⟩ => rfl)
  have er : ridx_main_v176 (ix2 b n) k = ix2 k n :=
    funext fun a => Fin.ext (by match a with | ⟨0, _⟩ => rfl | ⟨1, _⟩ => rfl)
  have ew : idx_main_v174 (idx_main_v175 (ix2 k n)) = ix3 (wrow 0 8) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v173_apply, val_main_v172_apply, val_main_v171_apply, val_main_v175_apply,
    val_main_v174_apply, ew, neg0_l0 x0 hfin, pos1_l0 x0 x4 hfin, pos2_l0 x0 x5 hfin,
    pos3_l0 x0 x6 hfin, weights_apply]
  rfl

/-- Row 9 of level 0: streams 0 and 3 on their negative parts, the others on their positive parts, weight matrix 9. -/
theorem row9_l0 (hfin : FiniteArr x0) (b : Fin 1024) (n : Fin 256) :
    val_main_v183 (F := Ideal) x0 x1 x2 x3 x4 x5 x6 (ix2 b n)
      = ∑ j : Fin 8192, term x0 x4 x5 x6 0 9 b j * weight x1 x2 x3 0 9 j n := by
  rw [val_main_v183_apply]
  refine Finset.sum_congr rfl fun k _ => ?_
  have el : lidx_main_v183 (ix2 b n) k = ix2 b k :=
    funext fun a => Fin.ext (by match a with | ⟨0, _⟩ => rfl | ⟨1, _⟩ => rfl)
  have er : ridx_main_v183 (ix2 b n) k = ix2 k n :=
    funext fun a => Fin.ext (by match a with | ⟨0, _⟩ => rfl | ⟨1, _⟩ => rfl)
  have ew : idx_main_v181 (idx_main_v182 (ix2 k n)) = ix3 (wrow 0 9) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v180_apply, val_main_v179_apply, val_main_v178_apply, val_main_v182_apply,
    val_main_v181_apply, ew, neg0_l0 x0 hfin, pos1_l0 x0 x4 hfin, pos2_l0 x0 x5 hfin,
    neg3_l0 x0 x6 hfin, weights_apply]
  rfl

/-- Row 10 of level 0: streams 0 and 2 on their negative parts, the others on their positive parts, weight matrix 10. -/
theorem row10_l0 (hfin : FiniteArr x0) (b : Fin 1024) (n : Fin 256) :
    val_main_v190 (F := Ideal) x0 x1 x2 x3 x4 x5 x6 (ix2 b n)
      = ∑ j : Fin 8192, term x0 x4 x5 x6 0 10 b j * weight x1 x2 x3 0 10 j n := by
  rw [val_main_v190_apply]
  refine Finset.sum_congr rfl fun k _ => ?_
  have el : lidx_main_v190 (ix2 b n) k = ix2 b k :=
    funext fun a => Fin.ext (by match a with | ⟨0, _⟩ => rfl | ⟨1, _⟩ => rfl)
  have er : ridx_main_v190 (ix2 b n) k = ix2 k n :=
    funext fun a => Fin.ext (by match a with | ⟨0, _⟩ => rfl | ⟨1, _⟩ => rfl)
  have ew : idx_main_v188 (idx_main_v189 (ix2 k n)) = ix3 (wrow 0 10) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v187_apply, val_main_v186_apply, val_main_v185_apply, val_main_v189_apply,
    val_main_v188_apply, ew, neg0_l0 x0 hfin, pos1_l0 x0 x4 hfin, neg2_l0 x0 x5 hfin,
    pos3_l0 x0 x6 hfin, weights_apply]
  rfl

/-- Row 11 of level 0: streams 0, 2 and 3 on their negative parts, the others on their positive parts, weight matrix 11. -/
theorem row11_l0 (hfin : FiniteArr x0) (b : Fin 1024) (n : Fin 256) :
    val_main_v197 (F := Ideal) x0 x1 x2 x3 x4 x5 x6 (ix2 b n)
      = ∑ j : Fin 8192, term x0 x4 x5 x6 0 11 b j * weight x1 x2 x3 0 11 j n := by
  rw [val_main_v197_apply]
  refine Finset.sum_congr rfl fun k _ => ?_
  have el : lidx_main_v197 (ix2 b n) k = ix2 b k :=
    funext fun a => Fin.ext (by match a with | ⟨0, _⟩ => rfl | ⟨1, _⟩ => rfl)
  have er : ridx_main_v197 (ix2 b n) k = ix2 k n :=
    funext fun a => Fin.ext (by match a with | ⟨0, _⟩ => rfl | ⟨1, _⟩ => rfl)
  have ew : idx_main_v195 (idx_main_v196 (ix2 k n)) = ix3 (wrow 0 11) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v194_apply, val_main_v193_apply, val_main_v192_apply, val_main_v196_apply,
    val_main_v195_apply, ew, neg0_l0 x0 hfin, pos1_l0 x0 x4 hfin, neg2_l0 x0 x5 hfin,
    neg3_l0 x0 x6 hfin, weights_apply]
  rfl

/-- Row 12 of level 0: streams 0 and 1 on their negative parts, the others on their positive parts, weight matrix 12. -/
theorem row12_l0 (hfin : FiniteArr x0) (b : Fin 1024) (n : Fin 256) :
    val_main_v204 (F := Ideal) x0 x1 x2 x3 x4 x5 x6 (ix2 b n)
      = ∑ j : Fin 8192, term x0 x4 x5 x6 0 12 b j * weight x1 x2 x3 0 12 j n := by
  rw [val_main_v204_apply]
  refine Finset.sum_congr rfl fun k _ => ?_
  have el : lidx_main_v204 (ix2 b n) k = ix2 b k :=
    funext fun a => Fin.ext (by match a with | ⟨0, _⟩ => rfl | ⟨1, _⟩ => rfl)
  have er : ridx_main_v204 (ix2 b n) k = ix2 k n :=
    funext fun a => Fin.ext (by match a with | ⟨0, _⟩ => rfl | ⟨1, _⟩ => rfl)
  have ew : idx_main_v202 (idx_main_v203 (ix2 k n)) = ix3 (wrow 0 12) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v201_apply, val_main_v200_apply, val_main_v199_apply, val_main_v203_apply,
    val_main_v202_apply, ew, neg0_l0 x0 hfin, neg1_l0 x0 x4 hfin, pos2_l0 x0 x5 hfin,
    pos3_l0 x0 x6 hfin, weights_apply]
  rfl

/-- Row 13 of level 0: streams 0, 1 and 3 on their negative parts, the others on their positive parts, weight matrix 13. -/
theorem row13_l0 (hfin : FiniteArr x0) (b : Fin 1024) (n : Fin 256) :
    val_main_v211 (F := Ideal) x0 x1 x2 x3 x4 x5 x6 (ix2 b n)
      = ∑ j : Fin 8192, term x0 x4 x5 x6 0 13 b j * weight x1 x2 x3 0 13 j n := by
  rw [val_main_v211_apply]
  refine Finset.sum_congr rfl fun k _ => ?_
  have el : lidx_main_v211 (ix2 b n) k = ix2 b k :=
    funext fun a => Fin.ext (by match a with | ⟨0, _⟩ => rfl | ⟨1, _⟩ => rfl)
  have er : ridx_main_v211 (ix2 b n) k = ix2 k n :=
    funext fun a => Fin.ext (by match a with | ⟨0, _⟩ => rfl | ⟨1, _⟩ => rfl)
  have ew : idx_main_v209 (idx_main_v210 (ix2 k n)) = ix3 (wrow 0 13) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v208_apply, val_main_v207_apply, val_main_v206_apply, val_main_v210_apply,
    val_main_v209_apply, ew, neg0_l0 x0 hfin, neg1_l0 x0 x4 hfin, pos2_l0 x0 x5 hfin,
    neg3_l0 x0 x6 hfin, weights_apply]
  rfl

/-- Row 14 of level 0: streams 0, 1 and 2 on their negative parts, the others on their positive parts, weight matrix 14. -/
theorem row14_l0 (hfin : FiniteArr x0) (b : Fin 1024) (n : Fin 256) :
    val_main_v218 (F := Ideal) x0 x1 x2 x3 x4 x5 x6 (ix2 b n)
      = ∑ j : Fin 8192, term x0 x4 x5 x6 0 14 b j * weight x1 x2 x3 0 14 j n := by
  rw [val_main_v218_apply]
  refine Finset.sum_congr rfl fun k _ => ?_
  have el : lidx_main_v218 (ix2 b n) k = ix2 b k :=
    funext fun a => Fin.ext (by match a with | ⟨0, _⟩ => rfl | ⟨1, _⟩ => rfl)
  have er : ridx_main_v218 (ix2 b n) k = ix2 k n :=
    funext fun a => Fin.ext (by match a with | ⟨0, _⟩ => rfl | ⟨1, _⟩ => rfl)
  have ew : idx_main_v216 (idx_main_v217 (ix2 k n)) = ix3 (wrow 0 14) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v215_apply, val_main_v214_apply, val_main_v213_apply, val_main_v217_apply,
    val_main_v216_apply, ew, neg0_l0 x0 hfin, neg1_l0 x0 x4 hfin, neg2_l0 x0 x5 hfin,
    pos3_l0 x0 x6 hfin, weights_apply]
  rfl

/-- Row 15 of level 0: all four streams on their negative parts, weight matrix 15. -/
theorem row15_l0 (hfin : FiniteArr x0) (b : Fin 1024) (n : Fin 256) :
    val_main_v225 (F := Ideal) x0 x1 x2 x3 x4 x5 x6 (ix2 b n)
      = ∑ j : Fin 8192, term x0 x4 x5 x6 0 15 b j * weight x1 x2 x3 0 15 j n := by
  rw [val_main_v225_apply]
  refine Finset.sum_congr rfl fun k _ => ?_
  have el : lidx_main_v225 (ix2 b n) k = ix2 b k :=
    funext fun a => Fin.ext (by match a with | ⟨0, _⟩ => rfl | ⟨1, _⟩ => rfl)
  have er : ridx_main_v225 (ix2 b n) k = ix2 k n :=
    funext fun a => Fin.ext (by match a with | ⟨0, _⟩ => rfl | ⟨1, _⟩ => rfl)
  have ew : idx_main_v223 (idx_main_v224 (ix2 k n)) = ix3 (wrow 0 15) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v222_apply, val_main_v221_apply, val_main_v220_apply, val_main_v224_apply,
    val_main_v223_apply, ew, neg0_l0 x0 hfin, neg1_l0 x0 x4 hfin, neg2_l0 x0 x5 hfin,
    neg3_l0 x0 x6 hfin, weights_apply]
  rfl

end Cert.ReferenceIdeal.RefValue

end
-- ==== Proof.RLevel0.lean ====
/-
  Level 0 of the reference, read at an index. For each of the 16 truth-table rows c the reference multiplies the four
  picked stream parts (the row's product block [1024, 8192]), takes weight matrix c as a [8192, 256] matrix, contracts
  the two over the 8192 columns and adds the result onto the running total, which starts at the zero array. So after
  the 16 rows the total at (b, n) is the sum over c and over the 8192 columns j of the truth-table product times
  the weight.

  Row 0 is read here; rows 1 to 15, which differ from it only in which stream parts they pick and in the weight matrix,
  are read the same way in the module of the rows. The total then follows from the sixteen additions.
-/
import proofs.«405175_j67516885893426_2_alg».proof.Proof.RefRead
import proofs.«405175_j67516885893426_2_alg».proof.Proof.Spec
import proofs.«405175_j67516885893426_2_alg».proof.Proof.RStages
import proofs.«405175_j67516885893426_2_alg».proof.Proof.RLevel0Rows
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

/-- Row 0 of level 0: all four streams on their positive parts, weight matrix 0. The contraction's left index at column k
    is (b, k) and its right index (k, n); the reshape and the slice send (k, n) to entry (0, k, n) of the weights. -/
theorem row0_l0 (hfin : FiniteArr x0) (b : Fin 1024) (n : Fin 256) :
    val_main_v120 (F := Ideal) x0 x1 x2 x3 x4 x5 x6 (ix2 b n)
      = ∑ j : Fin 8192, term x0 x4 x5 x6 0 0 b j * weight x1 x2 x3 0 0 j n := by
  rw [val_main_v120_apply]
  refine Finset.sum_congr rfl fun k _ => ?_
  have el : lidx_main_v120 (ix2 b n) k = ix2 b k :=
    funext fun a => Fin.ext (by match a with | ⟨0, _⟩ => rfl | ⟨1, _⟩ => rfl)
  have er : ridx_main_v120 (ix2 b n) k = ix2 k n :=
    funext fun a => Fin.ext (by match a with | ⟨0, _⟩ => rfl | ⟨1, _⟩ => rfl)
  have ew : idx_main_v118 (idx_main_v119 (ix2 k n)) = ix3 (wrow 0 0) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v117_apply, val_main_v116_apply, val_main_v115_apply, val_main_v119_apply,
    val_main_v118_apply, ew, pos0_l0 x0 hfin, pos1_l0 x0 x4 hfin, pos2_l0 x0 x5 hfin,
    pos3_l0 x0 x6 hfin, weights_apply]
  rfl

/-- The running total after level 0's sixteen rows. -/
theorem level0_total (hfin : FiniteArr x0) (b : Fin 1024) (n : Fin 256) :
    val_main_v226 (F := Ideal) x0 x1 x2 x3 x4 x5 x6 (ix2 b n)
      = ∑ c : Fin 16, ∑ j : Fin 8192, term x0 x4 x5 x6 0 c b j * weight x1 x2 x3 0 c j n := by
  -- the sixteen additions, last first, down to the zero array the total starts from
  rw [val_main_v226_apply, val_main_v219_apply, val_main_v212_apply, val_main_v205_apply, val_main_v198_apply, val_main_v191_apply,
    val_main_v184_apply, val_main_v177_apply, val_main_v170_apply, val_main_v163_apply, val_main_v156_apply, val_main_v149_apply,
    val_main_v142_apply, val_main_v135_apply, val_main_v128_apply, val_main_v121_apply, val_main_v11_apply, val_main_cst_1_apply]
  simp only [Ideal.addf_def, Ideal.ofBits_def, Ideal.ofBits_zero_f32]
  -- each row's contraction is that row's sum over the columns
  rw [row0_l0 x0 x1 x2 x3 x4 x5 x6 hfin, row1_l0 x0 x1 x2 x3 x4 x5 x6 hfin, row2_l0 x0 x1 x2 x3 x4 x5 x6 hfin,
    row3_l0 x0 x1 x2 x3 x4 x5 x6 hfin, row4_l0 x0 x1 x2 x3 x4 x5 x6 hfin, row5_l0 x0 x1 x2 x3 x4 x5 x6 hfin,
    row6_l0 x0 x1 x2 x3 x4 x5 x6 hfin, row7_l0 x0 x1 x2 x3 x4 x5 x6 hfin, row8_l0 x0 x1 x2 x3 x4 x5 x6 hfin,
    row9_l0 x0 x1 x2 x3 x4 x5 x6 hfin, row10_l0 x0 x1 x2 x3 x4 x5 x6 hfin, row11_l0 x0 x1 x2 x3 x4 x5 x6 hfin,
    row12_l0 x0 x1 x2 x3 x4 x5 x6 hfin, row13_l0 x0 x1 x2 x3 x4 x5 x6 hfin, row14_l0 x0 x1 x2 x3 x4 x5 x6 hfin,
    row15_l0 x0 x1 x2 x3 x4 x5 x6 hfin]
  -- sixteen successive additions onto 0 add the sum of the sixteen
  exact (chain16 0 (fun c => ∑ j : Fin 8192, term x0 x4 x5 x6 0 c b j * weight x1 x2 x3 0 c j n)).trans (zero_add _)

end Cert.ReferenceIdeal.RefValue

end
-- ==== Proof.RLevel1Rows.lean ====
/- Level 1 of the reference, rows 1 to 15 of the truth table, each read at an index: row c's contraction at (b, n) is
  the sum over the 8192 columns j of the row's product of the four picked stream parts (second slice of x) times weight
  matrix 16 + c at (j, n). Stream i is on its negative part exactly when bit 3 - i of c is set.
-/
import proofs.«405175_j67516885893426_2_alg».proof.Proof.RefRead
import proofs.«405175_j67516885893426_2_alg».proof.Proof.Spec
import proofs.«405175_j67516885893426_2_alg».proof.Proof.RStages
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

/-- Row 1 of level 1: stream 3 on its negative part, the others on their positive parts, weight matrix 17. -/
theorem row1_l1 (hfin : FiniteArr x0) (b : Fin 1024) (n : Fin 256) :
    val_main_v342 (F := Ideal) x0 x1 x2 x3 x4 x5 x6 (ix2 b n)
      = ∑ j : Fin 8192, term x0 x4 x5 x6 1 1 b j * weight x1 x2 x3 1 1 j n := by
  rw [val_main_v342_apply]
  refine Finset.sum_congr rfl fun k _ => ?_
  have el : lidx_main_v342 (ix2 b n) k = ix2 b k :=
    funext fun a => Fin.ext (by match a with | ⟨0, _⟩ => rfl | ⟨1, _⟩ => rfl)
  have er : ridx_main_v342 (ix2 b n) k = ix2 k n :=
    funext fun a => Fin.ext (by match a with | ⟨0, _⟩ => rfl | ⟨1, _⟩ => rfl)
  have ew : idx_main_v340 (idx_main_v341 (ix2 k n)) = ix3 (wrow 1 1) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v339_apply, val_main_v338_apply, val_main_v337_apply, val_main_v341_apply,
    val_main_v340_apply, ew, pos0_l1 x0 hfin, pos1_l1 x0 x4 hfin, pos2_l1 x0 x5 hfin,
    neg3_l1 x0 x6 hfin, weights_apply]
  rfl

/-- Row 2 of level 1: stream 2 on its negative part, the others on their positive parts, weight matrix 18. -/
theorem row2_l1 (hfin : FiniteArr x0) (b : Fin 1024) (n : Fin 256) :
    val_main_v349 (F := Ideal) x0 x1 x2 x3 x4 x5 x6 (ix2 b n)
      = ∑ j : Fin 8192, term x0 x4 x5 x6 1 2 b j * weight x1 x2 x3 1 2 j n := by
  rw [val_main_v349_apply]
  refine Finset.sum_congr rfl fun k _ => ?_
  have el : lidx_main_v349 (ix2 b n) k = ix2 b k :=
    funext fun a => Fin.ext (by match a with | ⟨0, _⟩ => rfl | ⟨1, _⟩ => rfl)
  have er : ridx_main_v349 (ix2 b n) k = ix2 k n :=
    funext fun a => Fin.ext (by match a with | ⟨0, _⟩ => rfl | ⟨1, _⟩ => rfl)
  have ew : idx_main_v347 (idx_main_v348 (ix2 k n)) = ix3 (wrow 1 2) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v346_apply, val_main_v345_apply, val_main_v344_apply, val_main_v348_apply,
    val_main_v347_apply, ew, pos0_l1 x0 hfin, pos1_l1 x0 x4 hfin, neg2_l1 x0 x5 hfin,
    pos3_l1 x0 x6 hfin, weights_apply]
  rfl

/-- Row 3 of level 1: streams 2 and 3 on their negative parts, the others on their positive parts, weight matrix 19. -/
theorem row3_l1 (hfin : FiniteArr x0) (b : Fin 1024) (n : Fin 256) :
    val_main_v356 (F := Ideal) x0 x1 x2 x3 x4 x5 x6 (ix2 b n)
      = ∑ j : Fin 8192, term x0 x4 x5 x6 1 3 b j * weight x1 x2 x3 1 3 j n := by
  rw [val_main_v356_apply]
  refine Finset.sum_congr rfl fun k _ => ?_
  have el : lidx_main_v356 (ix2 b n) k = ix2 b k :=
    funext fun a => Fin.ext (by match a with | ⟨0, _⟩ => rfl | ⟨1, _⟩ => rfl)
  have er : ridx_main_v356 (ix2 b n) k = ix2 k n :=
    funext fun a => Fin.ext (by match a with | ⟨0, _⟩ => rfl | ⟨1, _⟩ => rfl)
  have ew : idx_main_v354 (idx_main_v355 (ix2 k n)) = ix3 (wrow 1 3) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v353_apply, val_main_v352_apply, val_main_v351_apply, val_main_v355_apply,
    val_main_v354_apply, ew, pos0_l1 x0 hfin, pos1_l1 x0 x4 hfin, neg2_l1 x0 x5 hfin,
    neg3_l1 x0 x6 hfin, weights_apply]
  rfl

/-- Row 4 of level 1: stream 1 on its negative part, the others on their positive parts, weight matrix 20. -/
theorem row4_l1 (hfin : FiniteArr x0) (b : Fin 1024) (n : Fin 256) :
    val_main_v363 (F := Ideal) x0 x1 x2 x3 x4 x5 x6 (ix2 b n)
      = ∑ j : Fin 8192, term x0 x4 x5 x6 1 4 b j * weight x1 x2 x3 1 4 j n := by
  rw [val_main_v363_apply]
  refine Finset.sum_congr rfl fun k _ => ?_
  have el : lidx_main_v363 (ix2 b n) k = ix2 b k :=
    funext fun a => Fin.ext (by match a with | ⟨0, _⟩ => rfl | ⟨1, _⟩ => rfl)
  have er : ridx_main_v363 (ix2 b n) k = ix2 k n :=
    funext fun a => Fin.ext (by match a with | ⟨0, _⟩ => rfl | ⟨1, _⟩ => rfl)
  have ew : idx_main_v361 (idx_main_v362 (ix2 k n)) = ix3 (wrow 1 4) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v360_apply, val_main_v359_apply, val_main_v358_apply, val_main_v362_apply,
    val_main_v361_apply, ew, pos0_l1 x0 hfin, neg1_l1 x0 x4 hfin, pos2_l1 x0 x5 hfin,
    pos3_l1 x0 x6 hfin, weights_apply]
  rfl

/-- Row 5 of level 1: streams 1 and 3 on their negative parts, the others on their positive parts, weight matrix 21. -/
theorem row5_l1 (hfin : FiniteArr x0) (b : Fin 1024) (n : Fin 256) :
    val_main_v370 (F := Ideal) x0 x1 x2 x3 x4 x5 x6 (ix2 b n)
      = ∑ j : Fin 8192, term x0 x4 x5 x6 1 5 b j * weight x1 x2 x3 1 5 j n := by
  rw [val_main_v370_apply]
  refine Finset.sum_congr rfl fun k _ => ?_
  have el : lidx_main_v370 (ix2 b n) k = ix2 b k :=
    funext fun a => Fin.ext (by match a with | ⟨0, _⟩ => rfl | ⟨1, _⟩ => rfl)
  have er : ridx_main_v370 (ix2 b n) k = ix2 k n :=
    funext fun a => Fin.ext (by match a with | ⟨0, _⟩ => rfl | ⟨1, _⟩ => rfl)
  have ew : idx_main_v368 (idx_main_v369 (ix2 k n)) = ix3 (wrow 1 5) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v367_apply, val_main_v366_apply, val_main_v365_apply, val_main_v369_apply,
    val_main_v368_apply, ew, pos0_l1 x0 hfin, neg1_l1 x0 x4 hfin, pos2_l1 x0 x5 hfin,
    neg3_l1 x0 x6 hfin, weights_apply]
  rfl

/-- Row 6 of level 1: streams 1 and 2 on their negative parts, the others on their positive parts, weight matrix 22. -/
theorem row6_l1 (hfin : FiniteArr x0) (b : Fin 1024) (n : Fin 256) :
    val_main_v377 (F := Ideal) x0 x1 x2 x3 x4 x5 x6 (ix2 b n)
      = ∑ j : Fin 8192, term x0 x4 x5 x6 1 6 b j * weight x1 x2 x3 1 6 j n := by
  rw [val_main_v377_apply]
  refine Finset.sum_congr rfl fun k _ => ?_
  have el : lidx_main_v377 (ix2 b n) k = ix2 b k :=
    funext fun a => Fin.ext (by match a with | ⟨0, _⟩ => rfl | ⟨1, _⟩ => rfl)
  have er : ridx_main_v377 (ix2 b n) k = ix2 k n :=
    funext fun a => Fin.ext (by match a with | ⟨0, _⟩ => rfl | ⟨1, _⟩ => rfl)
  have ew : idx_main_v375 (idx_main_v376 (ix2 k n)) = ix3 (wrow 1 6) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v374_apply, val_main_v373_apply, val_main_v372_apply, val_main_v376_apply,
    val_main_v375_apply, ew, pos0_l1 x0 hfin, neg1_l1 x0 x4 hfin, neg2_l1 x0 x5 hfin,
    pos3_l1 x0 x6 hfin, weights_apply]
  rfl

/-- Row 7 of level 1: streams 1, 2 and 3 on their negative parts, the others on their positive parts, weight matrix 23. -/
theorem row7_l1 (hfin : FiniteArr x0) (b : Fin 1024) (n : Fin 256) :
    val_main_v384 (F := Ideal) x0 x1 x2 x3 x4 x5 x6 (ix2 b n)
      = ∑ j : Fin 8192, term x0 x4 x5 x6 1 7 b j * weight x1 x2 x3 1 7 j n := by
  rw [val_main_v384_apply]
  refine Finset.sum_congr rfl fun k _ => ?_
  have el : lidx_main_v384 (ix2 b n) k = ix2 b k :=
    funext fun a => Fin.ext (by match a with | ⟨0, _⟩ => rfl | ⟨1, _⟩ => rfl)
  have er : ridx_main_v384 (ix2 b n) k = ix2 k n :=
    funext fun a => Fin.ext (by match a with | ⟨0, _⟩ => rfl | ⟨1, _⟩ => rfl)
  have ew : idx_main_v382 (idx_main_v383 (ix2 k n)) = ix3 (wrow 1 7) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v381_apply, val_main_v380_apply, val_main_v379_apply, val_main_v383_apply,
    val_main_v382_apply, ew, pos0_l1 x0 hfin, neg1_l1 x0 x4 hfin, neg2_l1 x0 x5 hfin,
    neg3_l1 x0 x6 hfin, weights_apply]
  rfl

/-- Row 8 of level 1: stream 0 on its negative part, the others on their positive parts, weight matrix 24. -/
theorem row8_l1 (hfin : FiniteArr x0) (b : Fin 1024) (n : Fin 256) :
    val_main_v391 (F := Ideal) x0 x1 x2 x3 x4 x5 x6 (ix2 b n)
      = ∑ j : Fin 8192, term x0 x4 x5 x6 1 8 b j * weight x1 x2 x3 1 8 j n := by
  rw [val_main_v391_apply]
  refine Finset.sum_congr rfl fun k _ => ?_
  have el : lidx_main_v391 (ix2 b n) k = ix2 b k :=
    funext fun a => Fin.ext (by match a with | ⟨0, _⟩ => rfl | ⟨1, _⟩ => rfl)
  have er : ridx_main_v391 (ix2 b n) k = ix2 k n :=
    funext fun a => Fin.ext (by match a with | ⟨0, _⟩ => rfl | ⟨1, _⟩ => rfl)
  have ew : idx_main_v389 (idx_main_v390 (ix2 k n)) = ix3 (wrow 1 8) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v388_apply, val_main_v387_apply, val_main_v386_apply, val_main_v390_apply,
    val_main_v389_apply, ew, neg0_l1 x0 hfin, pos1_l1 x0 x4 hfin, pos2_l1 x0 x5 hfin,
    pos3_l1 x0 x6 hfin, weights_apply]
  rfl

/-- Row 9 of level 1: streams 0 and 3 on their negative parts, the others on their positive parts, weight matrix 25. -/
theorem row9_l1 (hfin : FiniteArr x0) (b : Fin 1024) (n : Fin 256) :
    val_main_v398 (F := Ideal) x0 x1 x2 x3 x4 x5 x6 (ix2 b n)
      = ∑ j : Fin 8192, term x0 x4 x5 x6 1 9 b j * weight x1 x2 x3 1 9 j n := by
  rw [val_main_v398_apply]
  refine Finset.sum_congr rfl fun k _ => ?_
  have el : lidx_main_v398 (ix2 b n) k = ix2 b k :=
    funext fun a => Fin.ext (by match a with | ⟨0, _⟩ => rfl | ⟨1, _⟩ => rfl)
  have er : ridx_main_v398 (ix2 b n) k = ix2 k n :=
    funext fun a => Fin.ext (by match a with | ⟨0, _⟩ => rfl | ⟨1, _⟩ => rfl)
  have ew : idx_main_v396 (idx_main_v397 (ix2 k n)) = ix3 (wrow 1 9) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v395_apply, val_main_v394_apply, val_main_v393_apply, val_main_v397_apply,
    val_main_v396_apply, ew, neg0_l1 x0 hfin, pos1_l1 x0 x4 hfin, pos2_l1 x0 x5 hfin,
    neg3_l1 x0 x6 hfin, weights_apply]
  rfl

/-- Row 10 of level 1: streams 0 and 2 on their negative parts, the others on their positive parts, weight matrix 26. -/
theorem row10_l1 (hfin : FiniteArr x0) (b : Fin 1024) (n : Fin 256) :
    val_main_v405 (F := Ideal) x0 x1 x2 x3 x4 x5 x6 (ix2 b n)
      = ∑ j : Fin 8192, term x0 x4 x5 x6 1 10 b j * weight x1 x2 x3 1 10 j n := by
  rw [val_main_v405_apply]
  refine Finset.sum_congr rfl fun k _ => ?_
  have el : lidx_main_v405 (ix2 b n) k = ix2 b k :=
    funext fun a => Fin.ext (by match a with | ⟨0, _⟩ => rfl | ⟨1, _⟩ => rfl)
  have er : ridx_main_v405 (ix2 b n) k = ix2 k n :=
    funext fun a => Fin.ext (by match a with | ⟨0, _⟩ => rfl | ⟨1, _⟩ => rfl)
  have ew : idx_main_v403 (idx_main_v404 (ix2 k n)) = ix3 (wrow 1 10) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v402_apply, val_main_v401_apply, val_main_v400_apply, val_main_v404_apply,
    val_main_v403_apply, ew, neg0_l1 x0 hfin, pos1_l1 x0 x4 hfin, neg2_l1 x0 x5 hfin,
    pos3_l1 x0 x6 hfin, weights_apply]
  rfl

/-- Row 11 of level 1: streams 0, 2 and 3 on their negative parts, the others on their positive parts, weight matrix 27. -/
theorem row11_l1 (hfin : FiniteArr x0) (b : Fin 1024) (n : Fin 256) :
    val_main_v412 (F := Ideal) x0 x1 x2 x3 x4 x5 x6 (ix2 b n)
      = ∑ j : Fin 8192, term x0 x4 x5 x6 1 11 b j * weight x1 x2 x3 1 11 j n := by
  rw [val_main_v412_apply]
  refine Finset.sum_congr rfl fun k _ => ?_
  have el : lidx_main_v412 (ix2 b n) k = ix2 b k :=
    funext fun a => Fin.ext (by match a with | ⟨0, _⟩ => rfl | ⟨1, _⟩ => rfl)
  have er : ridx_main_v412 (ix2 b n) k = ix2 k n :=
    funext fun a => Fin.ext (by match a with | ⟨0, _⟩ => rfl | ⟨1, _⟩ => rfl)
  have ew : idx_main_v410 (idx_main_v411 (ix2 k n)) = ix3 (wrow 1 11) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v409_apply, val_main_v408_apply, val_main_v407_apply, val_main_v411_apply,
    val_main_v410_apply, ew, neg0_l1 x0 hfin, pos1_l1 x0 x4 hfin, neg2_l1 x0 x5 hfin,
    neg3_l1 x0 x6 hfin, weights_apply]
  rfl

/-- Row 12 of level 1: streams 0 and 1 on their negative parts, the others on their positive parts, weight matrix 28. -/
theorem row12_l1 (hfin : FiniteArr x0) (b : Fin 1024) (n : Fin 256) :
    val_main_v419 (F := Ideal) x0 x1 x2 x3 x4 x5 x6 (ix2 b n)
      = ∑ j : Fin 8192, term x0 x4 x5 x6 1 12 b j * weight x1 x2 x3 1 12 j n := by
  rw [val_main_v419_apply]
  refine Finset.sum_congr rfl fun k _ => ?_
  have el : lidx_main_v419 (ix2 b n) k = ix2 b k :=
    funext fun a => Fin.ext (by match a with | ⟨0, _⟩ => rfl | ⟨1, _⟩ => rfl)
  have er : ridx_main_v419 (ix2 b n) k = ix2 k n :=
    funext fun a => Fin.ext (by match a with | ⟨0, _⟩ => rfl | ⟨1, _⟩ => rfl)
  have ew : idx_main_v417 (idx_main_v418 (ix2 k n)) = ix3 (wrow 1 12) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v416_apply, val_main_v415_apply, val_main_v414_apply, val_main_v418_apply,
    val_main_v417_apply, ew, neg0_l1 x0 hfin, neg1_l1 x0 x4 hfin, pos2_l1 x0 x5 hfin,
    pos3_l1 x0 x6 hfin, weights_apply]
  rfl

/-- Row 13 of level 1: streams 0, 1 and 3 on their negative parts, the others on their positive parts, weight matrix 29. -/
theorem row13_l1 (hfin : FiniteArr x0) (b : Fin 1024) (n : Fin 256) :
    val_main_v426 (F := Ideal) x0 x1 x2 x3 x4 x5 x6 (ix2 b n)
      = ∑ j : Fin 8192, term x0 x4 x5 x6 1 13 b j * weight x1 x2 x3 1 13 j n := by
  rw [val_main_v426_apply]
  refine Finset.sum_congr rfl fun k _ => ?_
  have el : lidx_main_v426 (ix2 b n) k = ix2 b k :=
    funext fun a => Fin.ext (by match a with | ⟨0, _⟩ => rfl | ⟨1, _⟩ => rfl)
  have er : ridx_main_v426 (ix2 b n) k = ix2 k n :=
    funext fun a => Fin.ext (by match a with | ⟨0, _⟩ => rfl | ⟨1, _⟩ => rfl)
  have ew : idx_main_v424 (idx_main_v425 (ix2 k n)) = ix3 (wrow 1 13) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v423_apply, val_main_v422_apply, val_main_v421_apply, val_main_v425_apply,
    val_main_v424_apply, ew, neg0_l1 x0 hfin, neg1_l1 x0 x4 hfin, pos2_l1 x0 x5 hfin,
    neg3_l1 x0 x6 hfin, weights_apply]
  rfl

/-- Row 14 of level 1: streams 0, 1 and 2 on their negative parts, the others on their positive parts, weight matrix 30. -/
theorem row14_l1 (hfin : FiniteArr x0) (b : Fin 1024) (n : Fin 256) :
    val_main_v433 (F := Ideal) x0 x1 x2 x3 x4 x5 x6 (ix2 b n)
      = ∑ j : Fin 8192, term x0 x4 x5 x6 1 14 b j * weight x1 x2 x3 1 14 j n := by
  rw [val_main_v433_apply]
  refine Finset.sum_congr rfl fun k _ => ?_
  have el : lidx_main_v433 (ix2 b n) k = ix2 b k :=
    funext fun a => Fin.ext (by match a with | ⟨0, _⟩ => rfl | ⟨1, _⟩ => rfl)
  have er : ridx_main_v433 (ix2 b n) k = ix2 k n :=
    funext fun a => Fin.ext (by match a with | ⟨0, _⟩ => rfl | ⟨1, _⟩ => rfl)
  have ew : idx_main_v431 (idx_main_v432 (ix2 k n)) = ix3 (wrow 1 14) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v430_apply, val_main_v429_apply, val_main_v428_apply, val_main_v432_apply,
    val_main_v431_apply, ew, neg0_l1 x0 hfin, neg1_l1 x0 x4 hfin, neg2_l1 x0 x5 hfin,
    pos3_l1 x0 x6 hfin, weights_apply]
  rfl

/-- Row 15 of level 1: all four streams on their negative parts, weight matrix 31. -/
theorem row15_l1 (hfin : FiniteArr x0) (b : Fin 1024) (n : Fin 256) :
    val_main_v440 (F := Ideal) x0 x1 x2 x3 x4 x5 x6 (ix2 b n)
      = ∑ j : Fin 8192, term x0 x4 x5 x6 1 15 b j * weight x1 x2 x3 1 15 j n := by
  rw [val_main_v440_apply]
  refine Finset.sum_congr rfl fun k _ => ?_
  have el : lidx_main_v440 (ix2 b n) k = ix2 b k :=
    funext fun a => Fin.ext (by match a with | ⟨0, _⟩ => rfl | ⟨1, _⟩ => rfl)
  have er : ridx_main_v440 (ix2 b n) k = ix2 k n :=
    funext fun a => Fin.ext (by match a with | ⟨0, _⟩ => rfl | ⟨1, _⟩ => rfl)
  have ew : idx_main_v438 (idx_main_v439 (ix2 k n)) = ix3 (wrow 1 15) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v437_apply, val_main_v436_apply, val_main_v435_apply, val_main_v439_apply,
    val_main_v438_apply, ew, neg0_l1 x0 hfin, neg1_l1 x0 x4 hfin, neg2_l1 x0 x5 hfin,
    neg3_l1 x0 x6 hfin, weights_apply]
  rfl

end Cert.ReferenceIdeal.RefValue

end
-- ==== Proof.RLevel1.lean ====
/-
  Level 1 of the reference, read at an index: the same sixteen rows over the second slice of x and weight matrices
  16 to 31, added one after the other onto the total level 0 left.

  Row 0 is read here; rows 1 to 15, which differ from it only in which stream parts they pick and in the weight matrix,
  are read the same way in the module of the rows. The result then follows from the sixteen additions.
-/
import proofs.«405175_j67516885893426_2_alg».proof.Proof.RefRead
import proofs.«405175_j67516885893426_2_alg».proof.Proof.Spec
import proofs.«405175_j67516885893426_2_alg».proof.Proof.RStages
import proofs.«405175_j67516885893426_2_alg».proof.Proof.RLevel1Rows
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

/-- Row 0 of level 1: all four streams on their positive parts, weight matrix 16. The contraction's left index at column k
    is (b, k) and its right index (k, n); the reshape and the slice send (k, n) to entry (16, k, n) of the weights. -/
theorem row0_l1 (hfin : FiniteArr x0) (b : Fin 1024) (n : Fin 256) :
    val_main_v335 (F := Ideal) x0 x1 x2 x3 x4 x5 x6 (ix2 b n)
      = ∑ j : Fin 8192, term x0 x4 x5 x6 1 0 b j * weight x1 x2 x3 1 0 j n := by
  rw [val_main_v335_apply]
  refine Finset.sum_congr rfl fun k _ => ?_
  have el : lidx_main_v335 (ix2 b n) k = ix2 b k :=
    funext fun a => Fin.ext (by match a with | ⟨0, _⟩ => rfl | ⟨1, _⟩ => rfl)
  have er : ridx_main_v335 (ix2 b n) k = ix2 k n :=
    funext fun a => Fin.ext (by match a with | ⟨0, _⟩ => rfl | ⟨1, _⟩ => rfl)
  have ew : idx_main_v333 (idx_main_v334 (ix2 k n)) = ix3 (wrow 1 0) k n :=
    funext fun a => Fin.ext (by
      match a with
      | ⟨0, _⟩ => rfl
      | ⟨1, _⟩ => show (k.val * 256 + n.val) / 256 % 8192 = k.val; omega
      | ⟨2, _⟩ => show (k.val * 256 + n.val) % 256 = n.val; omega)
  rw [el, er, val_main_v332_apply, val_main_v331_apply, val_main_v330_apply, val_main_v334_apply,
    val_main_v333_apply, ew, pos0_l1 x0 hfin, pos1_l1 x0 x4 hfin, pos2_l1 x0 x5 hfin,
    pos3_l1 x0 x6 hfin, weights_apply]
  rfl

/-- The result: level 0's total plus level 1's sixteen rows. -/
theorem level1_total (hfin : FiniteArr x0) (b : Fin 1024) (n : Fin 256) :
    val_main_v441 (F := Ideal) x0 x1 x2 x3 x4 x5 x6 (ix2 b n)
      = val_main_v226 (F := Ideal) x0 x1 x2 x3 x4 x5 x6 (ix2 b n)
        + ∑ c : Fin 16, ∑ j : Fin 8192, term x0 x4 x5 x6 1 c b j * weight x1 x2 x3 1 c j n := by
  -- the sixteen additions, last first, down to the total level 0 left
  rw [val_main_v441_apply, val_main_v434_apply, val_main_v427_apply, val_main_v420_apply, val_main_v413_apply, val_main_v406_apply,
    val_main_v399_apply, val_main_v392_apply, val_main_v385_apply, val_main_v378_apply, val_main_v371_apply, val_main_v364_apply,
    val_main_v357_apply, val_main_v350_apply, val_main_v343_apply, val_main_v336_apply]
  simp only [Ideal.addf_def]
  -- each row's contraction is that row's sum over the columns
  rw [row0_l1 x0 x1 x2 x3 x4 x5 x6 hfin, row1_l1 x0 x1 x2 x3 x4 x5 x6 hfin, row2_l1 x0 x1 x2 x3 x4 x5 x6 hfin,
    row3_l1 x0 x1 x2 x3 x4 x5 x6 hfin, row4_l1 x0 x1 x2 x3 x4 x5 x6 hfin, row5_l1 x0 x1 x2 x3 x4 x5 x6 hfin,
    row6_l1 x0 x1 x2 x3 x4 x5 x6 hfin, row7_l1 x0 x1 x2 x3 x4 x5 x6 hfin, row8_l1 x0 x1 x2 x3 x4 x5 x6 hfin,
    row9_l1 x0 x1 x2 x3 x4 x5 x6 hfin, row10_l1 x0 x1 x2 x3 x4 x5 x6 hfin, row11_l1 x0 x1 x2 x3 x4 x5 x6 hfin,
    row12_l1 x0 x1 x2 x3 x4 x5 x6 hfin, row13_l1 x0 x1 x2 x3 x4 x5 x6 hfin, row14_l1 x0 x1 x2 x3 x4 x5 x6 hfin,
    row15_l1 x0 x1 x2 x3 x4 x5 x6 hfin]
  -- sixteen successive additions onto a start value add the sum of the sixteen
  exact chain16 _ (fun c => ∑ j : Fin 8192, term x0 x4 x5 x6 1 c b j * weight x1 x2 x3 1 c j n)

end Cert.ReferenceIdeal.RefValue

end
-- ==== Proof.RResult.lean ====
/-
  The reference's result is the layer's result G: level 0's total plus level 1's rows is the sum over the two levels.
-/
import proofs.«405175_j67516885893426_2_alg».proof.Proof.RefRead
import proofs.«405175_j67516885893426_2_alg».proof.Proof.Spec
import proofs.«405175_j67516885893426_2_alg».proof.Proof.RStages
import proofs.«405175_j67516885893426_2_alg».proof.Proof.RLevel0
import proofs.«405175_j67516885893426_2_alg».proof.Proof.RLevel1
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx BinaryDense

variable (x0 : (⟨S2x1024x8192, .f32⟩ : BufTy).Contents (Elt Ideal)) (x1 : (⟨S32x8192x256, .f32⟩ : BufTy).Contents (Elt Ideal))
  (x2 : (⟨S1, .f32⟩ : BufTy).Contents (Elt Ideal)) (x3 : (⟨S8192x256, .f32⟩ : BufTy).Contents (Elt Ideal))
  (x4 x5 x6 : (⟨S8192, .i32⟩ : BufTy).Contents (Elt Ideal))

theorem result_eq (hfin : FiniteArr x0) :
    val_main_v441 (F := Ideal) x0 x1 x2 x3 x4 x5 x6 = G x0 x1 x2 x3 x4 x5 x6 := by
  funext i
  obtain ⟨b, n, rfl⟩ : ∃ (b : Fin 1024) (n : Fin 256), i = ix2 b n := ⟨i 0, i 1, eq_ix2 i⟩
  rw [level1_total x0 x1 x2 x3 x4 x5 x6 hfin, level0_total x0 x1 x2 x3 x4 x5 x6 hfin]
  show _ = ∑ l : Fin 2, ∑ c : Fin 16, ∑ j : Fin 8192, term x0 x4 x5 x6 l c b j * weight x1 x2 x3 l c j n
  rw [Fin.sum_univ_two]

end Cert.ReferenceIdeal.RefValue

end
-- ==== Proof.RefRunValue.lean ====
/-
  The reference's run, read as a value. Every weakly fair execution of the reference's @main ends with every buffer at
  the fold of its 606 operations over the launch contents; evaluated window by window that fold holds the result at its
  last stage function of the arguments, and the arguments themselves unchanged. Where every entry of x is a real
  number the last stage function is the layer's result G.
-/
import proofs.«405175_j67516885893426_2_alg».proof.Proof.RefRun
import proofs.«405175_j67516885893426_2_alg».proof.Proof.RefEvalAll
import proofs.«405175_j67516885893426_2_alg».proof.Proof.RResult
import proofs.«405175_j67516885893426_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.StableHlo BinaryDense

variable (m : (ℓ : Loc nD τ sig) → Buf (Elt Ideal) ℓ) (ρ : Dev nD → PrngReg)

/-- The reference runs, and its argument arrays end unchanged. -/
theorem run_args : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨-, h0, h1, h2, h3, h4, h5, h6⟩ :=
      Cert.ReferenceIdeal.RunP.eval (F := Ideal) (launchContents m c)
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) rfl rfl rfl rfl rfl rfl rfl
    exact ⟨(h c main_arg0).trans h0, (h c main_arg1).trans h1, (h c main_arg2).trans h2, (h c main_arg3).trans h3,
      (h c main_arg4).trans h4, (h c main_arg5).trans h5, (h c main_arg6).trans h6⟩)
    (Cert.ReferenceIdeal.RunP.run (F := Ideal) m ρ)

/-- Where x is finite the reference's result is the layer's result G of the arguments. -/
theorem run (hfin : ∀ c : Dev nD, FiniteArr (m ((c.tc : Thread nD τ).loc main_arg0))) :
    θ_run defs (onTc (τ := τ) (main (F := Ideal))) ⟨m, fun _ => 0, ρ⟩ fun r => ∀ c : Dev nD,
      r.2.mem ((c.tc : Thread nD τ).loc main_v441)
          = G (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨hv, h0, h1, h2, h3, h4, h5, h6⟩ :=
      Cert.ReferenceIdeal.RunP.eval (F := Ideal) (launchContents m c)
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) rfl rfl rfl rfl rfl rfl rfl
    exact ⟨((h c main_v441).trans hv).trans (result_eq _ _ _ _ _ _ _ (hfin c)),
      (h c main_arg0).trans h0, (h c main_arg1).trans h1, (h c main_arg2).trans h2, (h c main_arg3).trans h3,
      (h c main_arg4).trans h4, (h c main_arg5).trans h5, (h c main_arg6).trans h6⟩)
    (Cert.ReferenceIdeal.RunP.run (F := Ideal) m ρ)

end Cert.ReferenceIdeal.RefValue

end
-- ==== Proof.lean ====
/-
  The certificate of a binary dense layer with a 4-input truth table against its jnp reference, over the extended reals.

  Both programs compute, at (b, n), the sum over the 2 levels l, the 16 truth-table rows c and the 8192 input columns
  j of prod4 c (x(l,b,j), x(l,b,col₀ j), x(l,b,col₁ j), x(l,b,col₂ j)) · sign(w[16l+c, j, n]) · |γ| · mask[j, n]: the
  layer's result G (Proof/Spec.lean). The kernel forms the four streams with jnp.take, which fills an entry whose id is
  not a valid index with a NaN pattern, where the reference's x[:, ids] clamps the id: the two agree exactly where
  every id satisfies −8192 ≤ id < 8192, which the precondition states. The kernel splits each stream value into
  max(s, 0) and max(−s, 0) and the reference into (1 ± sign s) · ½ · |s|: equal on real numbers, which the
  precondition's finiteness of x gives. The kernel accumulates, per level, 32 tiles of 256 columns in an f32 scratch
  block and adds the two levels at the end; the reference adds 32 products over all 8192 columns one after the other:
  the same sum, regrouped (addition on the extended reals is commutative and associative; no other law is used).

  frame_Kernel, frame_KernelIdeal: the generated frame certificates. frame_ReferenceIdeal: the reference's run with
  the result dropped (Proof/RefRunValue.lean). preserves: the one ledger entry, the sign-bit rule's statement at the
  weight block's shape. algebraic: the kernel's run ends at G of its arguments (Proof/KValue.lean), the reference's at
  G of its own (Proof/RefRunValue.lean), and the arguments agree.
-/
import proofs.«405175_j67516885893426_2_alg».proof.Defs
import proofs.«405175_j67516885893426_2_alg».proof.Proof.Gen.Kernel
import proofs.«405175_j67516885893426_2_alg».proof.Proof.Gen.Kernel.Skeleton
import proofs.«405175_j67516885893426_2_alg».proof.Proof.Gen.Kernel.Launch
import proofs.«405175_j67516885893426_2_alg».proof.Proof.Gen.Kernel.Points
import proofs.«405175_j67516885893426_2_alg».proof.Proof.Gen.Kernel.Frame
import proofs.«405175_j67516885893426_2_alg».proof.Proof.Gen.KernelIdeal
import proofs.«405175_j67516885893426_2_alg».proof.Proof.Gen.KernelIdeal.Skeleton
import proofs.«405175_j67516885893426_2_alg».proof.Proof.Gen.KernelIdeal.Launch
import proofs.«405175_j67516885893426_2_alg».proof.Proof.Gen.KernelIdeal.Points
import proofs.«405175_j67516885893426_2_alg».proof.Proof.Gen.KernelIdeal.Frame
import proofs.«405175_j67516885893426_2_alg».proof.Proof.Gen.ReferenceIdeal
import proofs.«405175_j67516885893426_2_alg».proof.Proof.Gen.Pre_finite_inputs
import proofs.«405175_j67516885893426_2_alg».proof.Proof.Spec
import proofs.«405175_j67516885893426_2_alg».proof.Proof.PreFacts
import proofs.«405175_j67516885893426_2_alg».proof.Proof.KValue
import proofs.«405175_j67516885893426_2_alg».proof.Proof.RefRunValue
import Idealize.ShloMosaic.Adequacy
import Idealize.ShloMosaic.Init

noncomputable section

namespace Cert.Proof

open Idealize.ShloMosaic Idealize.SL.Sem BinaryDense

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefValue.run_args m ρ

/-- The ledger's one entry: 1.0 carrying a weight's sign bit is −1 where the weight is negative and 1 elsewhere. -/
theorem preserves : Cert.preserves_Kernel_KernelIdeal :=
  IdealRules.sign_bit.statement Cert.KernelIdeal.S16x256x256 .f32

/-- Both runs end at the layer's result G of arguments that agree. -/
theorem algebraic : Cert.algebraic_KernelIdeal_ReferenceIdeal := by
  intro m ρ m' ρ' hpre hagree
  have hp : ∀ c : Dev Cert.KernelIdeal.nD, FiniteArr (m ((c.tc : Thread Cert.KernelIdeal.nD Cert.KernelIdeal.τ).loc Cert.KernelIdeal.main_arg0)) ∧ InRange (m ((c.tc : Thread Cert.KernelIdeal.nD Cert.KernelIdeal.τ).loc Cert.KernelIdeal.main_arg4))
      ∧ InRange (m ((c.tc : Thread Cert.KernelIdeal.nD Cert.KernelIdeal.τ).loc Cert.KernelIdeal.main_arg5)) ∧ InRange (m ((c.tc : Thread Cert.KernelIdeal.nD Cert.KernelIdeal.τ).loc Cert.KernelIdeal.main_arg6)) :=
    fun c => pre_facts _ _ _ _ _ _ _ (hpre c)
  refine ⟨_, Cert.KernelIdeal.KValue.run m ρ (fun c => (hp c).2), ?_⟩
  have hfin : ∀ c : Dev Cert.ReferenceIdeal.nD, FiniteArr (m' ((c.tc : Thread Cert.ReferenceIdeal.nD Cert.ReferenceIdeal.τ).loc Cert.ReferenceIdeal.main_arg0)) := fun c => by
    rw [(hagree c).1]; exact (hp c).1
  refine (θ_run Cert.ReferenceIdeal.defs _ _).mono (fun _ h c => ?_) (Cert.ReferenceIdeal.RefValue.run m' ρ' hfin)
  obtain ⟨hv, hargs⟩ := h c
  refine ⟨hv.trans ?_, hargs⟩
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
